-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x512x512 : Shape := ⟨4, ![8, 8, 512, 512]⟩
abbrev S8x512x512 : Shape := ⟨3, ![8, 512, 512]⟩
abbrev S8x8 : Shape := ⟨2, ![8, 8]⟩
abbrev S8x262144 : Shape := ⟨2, ![8, 262144]⟩
abbrev S8x262144x1 : Shape := ⟨3, ![8, 262144, 1]⟩
abbrev S8 : Shape := ⟨1, ![8]⟩
abbrev S1x1x8 : Shape := ⟨3, ![1, 1, 8]⟩
abbrev S8x262144x8 : Shape := ⟨3, ![8, 262144, 8]⟩
abbrev S_ : Shape := ⟨0, ![]⟩

class Facts : Prop where
  shapeCasts_S8x512x512_S8x262144 : S8x512x512.ShapeCasts S8x262144
  bcast_S8x262144_S8x262144x1_0_1 : S8x262144.BroadcastsInDim S8x262144x1 (![0, 1] : Fin 2 → Fin S8x262144x1.rank)
  bcast_S8_S1x1x8_2 : S8.BroadcastsInDim S1x1x8 (![2] : Fin 1 → Fin S1x1x8.rank)
  bcast_S8x262144x1_S8x262144x8_0_1_2 : S8x262144x1.BroadcastsInDim S8x262144x8 (![0, 1, 2] : Fin 3 → Fin S8x262144x8.rank)
  bcast_S1x1x8_S8x262144x8_0_1_2 : S1x1x8.BroadcastsInDim S8x262144x8 (![0, 1, 2] : Fin 3 → Fin S8x262144x8.rank)
  bcast_S_S8x8x512x512 : S_.BroadcastsInDim S8x8x512x512 (![] : Fin 0 → Fin S8x8x512x512.rank)
  reducesTo_S8x8x512x512_S_d0_1_2_3 : S8x8x512x512.ReducesTo [0, 1, 2, 3] S_
  h_S_ : 0 < S_.numel
  bcast_S_S8x8 : S_.BroadcastsInDim S8x8 (![] : Fin 0 → Fin S8x8.rank)
  reducesTo_S8x8_S_d0_1 : S8x8.ReducesTo [0, 1] S_
  bcast_S_S8x512x512 : S_.BroadcastsInDim S8x512x512 (![] : Fin 0 → Fin S8x512x512.rank)
  reducesTo_S8x512x512_S_d0_1_2 : S8x512x512.ReducesTo [0, 1, 2] S_
  reducesTo_S8x262144x8_S8x8_d1 : S8x262144x8.ReducesTo [1] S8x8

variable [Facts]

def fn_part1 {F : FTy → Type} [FloatOps F] (main_arg1 : IVec S8x512x512 32) (main_v7 : FVec F S8x262144x8 .f32) (main_v16 : IVec S_ 1) (main_v18 : IVec S8x512x512 1) : IVec S_ 1 :=
  let main_c_3 : IVec S_ 1 := constantI S_ 1 1#1
  let main_v19 : IVec S_ 1 := (fun x v => Host.reduce IntOp.andi x v reducesTo_S8x512x512_S_d0_1_2 h_S_) main_v18 main_c_3
  let main_v20 : IVec S_ 1 := andi main_v16 main_v19
  let main_c_4 : IVec S_ 32 := constantI S_ 32 8#32
  let main_v21 : IVec S8x512x512 32 := broadcastInDim S8x512x512 ![] bcast_S_S8x512x512 main_c_4
  let main_v22 : IVec S8x512x512 1 := cmpi .slt main_arg1 main_v21
  let main_c_5 : IVec S_ 1 := constantI S_ 1 1#1
  let main_v23 : IVec S_ 1 := (fun x v => Host.reduce IntOp.andi x v reducesTo_S8x512x512_S_d0_1_2 h_S_) main_v22 main_c_5
  let main_v24 : IVec S_ 1 := andi main_v20 main_v23
  let main_cst_6 : FVec F S_ .f32 := constant S_ .f32 0x00000000#32
  let main_v25 : FVec F S8x8 .f32 := (fun x v => Host.reduceAdd x v reducesTo_S8x262144x8_S8x8_d1 h_S_) main_v7 main_cst_6
  let main_cst_7 : FVec F S_ .f32 := constant S_ .f32 0x00000000#32
  let main_v26 : FVec F S8x8 .f32 := broadcastInDim S8x8 ![] bcast_S_S8x8 main_cst_7
  let main_v27 : IVec S8x8 1 := cmpf .ogt main_v25 main_v26
  let main_c_8 : IVec S_ 1 := constantI S_ 1 1#1
  let main_v28 : IVec S_ 1 := (fun x v => Host.reduce IntOp.andi x v reducesTo_S8x8_S_d0_1 h_S_) main_v27 main_c_8
  let main_v29 : IVec S_ 1 := andi main_v24 main_v28
  main_v29

def fn {F : FTy → Type} [FloatOps F] (main_arg0 : FVec F S8x8x512x512 .f32) (main_arg1 : IVec S8x512x512 32) (main_arg2 : FVec F S8x8 .f32) : IVec S_ 1 :=
  let main_v0 : IVec S8x262144 32 := shapeCast S8x262144 main_arg1 shapeCasts_S8x512x512_S8x262144
  let main_v1 : IVec S8x262144x1 32 := broadcastInDim S8x262144x1 ![0, 1] bcast_S8x262144_S8x262144x1_0_1 main_v0
  let main_v2 : IVec S8 32 := iotaInDim S8 32 0
  let main_v3 : IVec S1x1x8 32 := broadcastInDim S1x1x8 ![2] bcast_S8_S1x1x8_2 main_v2
  let main_v4 : IVec S8x262144x8 32 := broadcastInDim S8x262144x8 ![0, 1, 2] bcast_S8x262144x1_S8x262144x8_0_1_2 main_v1
  let main_v5 : IVec S8x262144x8 32 := broadcastInDim S8x262144x8 ![0, 1, 2] bcast_S1x1x8_S8x262144x8_0_1_2 main_v3
  let main_v6 : IVec S8x262144x8 1 := cmpi .eq main_v4 main_v5
  let main_v7 : FVec F S8x262144x8 .f32 := uitofp .f32 main_v6
  let main_v8 : FVec F S8x8x512x512 .f32 := Host.absf main_arg0
  let main_cst : FVec F S_ .f32 := constant S_ .f32 0x7F800000#32
  let main_v9 : FVec F S8x8x512x512 .f32 := broadcastInDim S8x8x512x512 ![] bcast_S_S8x8x512x512 main_cst
  let main_v10 : IVec S8x8x512x512 1 := cmpf .olt main_v8 main_v9
  let main_c : IVec S_ 1 := constantI S_ 1 1#1
  let main_v11 : IVec S_ 1 := (fun x v => Host.reduce IntOp.andi x v reducesTo_S8x8x512x512_S_d0_1_2_3 h_S_) main_v10 main_c
  let main_v12 : FVec F S8x8 .f32 := Host.absf main_arg2
  let main_cst_0 : FVec F S_ .f32 := constant S_ .f32 0x7F800000#32
  let main_v13 : FVec F S8x8 .f32 := broadcastInDim S8x8 ![] bcast_S_S8x8 main_cst_0
  let main_v14 : IVec S8x8 1 := cmpf .olt main_v12 main_v13
  let main_c_1 : IVec S_ 1 := constantI S_ 1 1#1
  let main_v15 : IVec S_ 1 := (fun x v => Host.reduce IntOp.andi x v reducesTo_S8x8_S_d0_1 h_S_) main_v14 main_c_1
  let main_v16 : IVec S_ 1 := andi main_v11 main_v15
  let main_c_2 : IVec S_ 32 := constantI S_ 32 0#32
  let main_v17 : IVec S8x512x512 32 := broadcastInDim S8x512x512 ![] bcast_S_S8x512x512 main_c_2
  let main_v18 : IVec S8x512x512 1 := cmpi .sge main_arg1 main_v17
  fn_part1 (F := F) main_arg1 main_v7 main_v16 main_v18
-- ==== Kernel.lean ====
abbrev S8x8x512x512 : Shape := ⟨4, ![8, 8, 512, 512]⟩
abbrev S8x512x512 : Shape := ⟨3, ![8, 512, 512]⟩
abbrev S8x8 : Shape := ⟨2, ![8, 8]⟩
abbrev S8x8x262144 : Shape := ⟨3, ![8, 8, 262144]⟩
abbrev S8x1x262144 : Shape := ⟨3, ![8, 1, 262144]⟩
abbrev S8x8x8 : Shape := ⟨3, ![8, 8, 8]⟩
abbrev S8x1x8 : Shape := ⟨3, ![8, 1, 8]⟩
abbrev S8x1x1 : Shape := ⟨3, ![8, 1, 1]⟩
abbrev S1x8x131072 : Shape := ⟨3, ![1, 8, 131072]⟩
abbrev S1x1x131072 : Shape := ⟨3, ![1, 1, 131072]⟩
abbrev S1x8x8 : Shape := ⟨3, ![1, 8, 8]⟩
abbrev S1x1x8 : Shape := ⟨3, ![1, 1, 8]⟩
abbrev S1x1x1 : Shape := ⟨3, ![1, 1, 1]⟩
abbrev S8x131072 : Shape := ⟨2, ![8, 131072]⟩
abbrev S1x131072 : Shape := ⟨2, ![1, 131072]⟩
abbrev S8 : Shape := ⟨1, ![8]⟩
abbrev S131072 : Shape := ⟨1, ![131072]⟩
abbrev S1 : Shape := ⟨1, ![1]⟩
abbrev S_ : Shape := ⟨0, ![]⟩
abbrev S8x1 : Shape := ⟨2, ![8, 1]⟩
abbrev S8x2 : Shape := ⟨2, ![8, 2]⟩
abbrev S8x8x1 : Shape := ⟨3, ![8, 8, 1]⟩

abbrev nBuf : Space → Nat
  | .hbm => 67
  | .vmem => 10
  | .smem => 0
  | _ => 0

abbrev bufTy : (tb : Table) → Fin (tcTables nBuf tb) → BufTy
  | .hbm, ⟨0, _⟩ => ⟨S8x8x512x512, .f32⟩
  | .hbm, ⟨1, _⟩ => ⟨S8x512x512, .i32⟩
  | .hbm, ⟨2, _⟩ => ⟨S8x8, .f32⟩
  | .hbm, ⟨3, _⟩ => ⟨S8x8x262144, .f32⟩
  | .hbm, ⟨4, _⟩ => ⟨S8x1x262144, .i32⟩
  | .hbm, ⟨5, _⟩ => ⟨S8x8x8, .f32⟩
  | .hbm, ⟨6, _⟩ => ⟨S8x1x8, .f32⟩
  | .hbm, ⟨7, _⟩ => ⟨S8x1x1, .f32⟩
  | .hbm, ⟨8, _⟩ => ⟨S8x8, .f32⟩
  | .hbm, ⟨9, _⟩ => ⟨S8x1x8, .f32⟩
  | .hbm, ⟨10, _⟩ => ⟨S8x8x8, .f32⟩
  | .hbm, ⟨11, _⟩ => ⟨S8x8x8, .f32⟩
  | .hbm, ⟨12, _⟩ => ⟨S8, .i32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i1⟩
  | .hbm, ⟨17, _⟩ => ⟨S_, .i32⟩
  | .hbm, ⟨18, _⟩ => ⟨S8, .i32⟩
  | .hbm, ⟨19, _⟩ => ⟨S8, .i32⟩
  | .hbm, ⟨20, _⟩ => ⟨S8, .i32⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S_, .i32⟩
  | .hbm, ⟨25, _⟩ => ⟨S8, .i32⟩
  | .hbm, ⟨26, _⟩ => ⟨S8, .i32⟩
  | .hbm, ⟨27, _⟩ => ⟨S8, .i32⟩
  | .hbm, ⟨28, _⟩ => ⟨S8x1, .i32⟩
  | .hbm, ⟨29, _⟩ => ⟨S8x1, .i32⟩
  | .hbm, ⟨30, _⟩ => ⟨S8x2, .i32⟩
  | .hbm, ⟨31, _⟩ => ⟨S8x8, .f32⟩
  | .hbm, ⟨32, _⟩ => ⟨S8x8x1, .f32⟩
  | .hbm, ⟨33, _⟩ => ⟨S8x8x8, .f32⟩
  | .hbm, ⟨34, _⟩ => ⟨S8x8x8, .f32⟩
  | .hbm, ⟨35, _⟩ => ⟨S_, .f32⟩
  | .hbm, ⟨36, _⟩ => ⟨S8x8x8, .f32⟩
  | .hbm, ⟨37, _⟩ => ⟨S8x8x8, .f32⟩
  | .hbm, ⟨38, _⟩ => ⟨S8x8, .i32⟩
  | .hbm, ⟨39, _⟩ => ⟨S8x8, .i32⟩
  | .hbm, ⟨40, _⟩ => ⟨S_, .i32⟩
  | .hbm, ⟨41, _⟩ => ⟨S8x8, .i32⟩
  | .hbm, ⟨42, _⟩ => ⟨S8x8, .i32⟩
  | .hbm, ⟨43, _⟩ => ⟨S8x8, .i1⟩
  | .hbm, ⟨44, _⟩ => ⟨S8x8, .f32⟩
  | .hbm, ⟨45, _⟩ => ⟨S_, .f32⟩
  | .hbm, ⟨46, _⟩ => ⟨S8x8, .f32⟩
  | .hbm, ⟨47, _⟩ => ⟨S8x8, .f32⟩
  | .hbm, ⟨48, _⟩ => ⟨S1x8x8, .f32⟩
  | .hbm, ⟨49, _⟩ => ⟨S_, .f32⟩
  | .hbm, ⟨50, _⟩ => ⟨S8x8x8, .f32⟩
  | .hbm, ⟨51, _⟩ => ⟨S8x8x8, .f32⟩
  | .hbm, ⟨52, _⟩ => ⟨S8x8x8, .f32⟩
  | .hbm, ⟨53, _⟩ => ⟨S8x8x8, .f32⟩
  | .hbm, ⟨54, _⟩ => ⟨S8x8x8, .f32⟩
  | .hbm, ⟨55, _⟩ => ⟨S1x8x8, .f32⟩
  | .hbm, ⟨56, _⟩ => ⟨S8x8x8, .f32⟩
  | .hbm, ⟨57, _⟩ => ⟨S8x8x8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8, .f32⟩
  | .hbm, ⟨66, _⟩ => ⟨S8, .f32⟩
  | .local _ .vmem, ⟨0, _⟩ => ⟨S1x8x131072, .f32⟩
  | .local _ .vmem, ⟨1, _⟩ => ⟨S1x8x131072, .f32⟩
  | .local _ .vmem, ⟨2, _⟩ => ⟨S1x1x131072, .i32⟩
  | .local _ .vmem, ⟨3, _⟩ => ⟨S1x1x131072, .i32⟩
  | .local _ .vmem, ⟨4, _⟩ => ⟨S1x8x8, .f32⟩
  | .local _ .vmem, ⟨5, _⟩ => ⟨S1x8x8, .f32⟩
  | .local _ .vmem, ⟨6, _⟩ => ⟨S1x1x8, .f32⟩
  | .local _ .vmem, ⟨7, _⟩ => ⟨S1x1x8, .f32⟩
  | .local _ .vmem, ⟨8, _⟩ => ⟨S1x1x1, .f32⟩
  | .local _ .vmem, ⟨9, _⟩ => ⟨S1x1x1, .f32⟩
  | _, _ => ⟨S8x8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_c : Ref sig .tc := ⟨.hbm, 14, rfl⟩
abbrev main_call0_v2 : Ref sig .tc := ⟨.hbm, 15, rfl⟩
abbrev main_call0_v3 : Ref sig .tc := ⟨.hbm, 16, rfl⟩
abbrev main_call0_c_0 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_c_1 : Ref sig .tc := ⟨.hbm, 21, rfl⟩
abbrev main_call0_v7 : Ref sig .tc := ⟨.hbm, 22, rfl⟩
abbrev main_call0_v8 : Ref sig .tc := ⟨.hbm, 23, rfl⟩
abbrev main_call0_c_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_0 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_1 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_2 : Ref sig .tc := ⟨.hbm, 58, rfl⟩
abbrev main_v30 : Ref sig .tc := ⟨.hbm, 59, rfl⟩
abbrev main_v31 : Ref sig .tc := ⟨.hbm, 60, rfl⟩
abbrev main_cst_3 : Ref sig .tc := ⟨.hbm, 61, rfl⟩
abbrev main_v32 : Ref sig .tc := ⟨.hbm, 62, rfl⟩
abbrev main_cst_4 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x131072 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8x8x512x512_S8x8x262144 : S8x8x512x512.ShapeCasts S8x8x262144
  shapeCasts_S8x512x512_S8x1x262144 : S8x512x512.ShapeCasts S8x1x262144
  inb_S1x8x8_S1x8x8_0_0_0 : ∀ a, (![0, 0, 0] : Fin 3 → Nat) a + S1x8x8.size a ≤ S1x8x8.size a
  h_S1x8x8 : 0 < S1x8x8.numel
  inb_S1x1x8_S1x1x8_0_0_0 : ∀ a, (![0, 0, 0] : Fin 3 → Nat) a + S1x1x8.size a ≤ S1x1x8.size a
  h_S1x1x8 : 0 < S1x1x8.numel
  inb_S1x1x1_S1x1x1_0_0_0 : ∀ a, (![0, 0, 0] : Fin 3 → Nat) a + S1x1x1.size a ≤ S1x1x1.size a
  h_S1x1x1 : 0 < S1x1x1.numel
  inb_S1x8x131072_S1x8x131072_0_0_0 : ∀ a, (![0, 0, 0] : Fin 3 → Nat) a + S1x8x131072.size a ≤ S1x8x131072.size a
  h_S1x8x131072 : 0 < S1x8x131072.numel
  shapeCasts_S1x8x131072_S8x131072 : S1x8x131072.ShapeCasts S8x131072
  inb_S1x1x131072_S1x1x131072_0_0_0 : ∀ a, (![0, 0, 0] : Fin 3 → Nat) a + S1x1x131072.size a ≤ S1x1x131072.size a
  h_S1x1x131072 : 0 < S1x1x131072.numel
  shapeCasts_S1x1x131072_S1x131072 : S1x1x131072.ShapeCasts S1x131072
  iota_S8x131072_d0_w32 : S8x131072.Iotas .tc 32 [0]
  broadcasts_S1x131072_S8x131072 : S1x131072.Broadcasts S8x131072
  natLt_1_32 : 1 < 32
  reduces_S8x131072_S8 : S8x131072.Reduces [1] S8
  reduces_S8x131072_S131072 : S8x131072.Reduces [0] S131072
  shapeCasts_S131072_S1x131072 : S131072.ShapeCasts S1x131072
  iota_S8x8_d0_w32 : S8x8.Iotas .tc 32 [0]
  iota_S8x8_d1_w32 : S8x8.Iotas .tc 32 [1]
  shapeCasts_S8x8_S1x8x8 : S8x8.ShapeCasts S1x8x8
  reduces_S1x8x8_S1 : S1x8x8.Reduces [1, 2] S1
  shapeCasts_S1_S1x1x1 : S1.ShapeCasts S1x1x1
  inpos_S1x1x1_p0_0_0 : ∀ a, (![0, 0, 0] : Fin 3 → Nat) a < S1x1x1.size a
  shapeCasts_S1x131072_S1x1x131072 : S1x131072.ShapeCasts S1x1x131072
  reduces_S1x1x131072_S1 : S1x1x131072.Reduces [1, 2] S1
  shapeCasts_S1x8x8_S1x8x8 : S1x8x8.ShapeCasts S1x8x8
  shapeCasts_S1x1x8_S1x1x8 : S1x1x8.ShapeCasts S1x1x8
  shapeCasts_S8_S1x1x8 : S8.ShapeCasts S1x1x8
  shapeCasts_S1x1x1_S1x1x1 : S1x1x1.ShapeCasts S1x1x1
  shapeCasts_S8x1x8_S8x8 : S8x1x8.ShapeCasts S8x8
  bcast_S8x8_S8x1x8_0_2 : S8x8.BroadcastsInDim S8x1x8 (![0, 2] : Fin 2 → Fin S8x1x8.rank)
  bcast_S8x1x8_S8x8x8_0_1_2 : S8x1x8.BroadcastsInDim S8x8x8 (![0, 1, 2] : Fin 3 → Fin S8x8x8.rank)
  bcast_S_S8 : S_.BroadcastsInDim S8 (![] : Fin 0 → Fin S8.rank)
  bcast_S8_S8x1_0 : S8.BroadcastsInDim S8x1 (![0] : Fin 1 → Fin S8x1.rank)
  concatenates_S8x1_S8x1_S8x2_d1 : Shape.Concatenates [S8x1, S8x1] S8x2 1
  bcast_S8x8_S8x8x1_0_1 : S8x8.BroadcastsInDim S8x8x1 (![0, 1] : Fin 2 → Fin S8x8x1.rank)
  bcast_S8x8x1_S8x8x8_0_1_2 : S8x8x1.BroadcastsInDim S8x8x8 (![0, 1, 2] : Fin 3 → Fin S8x8x8.rank)
  bcast_S_S8x8x8 : S_.BroadcastsInDim S8x8x8 (![] : Fin 0 → Fin S8x8x8.rank)
  bcast_S_S8x8 : S_.BroadcastsInDim S8x8 (![] : Fin 0 → Fin S8x8.rank)
  bcast_S8x8_S1x8x8_1_2 : S8x8.BroadcastsInDim S1x8x8 (![1, 2] : Fin 2 → Fin S1x8x8.rank)
  bcast_S1x8x8_S8x8x8_0_1_2 : S1x8x8.BroadcastsInDim S8x8x8 (![0, 1, 2] : Fin 3 → Fin S8x8x8.rank)
  reducesTo_S8x8x8_S8_d1_2 : S8x8x8.ReducesTo [1, 2] S8
  h_S_ : 0 < S_.numel
  reducesTo_S8x1x1_S_d0_1_2 : S8x1x1.ReducesTo [0, 1, 2] S_
  dot_S8x131072_S8x131072_S8x8_1_1_0_0_n_n_wf : DotDims.WF S8x131072 S8x131072 S8x8 [1] [1] [0] [0] [] []
  gather_S8x8x8_S8x2_S8x8_0_12_n_n_12_1_811_wf : GatherDims.WF S8x8x8 S8x2 S8x8 [0] [1, 2] [] [1, 2] [] 1 ![8, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x131072.size a ≤ S8x8x262144.size a
  hwx0_0 : ∀ i : grid0.Coords, EltTy.bits .f32 = 32 ∨ (Rect.block (s := S8x8x262144) S1x8x131072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x131072.size a ≤ S8x1x262144.size a
  hwx0_1 : ∀ i : grid0.Coords, EltTy.bits .i32 = 32 ∨ (Rect.block (s := S8x1x262144) S1x1x131072.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x8.size a ≤ S8x8x8.size a
  hwx0_2 : ∀ i : grid0.Coords, EltTy.bits .f32 = 32 ∨ (Rect.block (s := S8x8x8) S1x8x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8.size a ≤ S8x1x8.size a
  hwx0_3 : ∀ i : grid0.Coords, EltTy.bits .f32 = 32 ∨ (Rect.block (s := S8x1x8) S1x1x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S8x1x1.size a
  hwx0_4 : ∀ i : grid0.Coords, EltTy.bits .f32 = 32 ∨ (Rect.block (s := S8x1x1) S1x1x1.size (cc0_transform_4 i) (hinb0_4 i)).WholeWords (EltTy.packing .f32)

variable [Facts₀]

def dot_S8x131072_S8x131072_S8x8_1_1_0_0_n_n : DotDims S8x131072 S8x131072 S8x8 where
  lhsContracting := [1]
  rhsContracting := [1]
  lhsNonContracting := [0]
  rhsNonContracting := [0]
  lhsBatch := []
  rhsBatch := []
  wf := dot_S8x131072_S8x131072_S8x8_1_1_0_0_n_n_wf
def gather_S8x8x8_S8x2_S8x8_0_12_n_n_12_1_811 : GatherDims S8x8x8 S8x2 S8x8 where
  offsetDims := [0]
  collapsedSliceDims := [1, 2]
  operandBatchingDims := []
  startIndicesBatchingDims := []
  startIndexMap := [1, 2]
  indexVectorDim := 1
  sliceSizes := ![8, 1, 1]
  wf := gather_S8x8x8_S8x2_S8x8_0_12_n_n_12_1_811_wf

abbrev win0_0 : Pipeline.Window sig grid0 :=
  Pipeline.Window.ofSpec (Memref.whole main_v0) S1x8x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x131072.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x8x8.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x8.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x8x512x512 : Shape := ⟨4, ![8, 8, 512, 512]⟩
abbrev S8x512x512 : Shape := ⟨3, ![8, 512, 512]⟩
abbrev S8x8 : Shape := ⟨2, ![8, 8]⟩
abbrev S8x8x262144 : Shape := ⟨3, ![8, 8, 262144]⟩
abbrev S8x262144 : Shape := ⟨2, ![8, 262144]⟩
abbrev S8x262144x1 : Shape := ⟨3, ![8, 262144, 1]⟩
abbrev S1x1x8 : Shape := ⟨3, ![1, 1, 8]⟩
abbrev S8x262144x8 : Shape := ⟨3, ![8, 262144, 8]⟩
abbrev S_ : Shape := ⟨0, ![]⟩
abbrev S8x1x8 : Shape := ⟨3, ![8, 1, 8]⟩
abbrev S8x8x8 : Shape := ⟨3, ![8, 8, 8]⟩
abbrev S8 : Shape := ⟨1, ![8]⟩
abbrev S8x1 : Shape := ⟨2, ![8, 1]⟩
abbrev S8x2 : Shape := ⟨2, ![8, 2]⟩
abbrev S8x8x1 : Shape := ⟨3, ![8, 8, 1]⟩
abbrev S1x8x8 : Shape := ⟨3, ![1, 8, 8]⟩
abbrev S8x1x262144 : Shape := ⟨3, ![8, 1, 262144]⟩
abbrev S8x1x262144x1 : Shape := ⟨4, ![8, 1, 262144, 1]⟩
abbrev S1 : Shape := ⟨1, ![1]⟩
abbrev S1x1x1x1 : Shape := ⟨4, ![1, 1, 1, 1]⟩

abbrev nBuf : Space → Nat
  | .hbm => 111
  | .vmem => 0
  | .smem => 0
  | _ => 0

abbrev bufTy : (tb : Table) → Fin (tcTables nBuf tb) → BufTy
  | .hbm, ⟨0, _⟩ => ⟨S8x8x512x512, .f32⟩
  | .hbm, ⟨1, _⟩ => ⟨S8x512x512, .i32⟩
  | .hbm, ⟨2, _⟩ => ⟨S8x8, .f32⟩
  | .hbm, ⟨3, _⟩ => ⟨S8x8x262144, .f32⟩
  | .hbm, ⟨4, _⟩ => ⟨S8x262144, .i32⟩
  | .hbm, ⟨5, _⟩ => ⟨S8x262144x1, .i32⟩
  | .hbm, ⟨6, _⟩ => ⟨S1x1x8, .i32⟩
  | .hbm, ⟨7, _⟩ => ⟨S8x262144x8, .i32⟩
  | .hbm, ⟨8, _⟩ => ⟨S8x262144x8, .i32⟩
  | .hbm, ⟨9, _⟩ => ⟨S8x262144x8, .i1⟩
  | .hbm, ⟨10, _⟩ => ⟨S8x262144x8, .f32⟩
  | .hbm, ⟨11, _⟩ => ⟨S_, .f32⟩
  | .hbm, ⟨12, _⟩ => ⟨S8x8, .f32⟩
  | .hbm, ⟨13, _⟩ => ⟨S8x1x8, .f32⟩
  | .hbm, ⟨14, _⟩ => ⟨S8x262144x8, .f32⟩
  | .hbm, ⟨15, _⟩ => ⟨S8x262144x8, .f32⟩
  | .hbm, ⟨16, _⟩ => ⟨S8x8x8, .f32⟩
  | .hbm, ⟨17, _⟩ => ⟨S8, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i1⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8, .i32⟩
  | .hbm, ⟨26, _⟩ => ⟨S_, .i32⟩
  | .hbm, ⟨27, _⟩ => ⟨S8, .i32⟩
  | .hbm, ⟨28, _⟩ => ⟨S8, .i1⟩
  | .hbm, ⟨29, _⟩ => ⟨S_, .i32⟩
  | .hbm, ⟨30, _⟩ => ⟨S8, .i32⟩
  | .hbm, ⟨31, _⟩ => ⟨S8, .i32⟩
  | .hbm, ⟨32, _⟩ => ⟨S8, .i32⟩
  | .hbm, ⟨33, _⟩ => ⟨S8x1, .i32⟩
  | .hbm, ⟨34, _⟩ => ⟨S8x1, .i32⟩
  | .hbm, ⟨35, _⟩ => ⟨S8x2, .i32⟩
  | .hbm, ⟨36, _⟩ => ⟨S8x8, .f32⟩
  | .hbm, ⟨37, _⟩ => ⟨S8x8x1, .f32⟩
  | .hbm, ⟨38, _⟩ => ⟨S8x8x8, .f32⟩
  | .hbm, ⟨39, _⟩ => ⟨S8x8x8, .f32⟩
  | .hbm, ⟨40, _⟩ => ⟨S_, .f32⟩
  | .hbm, ⟨41, _⟩ => ⟨S8x8x8, .f32⟩
  | .hbm, ⟨42, _⟩ => ⟨S8x8x8, .f32⟩
  | .hbm, ⟨43, _⟩ => ⟨S8x8, .i32⟩
  | .hbm, ⟨44, _⟩ => ⟨S8x8, .i32⟩
  | .hbm, ⟨45, _⟩ => ⟨S_, .i32⟩
  | .hbm, ⟨46, _⟩ => ⟨S8x8, .i32⟩
  | .hbm, ⟨47, _⟩ => ⟨S8x8, .i32⟩
  | .hbm, ⟨48, _⟩ => ⟨S8x8, .i1⟩
  | .hbm, ⟨49, _⟩ => ⟨S8x8, .f32⟩
  | .hbm, ⟨50, _⟩ => ⟨S_, .f32⟩
  | .hbm, ⟨51, _⟩ => ⟨S8x8, .f32⟩
  | .hbm, ⟨52, _⟩ => ⟨S8x8, .f32⟩
  | .hbm, ⟨53, _⟩ => ⟨S1x8x8, .f32⟩
  | .hbm, ⟨54, _⟩ => ⟨S_, .f32⟩
  | .hbm, ⟨55, _⟩ => ⟨S8x8x8, .f32⟩
  | .hbm, ⟨56, _⟩ => ⟨S8x8x8, .f32⟩
  | .hbm, ⟨57, _⟩ => ⟨S8x8x8, .f32⟩
  | .hbm, ⟨58, _⟩ => ⟨S8x8x8, .f32⟩
  | .hbm, ⟨59, _⟩ => ⟨S8x8x8, .f32⟩
  | .hbm, ⟨60, _⟩ => ⟨S1x8x8, .f32⟩
  | .hbm, ⟨61, _⟩ => ⟨S8x8x8, .f32⟩
  | .hbm, ⟨62, _⟩ => ⟨S8x8x8, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S_, .f32⟩
  | .hbm, ⟨67, _⟩ => ⟨S8x262144, .f32⟩
  | .hbm, ⟨68, _⟩ => ⟨S_, .f32⟩
  | .hbm, ⟨69, _⟩ => ⟨S8x262144, .f32⟩
  | .hbm, ⟨70, _⟩ => ⟨S8x262144, .f32⟩
  | .hbm, ⟨71, _⟩ => ⟨S8x1x262144, .f32⟩
  | .hbm, ⟨72, _⟩ => ⟨S8x8x262144, .f32⟩
  | .hbm, ⟨73, _⟩ => ⟨S8x8x262144, .f32⟩
  | .hbm, ⟨74, _⟩ => ⟨S8x8x262144, .f32⟩
  | .hbm, ⟨75, _⟩ => ⟨S_, .f32⟩
  | .hbm, ⟨76, _⟩ => ⟨S8x262144, .f32⟩
  | .hbm, ⟨77, _⟩ => ⟨S8x1x262144, .f32⟩
  | .hbm, ⟨78, _⟩ => ⟨S8x1x262144, .f32⟩
  | .hbm, ⟨79, _⟩ => ⟨S8x8x262144, .f32⟩
  | .hbm, ⟨80, _⟩ => ⟨S8x8x262144, .f32⟩
  | .hbm, ⟨81, _⟩ => ⟨S8x1x262144, .i32⟩
  | .hbm, ⟨82, _⟩ => ⟨S_, .i32⟩
  | .hbm, ⟨83, _⟩ => ⟨S8x1x262144, .i32⟩
  | .hbm, ⟨84, _⟩ => ⟨S8x1x262144, .i1⟩
  | .hbm, ⟨85, _⟩ => ⟨S_, .i32⟩
  | .hbm, ⟨86, _⟩ => ⟨S8x1x262144, .i32⟩
  | .hbm, ⟨87, _⟩ => ⟨S8x1x262144, .i32⟩
  | .hbm, ⟨88, _⟩ => ⟨S8x1x262144, .i32⟩
  | .hbm, ⟨89, _⟩ => ⟨S8x1x262144x1, .i32⟩
  | .hbm, ⟨90, _⟩ => ⟨S1, .i32⟩
  | .hbm, ⟨91, _⟩ => ⟨S_, .i32⟩
  | .hbm, ⟨92, _⟩ => ⟨S8x1x262144x1, .i32⟩
  | .hbm, ⟨93, _⟩ => ⟨S8x1x262144x1, .i1⟩
  | .hbm, ⟨94, _⟩ => ⟨S1x1x1x1, .i32⟩
  | .hbm, ⟨95, _⟩ => ⟨S8x1x262144x1, .i32⟩
  | .hbm, ⟨96, _⟩ => ⟨S8x1x262144x1, .i1⟩
  | .hbm, ⟨97, _⟩ => ⟨S8x1x262144x1, .i1⟩
  | .hbm, ⟨98, _⟩ => ⟨S_, .i1⟩
  | .hbm, ⟨99, _⟩ => ⟨S8x1x262144, .i1⟩
  | .hbm, ⟨100, _⟩ => ⟨S8x1x262144, .f32⟩
  | .hbm, ⟨101, _⟩ => ⟨S_, .f32⟩
  | .hbm, ⟨102, _⟩ => ⟨S8x1x262144, .f32⟩
  | .hbm, ⟨103, _⟩ => ⟨S8x1x262144, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S8, .f32⟩
  | .hbm, ⟨110, _⟩ => ⟨S8, .f32⟩
  | _, _ => ⟨S8x8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call1_v0 : Ref sig .tc := ⟨.hbm, 17, rfl⟩
abbrev main_call1_v1 : Ref sig .tc := ⟨.hbm, 18, rfl⟩
abbrev main_call1_c : Ref sig .tc := ⟨.hbm, 19, rfl⟩
abbrev main_call1_v2 : Ref sig .tc := ⟨.hbm, 20, rfl⟩
abbrev main_call1_v3 : Ref sig .tc := ⟨.hbm, 21, rfl⟩
abbrev main_call1_c_0 : Ref sig .tc := ⟨.hbm, 22, rfl⟩
abbrev main_call1_v4 : Ref sig .tc := ⟨.hbm, 23, rfl⟩
abbrev main_call1_v5 : Ref sig .tc := ⟨.hbm, 24, rfl⟩
abbrev main_call1_v6 : Ref sig .tc := ⟨.hbm, 25, rfl⟩
abbrev main_call1_c_1 : Ref sig .tc := ⟨.hbm, 26, rfl⟩
abbrev main_call1_v7 : Ref sig .tc := ⟨.hbm, 27, rfl⟩
abbrev main_call1_v8 : Ref sig .tc := ⟨.hbm, 28, rfl⟩
abbrev main_call1_c_2 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_0 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_c : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_1 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_cst_2 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_3 : Ref sig .tc := ⟨.hbm, 63, rfl⟩
abbrev main_v31 : Ref sig .tc := ⟨.hbm, 64, rfl⟩
abbrev main_v32 : Ref sig .tc := ⟨.hbm, 65, rfl⟩
abbrev main_call2_cst : Ref sig .tc := ⟨.hbm, 66, rfl⟩
abbrev main_call2_v0 : Ref sig .tc := ⟨.hbm, 67, rfl⟩
abbrev main_call2_cst_0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_cst_1 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_v33 : Ref sig .tc := ⟨.hbm, 80, rfl⟩
abbrev main_v34 : Ref sig .tc := ⟨.hbm, 81, rfl⟩
abbrev main_call3_c : Ref sig .tc := ⟨.hbm, 82, rfl⟩
abbrev main_call3_v0 : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_c_1 : Ref sig .tc := ⟨.hbm, 90, rfl⟩
abbrev main_call3_c_2 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_3 : Ref sig .tc := ⟨.hbm, 98, rfl⟩
abbrev main_call3_v12 : Ref sig .tc := ⟨.hbm, 99, rfl⟩
abbrev main_call3_v13 : Ref sig .tc := ⟨.hbm, 100, rfl⟩
abbrev main_call3_cst : Ref sig .tc := ⟨.hbm, 101, rfl⟩
abbrev main_call3_v14 : Ref sig .tc := ⟨.hbm, 102, rfl⟩
abbrev main_v35 : Ref sig .tc := ⟨.hbm, 103, rfl⟩
abbrev main_cst_4 : Ref sig .tc := ⟨.hbm, 104, rfl⟩
abbrev main_v36 : Ref sig .tc := ⟨.hbm, 105, rfl⟩
abbrev main_cst_5 : Ref sig .tc := ⟨.hbm, 106, rfl⟩
abbrev main_v37 : Ref sig .tc := ⟨.hbm, 107, rfl⟩
abbrev main_v38 : Ref sig .tc := ⟨.hbm, 108, rfl⟩
abbrev main_v39 : Ref sig .tc := ⟨.hbm, 109, rfl⟩
abbrev main_v40 : Ref sig .tc := ⟨.hbm, 110, rfl⟩

abbrev nD : Nat := 1
abbrev τ : Topo := Topo.v7x

variable {F : FTy → Type} [FloatOps F]

class Facts₀ : Prop where
  shapeCasts_S8x8x512x512_S8x8x262144 : S8x8x512x512.ShapeCasts S8x8x262144
  shapeCasts_S8x512x512_S8x262144 : S8x512x512.ShapeCasts S8x262144
  bcast_S8x262144_S8x262144x1_0_1 : S8x262144.BroadcastsInDim S8x262144x1 (![0, 1] : Fin 2 → Fin S8x262144x1.rank)
  bcast_S8x262144x1_S8x262144x8_0_1_2 : S8x262144x1.BroadcastsInDim S8x262144x8 (![0, 1, 2] : Fin 3 → Fin S8x262144x8.rank)
  bcast_S1x1x8_S8x262144x8_0_1_2 : S1x1x8.BroadcastsInDim S8x262144x8 (![0, 1, 2] : Fin 3 → Fin S8x262144x8.rank)
  reducesTo_S8x262144x8_S8x8_d1 : S8x262144x8.ReducesTo [1] S8x8
  h_S_ : 0 < S_.numel
  bcast_S8x8_S8x1x8_0_2 : S8x8.BroadcastsInDim S8x1x8 (![0, 2] : Fin 2 → Fin S8x1x8.rank)
  bcast_S8x1x8_S8x262144x8_0_1_2 : S8x1x8.BroadcastsInDim S8x262144x8 (![0, 1, 2] : Fin 3 → Fin S8x262144x8.rank)
  bcast_S_S8 : S_.BroadcastsInDim S8 (![] : Fin 0 → Fin S8.rank)
  bcast_S8_S8x1_0 : S8.BroadcastsInDim S8x1 (![0] : Fin 1 → Fin S8x1.rank)
  concatenates_S8x1_S8x1_S8x2_d1 : Shape.Concatenates [S8x1, S8x1] S8x2 1
  bcast_S8x8_S8x8x1_0_1 : S8x8.BroadcastsInDim S8x8x1 (![0, 1] : Fin 2 → Fin S8x8x1.rank)
  bcast_S8x8x1_S8x8x8_0_1_2 : S8x8x1.BroadcastsInDim S8x8x8 (![0, 1, 2] : Fin 3 → Fin S8x8x8.rank)
  bcast_S_S8x8x8 : S_.BroadcastsInDim S8x8x8 (![] : Fin 0 → Fin S8x8x8.rank)
  bcast_S_S8x8 : S_.BroadcastsInDim S8x8 (![] : Fin 0 → Fin S8x8.rank)
  bcast_S8x8_S1x8x8_1_2 : S8x8.BroadcastsInDim S1x8x8 (![1, 2] : Fin 2 → Fin S1x8x8.rank)
  bcast_S1x8x8_S8x8x8_0_1_2 : S1x8x8.BroadcastsInDim S8x8x8 (![0, 1, 2] : Fin 3 → Fin S8x8x8.rank)
  reducesTo_S8x8x8_S8_d1_2 : S8x8x8.ReducesTo [1, 2] S8
  reducesTo_S8x8x262144_S8x262144_d1 : S8x8x262144.ReducesTo [1] S8x262144
  bcast_S_S8x262144 : S_.BroadcastsInDim S8x262144 (![] : Fin 0 → Fin S8x262144.rank)
  bcast_S8x262144_S8x1x262144_0_2 : S8x262144.BroadcastsInDim S8x1x262144 (![0, 2] : Fin 2 → Fin S8x1x262144.rank)
  bcast_S8x1x262144_S8x8x262144_0_1_2 : S8x1x262144.BroadcastsInDim S8x8x262144 (![0, 1, 2] : Fin 3 → Fin S8x8x262144.rank)
  bcast_S_S8x1x262144 : S_.BroadcastsInDim S8x1x262144 (![] : Fin 0 → Fin S8x1x262144.rank)
  shapeCasts_S8x1x262144_S8x1x262144x1 : S8x1x262144.ShapeCasts S8x1x262144x1
  bcast_S_S8x1x262144x1 : S_.BroadcastsInDim S8x1x262144x1 (![] : Fin 0 → Fin S8x1x262144x1.rank)
  bcast_S1_S1x1x1x1_3 : S1.BroadcastsInDim S1x1x1x1 (![3] : Fin 1 → Fin S1x1x1x1.rank)
  bcast_S1x1x1x1_S8x1x262144x1_0_1_2_3 : S1x1x1x1.BroadcastsInDim S8x1x262144x1 (![0, 1, 2, 3] : Fin 4 → Fin S8x1x262144x1.rank)
  reducesTo_S8x1x262144x1_S8x1x262144_d3 : S8x1x262144x1.ReducesTo [3] S8x1x262144
  reducesTo_S8x1x262144_S_d0_1_2 : S8x1x262144.ReducesTo [0, 1, 2] S_
  dot_S8x8x262144_S8x262144x8_S8x8x8_2_1_1_2_0_0_wf : DotDims.WF S8x8x262144 S8x262144x8 S8x8x8 [2] [1] [1] [2] [0] [0]
  gather_S8x8x8_S8x2_S8x8_0_12_n_n_12_1_811_wf : GatherDims.WF S8x8x8 S8x2 S8x8 [0] [1, 2] [] [1, 2] [] 1 ![8, 1, 1]
  gather_S8x8x262144_S8x1x262144x1_S8x1x262144_n_1_02_02_1_3_111_wf : GatherDims.WF S8x8x262144 S8x1x262144x1 S8x1x262144 [] [1] [0, 2] [1] [0, 2] 3 ![1, 1, 1]

variable [Facts₀]

def dot_S8x8x262144_S8x262144x8_S8x8x8_2_1_1_2_0_0 : DotDims S8x8x262144 S8x262144x8 S8x8x8 where
  lhsContracting := [2]
  rhsContracting := [1]
  lhsNonContracting := [1]
  rhsNonContracting := [2]
  lhsBatch := [0]
  rhsBatch := [0]
  wf := dot_S8x8x262144_S8x262144x8_S8x8x8_2_1_1_2_0_0_wf
def gather_S8x8x8_S8x2_S8x8_0_12_n_n_12_1_811 : GatherDims S8x8x8 S8x2 S8x8 where
  offsetDims := [0]
  collapsedSliceDims := [1, 2]
  operandBatchingDims := []
  startIndicesBatchingDims := []
  startIndexMap := [1, 2]
  indexVectorDim := 1
  sliceSizes := ![8, 1, 1]
  wf := gather_S8x8x8_S8x2_S8x8_0_12_n_n_12_1_811_wf
def gather_S8x8x262144_S8x1x262144x1_S8x1x262144_n_1_02_02_1_3_111 : GatherDims S8x8x262144 S8x1x262144x1 S8x1x262144 where
  offsetDims := []
  collapsedSliceDims := [1]
  operandBatchingDims := [0, 2]
  startIndicesBatchingDims := [0, 2]
  startIndexMap := [1]
  indexVectorDim := 3
  sliceSizes := ![1, 1, 1]
  wf := gather_S8x8x262144_S8x1x262144x1_S8x1x262144_n_1_02_02_1_3_111_wf

class Facts : Prop extends Facts₀ where

variable [Facts]
-- ==== Proof.KTailDefs.lean ====
/-
  The host lines after the region, as one function of the three result arrays and the weights.

  `jtail A W` is what both programs do with the class-mean matrix `A` and the weights `W`: the diagonal of `A` (a gather
  at the index pairs (i, i)), `delta = (diag − A) · ½`, `loss = W · log(½ + delta) · (1 − eye)`, summed over the two class
  axes and negated. `kres` is the kernel's whole tail: the matrix is the raw sums divided by the counts (the counts
  re-laid from [8,1,8] to [8,8] and broadcast along the logit axis), and the cross entropy is the sum of the eight
  per-row cells over 2²¹, broadcast and added.
-/
import proofs.«408249_j70841190580811_3_alg».proof.Proof.Gen.KernelIdeal

noncomputable section

open Idealize.ShloMosaic Idealize.ShloMosaic.TcCoe Idealize.SL.Sem

namespace Cert.KernelIdeal.KV

open Cert.KernelIdeal Cert.KernelIdeal.Gen

variable {F : FTy → Type} [FloatOps F]

/-- From the class-mean matrix and the weights to the J term, one value per batch row. -/
def jtail (A : FVec F S8x8x8 .f32) (W : FVec F S8x8 .f32) : FVec F S8 .f32 :=
  let d0 : IVec S8 32 := iotaInDim S8 32 0
  let d1 : IVec S8 32 := iotaInDim S8 32 0
  let d2 : IVec S8 32 := broadcastInDim S8 ![] bcast_S_S8 (constantI S_ 32 0#32)
  let d3 : IVec S8 1 := cmpi .slt d0 d2
  let d4 : IVec S8 32 := broadcastInDim S8 ![] bcast_S_S8 (constantI S_ 32 8#32)
  let d5 : IVec S8 32 := addi d0 d4
  let d6 : IVec S8 32 := select d3 d5 d0
  let d7 : IVec S8 32 := broadcastInDim S8 ![] bcast_S_S8 (constantI S_ 32 0#32)
  let d8 : IVec S8 1 := cmpi .slt d1 d7
  let d9 : IVec S8 32 := broadcastInDim S8 ![] bcast_S_S8 (constantI S_ 32 8#32)
  let d10 : IVec S8 32 := addi d1 d9
  let d11 : IVec S8 32 := select d8 d10 d1
  let d12 : IVec S8x1 32 := broadcastInDim S8x1 ![0] bcast_S8_S8x1_0 d6
  let d13 : IVec S8x1 32 := broadcastInDim S8x1 ![0] bcast_S8_S8x1_0 d11
  let d14 : IVec S8x2 32 := concatenate S8x2 1 [⟨S8x1, d12⟩, ⟨S8x1, d13⟩] concatenates_S8x1_S8x1_S8x2_d1
  let v7 : FVec F S8x8 .f32 := Host.gather gather_S8x8x8_S8x2_S8x8_0_12_n_n_12_1_811 A d14
  let v8 : FVec F S8x8x1 .f32 := broadcastInDim S8x8x1 ![0, 1] bcast_S8x8_S8x8x1_0_1 v7
  let v9 : FVec F S8x8x8 .f32 := broadcastInDim S8x8x8 ![0, 1, 2] bcast_S8x8x1_S8x8x8_0_1_2 v8
  let v10 : FVec F S8x8x8 .f32 := subf v9 A
  let v11 : FVec F S8x8x8 .f32 := broadcastInDim S8x8x8 ![] bcast_S_S8x8x8 (constant S_ .f32 0x3F000000#32)
  let v12 : FVec F S8x8x8 .f32 := mulf v10 v11
  let v13 : IVec S8x8 32 := iotaInDim S8x8 32 0
  let v14 : IVec S8x8 32 := iotaInDim S8x8 32 1
  let v15 : IVec S8x8 32 := broadcastInDim S8x8 ![] bcast_S_S8x8 (constantI S_ 32 0#32)
  let v16 : IVec S8x8 32 := addi v13 v15
  let v17 : IVec S8x8 1 := cmpi .eq v16 v14
  let v18 : FVec F S8x8 .f32 := uitofp .f32 v17
  let v19 : FVec F S8x8 .f32 := broadcastInDim S8x8 ![] bcast_S_S8x8 (constant S_ .f32 0x3F800000#32)
  let v20 : FVec F S8x8 .f32 := subf v19 v18
  let v21 : FVec F S1x8x8 .f32 := broadcastInDim S1x8x8 ![1, 2] bcast_S8x8_S1x8x8_1_2 W
  let v22 : FVec F S8x8x8 .f32 := broadcastInDim S8x8x8 ![] bcast_S_S8x8x8 (constant S_ .f32 0x3F000000#32)
  let v23 : FVec F S8x8x8 .f32 := addf v22 v12
  let v24 : FVec F S8x8x8 .f32 := Host.log v23
  let v25 : FVec F S8x8x8 .f32 := broadcastInDim S8x8x8 ![0, 1, 2] bcast_S1x8x8_S8x8x8_0_1_2 v21
  let v26 : FVec F S8x8x8 .f32 := mulf v25 v24
  let v27 : FVec F S1x8x8 .f32 := broadcastInDim S1x8x8 ![1, 2] bcast_S8x8_S1x8x8_1_2 v20
  let v28 : FVec F S8x8x8 .f32 := broadcastInDim S8x8x8 ![0, 1, 2] bcast_S1x8x8_S8x8x8_0_1_2 v27
  let v29 : FVec F S8x8x8 .f32 := mulf v26 v28
  let v30 : FVec F S8 .f32 := Host.reduceAdd v29 (constant S_ .f32 0x00000000#32) reducesTo_S8x8x8_S8_d1_2 h_S_
  Host.negf v30

/-- The kernel's result from its three result arrays and the weights. -/
def kres (A2 : FVec F S8x8x8 .f32) (N3 : FVec F S8x1x8 .f32) (C4 : FVec F S8x1x1 .f32) (W : FVec F S8x8 .f32) : FVec F S8 .f32 :=
  let v3 : FVec F S8x8 .f32 := shapeCast S8x8 N3 shapeCasts_S8x1x8_S8x8
  let v4 : FVec F S8x1x8 .f32 := broadcastInDim S8x1x8 ![0, 2] bcast_S8x8_S8x1x8_0_2 v3
  let v5 : FVec F S8x8x8 .f32 := broadcastInDim S8x8x8 ![0, 1, 2] bcast_S8x1x8_S8x8x8_0_1_2 v4
  let v6 : FVec F S8x8x8 .f32 := Host.divf A2 v5
  let v32 : FVec F S_ .f32 := Host.reduceAdd C4 (constant S_ .f32 0x00000000#32) reducesTo_S8x1x1_S_d0_1_2 h_S_
  let v33 : FVec F S_ .f32 := Host.divf v32 (constant S_ .f32 0x4A000000#32)
  let v34 : FVec F S8 .f32 := broadcastInDim S8 ![] bcast_S_S8 v33
  addf (jtail v6 W) v34

end Cert.KernelIdeal.KV

end
-- ==== Proof.KPieces.lean ====
/-
  What one run of the kernel body leaves in its three accumulators, as values.

  At the first pixel block of a batch row (case A) the body stores zero blocks, reads them back and adds this block's
  contributions: the [1,8,8] matrix ends at `0 + (logits · one-hotᵀ)`, the [1,1,8] counts at `0 + counts`, the [1,1,1]
  cross-entropy cell at `0 + partial`. At the second block (case B) it adds the same contributions to what the first
  block left (`xo2`, `xo3`, `xo4`). Each is the one covering store's payload read over the whole buffer.
-/
import proofs.«408249_j70841190580811_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KV

open Cert.KernelIdeal Cert.KernelIdeal.Gen

variable {F : FTy → Type} [FloatOps F]

theorem hz3 : (![0, 0, 0] : Fin 3 → Nat) = fun _ => 0 := funext fun a => by fin_cases a <;> rfl

/-! ## The second block of a row: the contributions added to what the first block left -/

theorem piece_B_2 (c : Dev nD) (i : grid0.Coords) (a2 : Memref sig .tc .vmem S1x8x131072 .f32) (h2 : a2.IsWhole) (a3 : Memref sig .tc .vmem S1x1x131072 .i32) (h3 : a3.IsWhole)
    (a4 : Memref sig .tc .vmem S1x8x8 .f32) (h4 : a4.IsWhole) (a5 : Memref sig .tc .vmem S1x1x8 .f32) (h5 : a5.IsWhole) (a6 : Memref sig .tc .vmem S1x1x1 .f32) (h6 : a6.IsWhole)
    (hc : ¬cond0_0 i) (x0 : Vec F S1x8x131072 .f32) (x1 : Vec F S1x1x131072 .i32) (xo2 : Vec F S1x8x8 .f32) (xo3 : Vec F S1x1x8 .f32) (xo4 : Vec F S1x1x1 .f32) :
    out0_B_2 c i a2 h2 a3 h3 a4 h4 a5 h5 a6 h6 hc x0 x1 xo2 xo3 xo4 = k0_pay1 (k0_pay10 x0 x1) (k0_pay12 xo2) := by
  unfold out0_B_2
  rw [View.read_writes_eq_canon _ _ _ (cover0_B_2 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread, View.ld_unit_zero (S := S1x8x8) hz3, View.ld_unit_zero (S := S1x8x131072) hz3, View.ld_unit_zero (S := S1x1x131072) hz3]

theorem piece_B_3 (c : Dev nD) (i : grid0.Coords) (a2 : Memref sig .tc .vmem S1x8x131072 .f32) (h2 : a2.IsWhole) (a3 : Memref sig .tc .vmem S1x1x131072 .i32) (h3 : a3.IsWhole)
    (a4 : Memref sig .tc .vmem S1x8x8 .f32) (h4 : a4.IsWhole) (a5 : Memref sig .tc .vmem S1x1x8 .f32) (h5 : a5.IsWhole) (a6 : Memref sig .tc .vmem S1x1x1 .f32) (h6 : a6.IsWhole)
    (hc : ¬cond0_0 i) (x0 : Vec F S1x8x131072 .f32) (x1 : Vec F S1x1x131072 .i32) (xo2 : Vec F S1x8x8 .f32) (xo3 : Vec F S1x1x8 .f32) (xo4 : Vec F S1x1x1 .f32) :
    out0_B_3 c i a2 h2 a3 h3 a4 h4 a5 h5 a6 h6 hc x0 x1 xo2 xo3 xo4 = k0_pay2 (k0_pay9 x1) xo3 := by
  unfold out0_B_3
  rw [View.read_writes_eq_canon _ _ _ (cover0_B_3 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread, View.ld_unit_zero (S := S1x1x8) hz3, View.ld_unit_zero (S := S1x8x131072) hz3, View.ld_unit_zero (S := S1x1x131072) hz3]

theorem piece_B_4 (c : Dev nD) (i : grid0.Coords) (a2 : Memref sig .tc .vmem S1x8x131072 .f32) (h2 : a2.IsWhole) (a3 : Memref sig .tc .vmem S1x1x131072 .i32) (h3 : a3.IsWhole)
    (a4 : Memref sig .tc .vmem S1x8x8 .f32) (h4 : a4.IsWhole) (a5 : Memref sig .tc .vmem S1x1x8 .f32) (h5 : a5.IsWhole) (a6 : Memref sig .tc .vmem S1x1x1 .f32) (h6 : a6.IsWhole)
    (hc : ¬cond0_0 i) (x0 : Vec F S1x8x131072 .f32) (x1 : Vec F S1x1x131072 .i32) (xo2 : Vec F S1x8x8 .f32) (xo3 : Vec F S1x1x8 .f32) (xo4 : Vec F S1x1x1 .f32) :
    out0_B_4 c i a2 h2 a3 h3 a4 h4 a5 h5 a6 h6 hc x0 x1 xo2 xo3 xo4 = k0_pay3 (k0_pay11 x0 x1) xo4 := by
  unfold out0_B_4
  rw [View.read_writes_eq_canon _ _ _ (cover0_B_4 c i a2 h2 a3 h3 a4 h4 a5 h5 a6 h6 hc x0 x1 xo2 xo3 xo4)]
  unfold kernelRun0_B
  dsimp only
  sl_unfold_words
  rw [View.canon_unit_zero hz3]
  simp only [View.readAt_eq_ld, h2.read_unread, h3.read_unread, h4.read_unread, h5.read_unread, h6.read_unread, View.ld_unit_zero (S := S1x1x1) hz3, View.ld_unit_zero (S := S1x8x131072) hz3, View.ld_unit_zero (S := S1x1x131072) hz3]

/-! ## The first block of a row: the contributions added to the zero blocks just stored -/

theorem piece_A_2 (c : Dev nD) (i : grid0.Coords) (a2 : Memref sig .tc .vmem S1x8x131072 .f32) (h2 : a2.IsWhole) (a3 : Memref sig .tc .vmem S1x1x131072 .i32) (h3 : a3.IsWhole)
    (a4 : Memref sig .tc .vmem S1x8x8 .f32) (h4 : a4.IsWhole) (a5 : Memref sig .tc .vmem S1x1x8 .f32) (h5 : a5.IsWhole) (a6 : Memref sig .tc .vmem S1x1x1 .f32) (h6 : a6.IsWhole)
    (hc : cond0_0 i) (x0 : Vec F S1x8x131072 .f32) (x1 : Vec F S1x1x131072 .i32) :
    out0_A_2 c i a2 h2 a3 h3 a4 h4 a5 h5 a6 h6 hc x0 x1 = k0_pay1 (k0_pay10 x0 x1) (k0_pay12 k0_pay4) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x8x8) hz3]
  simp only [View.readAt_eq_ld, h2.read_unread, h3.read_unread, h4.read_unread, h5.read_unread, h6.read_unread, View.readCov_unit_zero (S := S1x8x8) _ hz3, View.ld_unit_zero (S := S1x8x8) hz3, View.ld_unit_zero (S := S1x8x131072) hz3, View.ld_unit_zero (S := S1x1x131072) hz3]

theorem piece_A_3 (c : Dev nD) (i : grid0.Coords) (a2 : Memref sig .tc .vmem S1x8x131072 .f32) (h2 : a2.IsWhole) (a3 : Memref sig .tc .vmem S1x1x131072 .i32) (h3 : a3.IsWhole)
    (a4 : Memref sig .tc .vmem S1x8x8 .f32) (h4 : a4.IsWhole) (a5 : Memref sig .tc .vmem S1x1x8 .f32) (h5 : a5.IsWhole) (a6 : Memref sig .tc .vmem S1x1x1 .f32) (h6 : a6.IsWhole)
    (hc : cond0_0 i) (x0 : Vec F S1x8x131072 .f32) (x1 : Vec F S1x1x131072 .i32) :
    out0_A_3 c i a2 h2 a3 h3 a4 h4 a5 h5 a6 h6 hc x0 x1 = k0_pay2 (k0_pay9 x1) k0_pay5 := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x1x8) hz3]
  simp only [View.readAt_eq_ld, h2.read_unread, h3.read_unread, h4.read_unread, h5.read_unread, h6.read_unread, View.readCov_unit_zero (S := S1x1x8) _ hz3, View.ld_unit_zero (S := S1x1x8) hz3, View.ld_unit_zero (S := S1x8x131072) hz3, View.ld_unit_zero (S := S1x1x131072) hz3]

theorem piece_A_4 (c : Dev nD) (i : grid0.Coords) (a2 : Memref sig .tc .vmem S1x8x131072 .f32) (h2 : a2.IsWhole) (a3 : Memref sig .tc .vmem S1x1x131072 .i32) (h3 : a3.IsWhole)
    (a4 : Memref sig .tc .vmem S1x8x8 .f32) (h4 : a4.IsWhole) (a5 : Memref sig .tc .vmem S1x1x8 .f32) (h5 : a5.IsWhole) (a6 : Memref sig .tc .vmem S1x1x1 .f32) (h6 : a6.IsWhole)
    (hc : cond0_0 i) (x0 : Vec F S1x8x131072 .f32) (x1 : Vec F S1x1x131072 .i32) :
    out0_A_4 c i a2 h2 a3 h3 a4 h4 a5 h5 a6 h6 hc x0 x1 = k0_pay3 (k0_pay11 x0 x1) k0_pay6 := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x1x1) hz3]
  simp only [View.readAt_eq_ld, h2.read_unread, h3.read_unread, h4.read_unread, h5.read_unread, h6.read_unread, View.readCov_unit_zero (S := S1x1x1) _ hz3, View.ld_unit_zero (S := S1x1x1) hz3, View.ld_unit_zero (S := S1x8x131072) hz3, View.ld_unit_zero (S := S1x1x131072) hz3]

end Cert.KernelIdeal.KV

end
-- ==== Proof.KArrays.lean ====
/-
  The three result arrays of the region, as whole-array functions.

  The grid walks the 8 batch rows, two pixel blocks each: point `t` is row `t / 2`, block `t % 2`. Each result
  window's block index is the row alone, so its staging buffer is carried from a row's first point to its second and
  written back after the second: row `b` of each result array is what the buffer holds after point `2b + 1`.
-/
import proofs.«408249_j70841190580811_3_alg».proof.Proof.KPieces
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

variable {F : FTy → Type} [FloatOps F]
variable (m : (ℓ : Loc nD τ sig) → Buf (Elt F) ℓ) (ρ : Dev nD → PrngReg)

/-- The logit block and the label block the body reads at point `t`, at their literal types. -/
abbrev xblk (c : Dev nD) (t : Fin cfg0.N) : Vec F S1x8x131072 .f32 := iblk m c 0 t
abbrev lblk (c : Dev nD) (t : Fin cfg0.N) : Vec F S1x1x131072 .i32 := iblk m c 1 t

/-- The point before `t` (for a row's second point: the row's first). -/
def prev (t : Fin cfg0.N) : Fin cfg0.N := ⟨t.val - 1, Nat.lt_of_le_of_lt (Nat.sub_le _ _) t.isLt⟩

/-- The second point of row `b`. -/
def tB (b : Fin 8) : Fin cfg0.N := ⟨2 * b.val + 1, by rw [show cfg0.N = 16 from N_0]; have := b.isLt; omega⟩

/-- What the three accumulators hold after a row's second point `t`. -/
def bv2 (c : Dev nD) (t : Fin cfg0.N) : Vec F S1x8x8 .f32 :=
  k0_pay1 (k0_pay10 (xblk m c t) (lblk m c t)) (k0_pay12 (k0_pay1 (k0_pay10 (xblk m c (prev t)) (lblk m c (prev t))) (k0_pay12 k0_pay4)))
def bv3 (c : Dev nD) (t : Fin cfg0.N) : Vec F S1x1x8 .f32 :=
  k0_pay2 (k0_pay9 (lblk m c t)) (k0_pay2 (k0_pay9 (lblk m c (prev t))) k0_pay5)
def bv4 (c : Dev nD) (t : Fin cfg0.N) : Vec F S1x1x1 .f32 :=
  k0_pay3 (k0_pay11 (xblk m c t) (lblk m c t)) (k0_pay3 (k0_pay11 (xblk m c (prev t)) (lblk m c (prev t))) k0_pay6)

/-- After the second block of a row, accumulator 2 holds the second block's contribution added onto the first
    block's, itself added onto zero. -/
theorem outs_odd_2 (c : Dev nD) (t : Fin cfg0.N) (h : ¬t.val % 2 = 0) :
    (outsAt0 m c t.val t.isLt).1 = bv2 m c t := by
  have hN : cfg0.N = 16 := N_0
  have h' : (prev t).val % 2 = 0 := by show (t.val - 1) % 2 = 0; omega
  rw [outsAt0_B m c t h]
  dsimp only
  rw [piece_B_2]
  show k0_pay1 (k0_pay10 (xblk m c t) (lblk m c t)) (k0_pay12 (outsAt0 m c (prev t).val (prev t).isLt).1) = _
  rw [outsAt0_A m c (prev t) h']
  dsimp only
  rw [piece_A_2]
  rfl

/-- After the second block of a row, accumulator 3 holds the second block's contribution added onto the first
    block's, itself added onto zero. -/
theorem outs_odd_3 (c : Dev nD) (t : Fin cfg0.N) (h : ¬t.val % 2 = 0) :
    (outsAt0 m c t.val t.isLt).2.1 = bv3 m c t := by
  have hN : cfg0.N = 16 := N_0
  have h' : (prev t).val % 2 = 0 := by show (t.val - 1) % 2 = 0; omega
  rw [outsAt0_B m c t h]
  dsimp only
  rw [piece_B_3]
  show k0_pay2 (k0_pay9 (lblk m c t)) (outsAt0 m c (prev t).val (prev t).isLt).2.1 = _
  rw [outsAt0_A m c (prev t) h']
  dsimp only
  rw [piece_A_3]
  rfl

/-- After the second block of a row, accumulator 4 holds the second block's contribution added onto the first
    block's, itself added onto zero. -/
theorem outs_odd_4 (c : Dev nD) (t : Fin cfg0.N) (h : ¬t.val % 2 = 0) :
    (outsAt0 m c t.val t.isLt).2.2 = bv4 m c t := by
  have hN : cfg0.N = 16 := N_0
  have h' : (prev t).val % 2 = 0 := by show (t.val - 1) % 2 = 0; omega
  rw [outsAt0_B m c t h]
  dsimp only
  rw [piece_B_4]
  show k0_pay3 (k0_pay11 (xblk m c t) (lblk m c t)) (outsAt0 m c (prev t).val (prev t).isLt).2.2 = _
  rw [outsAt0_A m c (prev t) h']
  dsimp only
  rw [piece_A_4]
  rfl

/-! ## Where the windows' blocks sit, decided over the grid -/

/-- Each result window's block index at point `t` is the row `t / 2`, its other two coordinates zero. -/
theorem idx_out2 : ∀ t : Fin cfg0.N, win0_2.index t (0 : Fin 3) = t.val / 2 ∧ win0_2.index t (1 : Fin 3) = 0 ∧ win0_2.index t (2 : Fin 3) = 0 :=
  (by decide +kernel : ∀ t : Fin grid0.N, _)
theorem idx_out3 : ∀ t : Fin cfg0.N, win0_3.index t (0 : Fin 3) = t.val / 2 ∧ win0_3.index t (1 : Fin 3) = 0 ∧ win0_3.index t (2 : Fin 3) = 0 :=
  (by decide +kernel : ∀ t : Fin grid0.N, _)
theorem idx_out4 : ∀ t : Fin cfg0.N, win0_4.index t (0 : Fin 3) = t.val / 2 ∧ win0_4.index t (1 : Fin 3) = 0 ∧ win0_4.index t (2 : Fin 3) = 0 :=
  (by decide +kernel : ∀ t : Fin grid0.N, _)
/-- The two input windows' block index at point `t`: row `t / 2`, pixel half `t % 2`. -/
theorem idx_in0 : ∀ t : Fin cfg0.N, win0_0.index t (0 : Fin 3) = t.val / 2 ∧ win0_0.index t (1 : Fin 3) = 0 ∧ win0_0.index t (2 : Fin 3) = t.val % 2 :=
  (by decide +kernel : ∀ t : Fin grid0.N, _)
theorem idx_in1 : ∀ t : Fin cfg0.N, win0_1.index t (0 : Fin 3) = t.val / 2 ∧ win0_1.index t (1 : Fin 3) = 0 ∧ win0_1.index t (2 : Fin 3) = t.val % 2 :=
  (by decide +kernel : ∀ t : Fin grid0.N, _)

/-! ## Result window 2 -/

/-- The whole result array: row `b` is what the accumulator holds after the row's second point. -/
def G2 (c : Dev nD) : S8x8x8.Idx → Elt F .f32 := fun idx => bv2 m c (tB (idx 0)) (ix3 0 (idx 1) (idx 2))

/-- What a write-back of window 2 writes is the row's block of that array. -/
theorem flushed2_eq (c : Dev nD) (t : Fin cfg0.N) (hf : (cfg0.win 2).flush t = true) :
    (dats m 0 c).flushed 2 t = ((cfg0.win 2).blk t).view.read (Elt F) (G2 m c) := by
  have hodd : t.val % 2 = 1 := (flush0_2 t).mp hf
  have hN : t.val < 16 := lt_of_lt_of_eq t.isLt (show cfg0.N = 16 from N_0)
  show (cfg0.win 2).cut (grid0.coords t) ((dats m 0 c).after 2 t) = _
  rw [after0_2, outs_odd_2 m c t (by omega)]
  obtain ⟨e0, e1, e2⟩ := idx_out2 t
  funext j
  show bv2 m c t j = G2 m c (((cfg0.win 2).blk t).view.emb j)
  have hj0 : (j 0).val < 1 := (j 0).isLt
  have he : ((cfg0.win 2).blk t).view.emb j = ix3 (⟨t.val / 2, by omega⟩ : Fin 8) (j 1) (j 2) := by
    funext a; apply Fin.ext
    match a with
    | ⟨0, _⟩ => show win0_2.index t (0 : Fin 3) * 1 + 1 * (j 0).val = t.val / 2; omega
    | ⟨1, _⟩ => show win0_2.index t (1 : Fin 3) * 8 + 1 * (j 1).val = (j 1).val; omega
    | ⟨2, _⟩ => show win0_2.index t (2 : Fin 3) * 8 + 1 * (j 2).val = (j 2).val; omega
  rw [he]
  show bv2 m c t j = bv2 m c (tB ⟨t.val / 2, by omega⟩) (ix3 0 (j 1) (j 2))
  have ht : tB ⟨t.val / 2, by omega⟩ = t := Fin.ext (by show 2 * (t.val / 2) + 1 = t.val; omega)
  rw [ht]
  congr 1
  funext a
  match a with
  | ⟨0, _⟩ => exact Fin.ext (by show (j 0).val = 0; omega)
  | ⟨1, _⟩ => rfl
  | ⟨2, _⟩ => rfl

/-- An index of the array lies in point `t`'s block iff each coordinate lies in the block's range. -/
theorem mem_blk2 (t : Fin cfg0.N) (i : S8x8x8.Idx) :
    i ∈ ((cfg0.win 2).blk t).view.set ↔ ∀ a : Fin 3, win0_2.index t a * S1x8x8.size a ≤ (i a).val ∧ (i a).val < win0_2.index t a * S1x8x8.size a + S1x8x8.size a := by
  show i ∈ ((View.whole main_v2_0).slice (win0_2.rect t)).set ↔ _
  rw [View.set_slice_whole, Rect.mem_set_unit]
  exact Iff.rfl

/-- Every index of the array is written back by its row's second point. -/
theorem cover2 (c : Dev nD) (i : S8x8x8.Idx) :
    ∃ t : Fin cfg0.N, (cfg0.win 2).flush t = true ∧ i ∈ ((cfg0.win 2).blk t).view.set := by
  have hi0 : (i 0).val < 8 := (i 0).isLt
  have hi1 : (i 1).val < 8 := (i 1).isLt
  have hi2 : (i 2).val < 8 := (i 2).isLt
  refine ⟨tB (i 0), (flush0_2 _).mpr (by show (2 * (i 0).val + 1) % 2 = 1; omega), ?_⟩
  rw [mem_blk2]
  obtain ⟨e0, e1, e2⟩ := idx_out2 (tB (i 0))
  have e0' : win0_2.index (tB (i 0)) (0 : Fin 3) = (i 0).val := by rw [e0]; show (2 * (i 0).val + 1) / 2 = _; omega
  intro a
  match a with
  | ⟨0, _⟩ => show win0_2.index (tB (i 0)) (0 : Fin 3) * 1 ≤ (i 0).val ∧ (i 0).val < win0_2.index (tB (i 0)) (0 : Fin 3) * 1 + 1; omega
  | ⟨1, _⟩ => show win0_2.index (tB (i 0)) (1 : Fin 3) * 8 ≤ (i 1).val ∧ (i 1).val < win0_2.index (tB (i 0)) (1 : Fin 3) * 8 + 8; omega
  | ⟨2, _⟩ => show win0_2.index (tB (i 0)) (2 : Fin 3) * 8 ≤ (i 2).val ∧ (i 2).val < win0_2.index (tB (i 0)) (2 : Fin 3) * 8 + 8; omega

/-- So the array ends holding that function. -/
theorem final2 (c : Dev nD) : (dats m 0 c).arrAt 2 cfg0.N = G2 m c :=
  (dats m 0 c).arrAt_eq_of_cover 2 (G2 m c) (flushed2_eq m c) (cover2 c)

/-! ## Result window 3 -/

/-- The whole result array: row `b` is what the accumulator holds after the row's second point. -/
def G3 (c : Dev nD) : S8x1x8.Idx → Elt F .f32 := fun idx => bv3 m c (tB (idx 0)) (ix3 0 (idx 1) (idx 2))

/-- What a write-back of window 3 writes is the row's block of that array. -/
theorem flushed3_eq (c : Dev nD) (t : Fin cfg0.N) (hf : (cfg0.win 3).flush t = true) :
    (dats m 0 c).flushed 3 t = ((cfg0.win 3).blk t).view.read (Elt F) (G3 m c) := by
  have hodd : t.val % 2 = 1 := (flush0_3 t).mp hf
  have hN : t.val < 16 := lt_of_lt_of_eq t.isLt (show cfg0.N = 16 from N_0)
  show (cfg0.win 3).cut (grid0.coords t) ((dats m 0 c).after 3 t) = _
  rw [after0_3, outs_odd_3 m c t (by omega)]
  obtain ⟨e0, e1, e2⟩ := idx_out3 t
  funext j
  show bv3 m c t j = G3 m c (((cfg0.win 3).blk t).view.emb j)
  have hj0 : (j 0).val < 1 := (j 0).isLt
  have he : ((cfg0.win 3).blk t).view.emb j = ix3 (⟨t.val / 2, by omega⟩ : Fin 8) (j 1) (j 2) := by
    funext a; apply Fin.ext
    match a with
    | ⟨0, _⟩ => show win0_3.index t (0 : Fin 3) * 1 + 1 * (j 0).val = t.val / 2; omega
    | ⟨1, _⟩ => show win0_3.index t (1 : Fin 3) * 1 + 1 * (j 1).val = (j 1).val; omega
    | ⟨2, _⟩ => show win0_3.index t (2 : Fin 3) * 8 + 1 * (j 2).val = (j 2).val; omega
  rw [he]
  show bv3 m c t j = bv3 m c (tB ⟨t.val / 2, by omega⟩) (ix3 0 (j 1) (j 2))
  have ht : tB ⟨t.val / 2, by omega⟩ = t := Fin.ext (by show 2 * (t.val / 2) + 1 = t.val; omega)
  rw [ht]
  congr 1
  funext a
  match a with
  | ⟨0, _⟩ => exact Fin.ext (by show (j 0).val = 0; omega)
  | ⟨1, _⟩ => rfl
  | ⟨2, _⟩ => rfl

/-- An index of the array lies in point `t`'s block iff each coordinate lies in the block's range. -/
theorem mem_blk3 (t : Fin cfg0.N) (i : S8x1x8.Idx) :
    i ∈ ((cfg0.win 3).blk t).view.set ↔ ∀ a : Fin 3, win0_3.index t a * S1x1x8.size a ≤ (i a).val ∧ (i a).val < win0_3.index t a * S1x1x8.size a + S1x1x8.size a := by
  show i ∈ ((View.whole main_v2_1).slice (win0_3.rect t)).set ↔ _
  rw [View.set_slice_whole, Rect.mem_set_unit]
  exact Iff.rfl

/-- Every index of the array is written back by its row's second point. -/
theorem cover3 (c : Dev nD) (i : S8x1x8.Idx) :
    ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 8 := (i 2).isLt
  refine ⟨tB (i 0), (flush0_3 _).mpr (by show (2 * (i 0).val + 1) % 2 = 1; omega), ?_⟩
  rw [mem_blk3]
  obtain ⟨e0, e1, e2⟩ := idx_out3 (tB (i 0))
  have e0' : win0_3.index (tB (i 0)) (0 : Fin 3) = (i 0).val := by rw [e0]; show (2 * (i 0).val + 1) / 2 = _; omega
  intro a
  match a with
  | ⟨0, _⟩ => show win0_3.index (tB (i 0)) (0 : Fin 3) * 1 ≤ (i 0).val ∧ (i 0).val < win0_3.index (tB (i 0)) (0 : Fin 3) * 1 + 1; omega
  | ⟨1, _⟩ => show win0_3.index (tB (i 0)) (1 : Fin 3) * 1 ≤ (i 1).val ∧ (i 1).val < win0_3.index (tB (i 0)) (1 : Fin 3) * 1 + 1; omega
  | ⟨2, _⟩ => show win0_3.index (tB (i 0)) (2 : Fin 3) * 8 ≤ (i 2).val ∧ (i 2).val < win0_3.index (tB (i 0)) (2 : Fin 3) * 8 + 8; omega

/-- So the array ends holding that function. -/
theorem final3 (c : Dev nD) : (dats m 0 c).arrAt 3 cfg0.N = G3 m c :=
  (dats m 0 c).arrAt_eq_of_cover 3 (G3 m c) (flushed3_eq m c) (cover3 c)

/-! ## Result window 4 -/

/-- The whole result array: row `b` is what the accumulator holds after the row's second point. -/
def G4 (c : Dev nD) : S8x1x1.Idx → Elt F .f32 := fun idx => bv4 m c (tB (idx 0)) (ix3 0 (idx 1) (idx 2))

/-- What a write-back of window 4 writes is the row's block of that array. -/
theorem flushed4_eq (c : Dev nD) (t : Fin cfg0.N) (hf : (cfg0.win 4).flush t = true) :
    (dats m 0 c).flushed 4 t = ((cfg0.win 4).blk t).view.read (Elt F) (G4 m c) := by
  have hodd : t.val % 2 = 1 := (flush0_4 t).mp hf
  have hN : t.val < 16 := lt_of_lt_of_eq t.isLt (show cfg0.N = 16 from N_0)
  show (cfg0.win 4).cut (grid0.coords t) ((dats m 0 c).after 4 t) = _
  rw [after0_4, outs_odd_4 m c t (by omega)]
  obtain ⟨e0, e1, e2⟩ := idx_out4 t
  funext j
  show bv4 m c t j = G4 m c (((cfg0.win 4).blk t).view.emb j)
  have hj0 : (j 0).val < 1 := (j 0).isLt
  have he : ((cfg0.win 4).blk t).view.emb j = ix3 (⟨t.val / 2, by omega⟩ : Fin 8) (j 1) (j 2) := by
    funext a; apply Fin.ext
    match a with
    | ⟨0, _⟩ => show win0_4.index t (0 : Fin 3) * 1 + 1 * (j 0).val = t.val / 2; omega
    | ⟨1, _⟩ => show win0_4.index t (1 : Fin 3) * 1 + 1 * (j 1).val = (j 1).val; omega
    | ⟨2, _⟩ => show win0_4.index t (2 : Fin 3) * 1 + 1 * (j 2).val = (j 2).val; omega
  rw [he]
  show bv4 m c t j = bv4 m c (tB ⟨t.val / 2, by omega⟩) (ix3 0 (j 1) (j 2))
  have ht : tB ⟨t.val / 2, by omega⟩ = t := Fin.ext (by show 2 * (t.val / 2) + 1 = t.val; omega)
  rw [ht]
  congr 1
  funext a
  match a with
  | ⟨0, _⟩ => exact Fin.ext (by show (j 0).val = 0; omega)
  | ⟨1, _⟩ => rfl
  | ⟨2, _⟩ => rfl

/-- An index of the array lies in point `t`'s block iff each coordinate lies in the block's range. -/
theorem mem_blk4 (t : Fin cfg0.N) (i : S8x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v2_2).slice (win0_4.rect t)).set ↔ _
  rw [View.set_slice_whole, Rect.mem_set_unit]
  exact Iff.rfl

/-- Every index of the array is written back by its row's second point. -/
theorem cover4 (c : Dev nD) (i : S8x1x1.Idx) :
    ∃ t : Fin cfg0.N, (cfg0.win 4).flush t = true ∧ i ∈ ((cfg0.win 4).blk t).view.set := by
  have hi0 : (i 0).val < 8 := (i 0).isLt
  have hi1 : (i 1).val < 1 := (i 1).isLt
  have hi2 : (i 2).val < 1 := (i 2).isLt
  refine ⟨tB (i 0), (flush0_4 _).mpr (by show (2 * (i 0).val + 1) % 2 = 1; omega), ?_⟩
  rw [mem_blk4]
  obtain ⟨e0, e1, e2⟩ := idx_out4 (tB (i 0))
  have e0' : win0_4.index (tB (i 0)) (0 : Fin 3) = (i 0).val := by rw [e0]; show (2 * (i 0).val + 1) / 2 = _; omega
  intro a
  match a with
  | ⟨0, _⟩ => show win0_4.index (tB (i 0)) (0 : Fin 3) * 1 ≤ (i 0).val ∧ (i 0).val < win0_4.index (tB (i 0)) (0 : Fin 3) * 1 + 1; omega
  | ⟨1, _⟩ => show win0_4.index (tB (i 0)) (1 : Fin 3) * 1 ≤ (i 1).val ∧ (i 1).val < win0_4.index (tB (i 0)) (1 : Fin 3) * 1 + 1; omega
  | ⟨2, _⟩ => show win0_4.index (tB (i 0)) (2 : Fin 3) * 1 ≤ (i 2).val ∧ (i 2).val < win0_4.index (tB (i 0)) (2 : Fin 3) * 1 + 1; omega

/-- So the array ends holding that function. -/
theorem final4 (c : Dev nD) : (dats m 0 c).arrAt 4 cfg0.N = G4 m c :=
  (dats m 0 c).arrAt_eq_of_cover 4 (G4 m c) (flushed4_eq m c) (cover4 c)

end Cert.KernelIdeal.KV

end
-- ==== Proof.KTail.lean ====
/-
  The kernel's run, read: after the region the host lines turn the three result arrays and the weights into the
  result `kres`, so every weakly fair execution ends with the result buffer at `kres` of the arrays `G2`, `G3`, `G4`
  and the arguments unchanged.
-/
import proofs.«408249_j70841190580811_3_alg».proof.Proof.KTailDefs
import proofs.«408249_j70841190580811_3_alg».proof.Proof.KArrays
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.KV

open Cert.KernelIdeal Cert.KernelIdeal.Gen

variable {F : FTy → Type} [FloatOps F]

set_option maxHeartbeats 4000000 in
set_option maxRecDepth 65536 in
/-- The host lines after the region, over any buffer contents: the result buffer ends at `kres` of the three result
    arrays' and the weights' contents. -/
theorem tail_after (Vv : Valuation τ sig (Elt F)) :
    StableHlo.after (List.flatten [hostOps1, hostOps1_1, hostOps1_2]) Vv (Proc.devRef .tc main_v35)
      = kres (F := F) (Vv (Proc.devRef .tc main_v2_0)) (Vv (Proc.devRef .tc main_v2_1)) (Vv (Proc.devRef .tc main_v2_2)) (Vv (Proc.devRef .tc main_arg2)) := by
  simp only [hostOps1, hostOps1_1, hostOps1_2, List.flatten_cons, List.flatten_nil, List.append_nil, List.cons_append, List.nil_append]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]
  unfold kres jtail
  rfl

variable (m : (ℓ : Loc nD τ sig) → Buf (Elt F) ℓ) (ρ : Dev nD → PrngReg)

/-- What the frame run leaves in the result buffer. -/
theorem tail_eq (c : Dev nD) :
    Pipeline.afterTail₀ cfgs (dats m) 0 (V0 m) [hostOps1, hostOps1_1, hostOps1_2] c main_v35
      = kres (G2 m c) (G3 m c) (G4 m c) (m ((c : Thread nD τ).loc main_arg2)) := by
  unfold Pipeline.afterTail₀
  rw [tail_after]
  have e2 := (Pipeline.withArrays_arr spec0 launch0.win.arr_inj c (V0 m c) (fun w => (dats m 0 c).arrAt w cfg0.N) 2).trans (final2 m c)
  have e3 := (Pipeline.withArrays_arr spec0 launch0.win.arr_inj c (V0 m c) (fun w => (dats m 0 c).arrAt w cfg0.N) 3).trans (final3 m c)
  have e4 := (Pipeline.withArrays_arr spec0 launch0.win.arr_inj c (V0 m c) (fun w => (dats m 0 c).arrAt w cfg0.N) 4).trans (final4 m c)
  have ew := (Pipeline.withArrays_of_ne spec0 c (V0 m c) (fun w => (dats m 0 c).arrAt w cfg0.N) main_arg2
    (by exact (by decide : ∀ w, Pipeline.arrRef spec0 w ≠ main_arg2))).trans (V_main_arg2 m c)
  exact congr (congr (congr (congrArg kres e2) e3) e4) ew

/-- The kernel's run: the result buffer ends at `kres` of the three result arrays, the arguments unchanged. -/
theorem run : θ_run defs (onTc (τ := τ) (main (F := F))) ⟨m, fun _ => 0, ρ⟩ fun r => ∀ c : Dev nD,
      r.2.mem ((c.tc : Thread nD τ).loc main_v35) = kres (G2 m c) (G3 m c) (G4 m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v35 (Pipeline.mem_restRefs_of main_v35 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KV

end
-- ==== Proof.KernelArith.lean ====
/-
  The kernel body's arithmetic read at an index.

  The body's pure values are: the logit block [1, 8, P] read as [8, P] (P = 131072 pixels of one
  batch block, 8 classes); the one-hot matrix of the labels, 1 where the class coordinate equals the
  pixel's label word and 0 elsewhere; its sum along the pixels (the class counts); the product of the
  logit block by the one-hot matrix contracted over the pixels (an 8 x 8 matrix); and the scalar
  "sum over pixels of (row maximum + log of the sum of the shifted exponentials) minus the trace of
  that 8 x 8 matrix". Each is read here at coordinates, as a sum over `Fin 131072` / `Fin 8`.
-/
import proofs.«408249_j70841190580811_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KArith

open Idealize.ShloMosaic Idealize.ShloMosaic.ValueIdx Cert.KernelIdeal Cert.KernelIdeal.Gen

/-- The one-hot entry of pixel `q` at class `k`: 1 when the pixel's label word is the word of `k`. -/
def hotB (x1 : Vec Ideal S1x1x131072 .i32) (q : Fin 131072) (k : Fin 8) : EReal :=
  if x1 (ix3 0 0 q) = BitVec.ofNat 32 k.val then 1 else 0

/-- The maximum of pixel `q`'s eight logits, folded from the bottom element. -/
def mxB (x0 : Vec Ideal S1x8x131072 .f32) (q : Fin 131072) : EReal :=
  (Finset.univ : Finset (Fin 8)).fold max ⊥ (fun c => x0 (ix3 0 c q))

/-- The logarithm of the sum of pixel `q`'s exponentials shifted by the maximum. -/
def lseB (x0 : Vec Ideal S1x8x131072 .f32) (q : Fin 131072) : EReal :=
  Ideal.log (∑ c : Fin 8, Ideal.exp (x0 (ix3 0 c q) - mxB x0 q))

/-! ## The logit block and the one-hot matrix at coordinates -/

/-- The block cast to [8, P] reads the block at (0, c, q). -/
theorem pay7_apply (x0 : Vec Ideal S1x8x131072 .f32) (c : Fin 8) (q : Fin 131072) :
    k0_pay7 (F := Ideal) x0 (ix2 c q) = x0 (ix3 0 c q) := by
  unfold k0_pay7
  exact shapeCast_1ab_ab_apply x0 _ c q

/-- A compare-for-equality of two words, widened and converted, is 1 or 0. -/
theorem hot_word (a b : BitVec 32) :
    FloatOps.sitofp (F := Ideal) .f32 ((IntOp.cmpi .eq a b).setWidth 32) = if b = a then (1 : EReal) else 0 := by
  by_cases h : b = a
  · subst h
    rw [if_pos rfl]
    have e : IntOp.cmpi .eq b b = 1#1 := by simp [IntOp.cmpi]
    rw [e]
    show (((BitVec.setWidth 32 1#1).toInt : ℝ) : EReal) = 1
    have e2 : (BitVec.setWidth 32 1#1).toInt = 1 := by decide
    rw [e2]; simp
  · rw [if_neg h]
    have e : IntOp.cmpi .eq a b = 0#1 := by
      have hb : (a == b) = false := beq_eq_false_iff_ne.mpr fun e => h e.symm
      show BitVec.ofBool (a == b) = 0#1
      rw [hb]; rfl
    rw [e]
    show (((BitVec.setWidth 32 0#1).toInt : ℝ) : EReal) = 0
    have e2 : (BitVec.setWidth 32 0#1).toInt = 0 := by decide
    rw [e2]; simp

/-- The one-hot matrix at (k, q). -/
theorem pay8_apply (x1 : Vec Ideal S1x1x131072 .i32) (k : Fin 8) (q : Fin 131072) :
    k0_pay8 (F := Ideal) x1 (ix2 k q) = hotB x1 q k := by
  unfold k0_pay8 hotB
  rw [sitofp_apply, extui_apply]
  show FloatOps.sitofp (F := Ideal) .f32 ((IntOp.cmpi .eq (iota .tc S8x131072 32 [0] iota_S8x131072_d0_w32 (ix2 k q))
      (broadcastTo S8x131072 (shapeCast S1x131072 x1 shapeCasts_S1x1x131072_S1x131072) broadcasts_S1x131072_S8x131072 (ix2 k q))).setWidth 32) = _
  rw [iota_single_apply, broadcastTo_1b_ab_apply, shapeCast_1ab_ab_apply, hot_word]

/-! ## The class counts -/

theorem pay9_apply (x1 : Vec Ideal S1x1x131072 .i32) (k : Fin 8) :
    k0_pay9 (F := Ideal) x1 (ix1 k) = ∑ q : Fin 131072, hotB x1 q k := by
  unfold k0_pay9
  refine (Ideal.multiReduction_add_single (k0_pay8 (F := Ideal) x1) 0x00000000#32 reduces_S8x131072_S8 (.inl rfl) rfl (ix1 k)).trans ?_
  refine Finset.sum_congr rfl fun q _ => ?_
  have e : reduces_S8x131072_S8.lift (ix1 k) q = ix2 k q := funext fun a => Fin.ext (by
    match a with
    | ⟨0, _⟩ => rfl
    | ⟨1, _⟩ => rfl)
  rw [e]
  exact pay8_apply x1 k q

/-! ## The product of the logit block by the one-hot matrix, contracted over the pixels -/

/-- The left operand's index at output (i, k) and contraction position q: row i … -/
theorem lhs_dot_0 (i : S8x8.Idx) (q : dot_S8x131072_S8x131072_S8x8_1_1_0_0_n_n.contr.Idx) :
    (dot_S8x131072_S8x131072_S8x8_1_1_0_0_n_n.lhsIdx i q 0).val = (i 0).val := by
  unfold DotDims.lhsIdx
  rw [dif_neg (show ¬(0 : Fin S8x131072.rank) ∈ dot_S8x131072_S8x131072_S8x8_1_1_0_0_n_n.lhsBatch by decide), dif_pos (show (0 : Fin S8x131072.rank) ∈ dot_S8x131072_S8x131072_S8x8_1_1_0_0_n_n.lhsNonContracting by decide)]
  rfl
/-- … and pixel q. -/
theorem lhs_dot_1 (i : S8x8.Idx) (q : dot_S8x131072_S8x131072_S8x8_1_1_0_0_n_n.contr.Idx) :
    (dot_S8x131072_S8x131072_S8x8_1_1_0_0_n_n.lhsIdx i q 1).val = (q ⟨0, by decide⟩).val :=
  dot_S8x131072_S8x131072_S8x8_1_1_0_0_n_n.lhsIdx_val_of_single rfl i q
/-- The right operand's index: row k (the output's second coordinate) … -/
theorem rhs_dot_0 (i : S8x8.Idx) (q : dot_S8x131072_S8x131072_S8x8_1_1_0_0_n_n.contr.Idx) :
    (dot_S8x131072_S8x131072_S8x8_1_1_0_0_n_n.rhsIdx i q 0).val = (i 1).val := by
  unfold DotDims.rhsIdx
  rw [dif_neg (show ¬(0 : Fin S8x131072.rank) ∈ dot_S8x131072_S8x131072_S8x8_1_1_0_0_n_n.rhsBatch by decide), dif_pos (show (0 : Fin S8x131072.rank) ∈ dot_S8x131072_S8x131072_S8x8_1_1_0_0_n_n.rhsNonContracting by decide)]
  rfl
/-- … and pixel q. -/
theorem rhs_dot_1 (i : S8x8.Idx) (q : dot_S8x131072_S8x131072_S8x8_1_1_0_0_n_n.contr.Idx) :
    (dot_S8x131072_S8x131072_S8x8_1_1_0_0_n_n.rhsIdx i q 1).val = (q ⟨0, by decide⟩).val :=
  dot_S8x131072_S8x131072_S8x8_1_1_0_0_n_n.rhsIdx_val_of_single rfl i q

/-- The matmul into the zero accumulator at (i, k): the sum over the pixels of the two operands' products. -/
theorem dot_apply (y0 y1 : FVec Ideal S8x131072 .f32) (i k : Fin 8) :
    matmul (F := Ideal) dot_S8x131072_S8x131072_S8x8_1_1_0_0_n_n none y0 y1 (constant (F := Ideal) S8x8 .f32 0x00000000#32) (ix2 i k)
      = ∑ q : Fin 131072, y0 (ix2 i q) * y1 (ix2 k q) := by
  simp only [matmul]
  rw [Ideal.matmul_constant_zero_apply, ← Equiv.sum_comp (ValueIdx.contrEquiv1 dot_S8x131072_S8x131072_S8x8_1_1_0_0_n_n 131072 rfl rfl).symm]
  refine Finset.sum_congr rfl fun q _ => ?_
  have hq := ValueIdx.contrEquiv1_symm_val dot_S8x131072_S8x131072_S8x8_1_1_0_0_n_n 131072 rfl rfl q
  have el : dot_S8x131072_S8x131072_S8x8_1_1_0_0_n_n.lhsIdx (ix2 i k) ((ValueIdx.contrEquiv1 dot_S8x131072_S8x131072_S8x8_1_1_0_0_n_n 131072 rfl rfl).symm q) = ix2 i q := funext fun a => Fin.ext (by
    match a with
    | ⟨0, _⟩ => exact lhs_dot_0 _ _
    | ⟨1, _⟩ => exact (lhs_dot_1 _ _).trans hq)
  have er : dot_S8x131072_S8x131072_S8x8_1_1_0_0_n_n.rhsIdx (ix2 i k) ((ValueIdx.contrEquiv1 dot_S8x131072_S8x131072_S8x8_1_1_0_0_n_n 131072 rfl rfl).symm q) = ix2 k q := funext fun a => Fin.ext (by
    match a with
    | ⟨0, _⟩ => exact rhs_dot_0 _ _
    | ⟨1, _⟩ => exact (rhs_dot_1 _ _).trans hq)
  rw [el, er]

theorem pay10_apply (x0 : Vec Ideal S1x8x131072 .f32) (x1 : Vec Ideal S1x1x131072 .i32) (i k : Fin 8) :
    k0_pay10 (F := Ideal) x0 x1 (ix2 i k) = ∑ q : Fin 131072, x0 (ix3 0 i q) * hotB x1 q k := by
  unfold k0_pay10
  refine (dot_apply (k0_pay7 (F := Ideal) x0) (k0_pay8 (F := Ideal) x1) i k).trans ?_
  refine Finset.sum_congr rfl fun q _ => ?_
  rw [pay7_apply, pay8_apply]

/-! ## The scalar: the per-pixel maximum plus log-sum-exp summed over the pixels, minus the trace -/

/-- The word the maximum is folded from denotes the bottom element. -/
theorem neg_inf_word : FloatOps.ofBits (F := Ideal) .f32 0xFF800000#32 = ⊥ := by
  simp [Ideal.ofBits, Ideal.ieee]

/-- Inserting a row coordinate into a pixel index. -/
theorem lift_row (q : Fin 131072) (c : Fin 8) : reduces_S8x131072_S131072.lift (ix1 q) c = ix2 c q :=
  funext fun a => Fin.ext (by
    match a with
    | ⟨0, _⟩ => rfl
    | ⟨1, _⟩ => rfl)

/-- The maximum over the eight rows at pixel `q`. -/
theorem rowmax_apply (x0 : Vec Ideal S1x8x131072 .f32) (q : Fin 131072) :
    multiReduction (F := Ideal) .maximumf [0] S131072 (k0_pay7 (F := Ideal) x0) 0xFF800000#32 reduces_S8x131072_S131072 (.inl rfl) rfl (ix1 q)
      = mxB x0 q := by
  refine (Ideal.multiReduction_maximumf_single (k0_pay7 (F := Ideal) x0) 0xFF800000#32 reduces_S8x131072_S131072 (.inl rfl) rfl (ix1 q)).trans ?_
  have hf : (k0_pay7 (F := Ideal) x0 ∘ reduces_S8x131072_S131072.lift (ix1 q)) = fun c : Fin 8 => x0 (ix3 0 c q) := funext fun c => by
    exact (congrArg (k0_pay7 (F := Ideal) x0) (lift_row q c)).trans (pay7_apply x0 c q)
  show (Finset.univ : Finset (Fin 8)).fold max (FloatOps.ofBits (F := Ideal) .f32 0xFF800000#32)
      (k0_pay7 (F := Ideal) x0 ∘ reduces_S8x131072_S131072.lift (ix1 q)) = mxB x0 q
  rw [hf, neg_inf_word]
  rfl

/-- The sum over the eight rows at pixel `q`. -/
theorem colsum_apply (v : FVec Ideal S8x131072 .f32) (q : Fin 131072) :
    multiReduction (F := Ideal) .add [0] S131072 v 0x00000000#32 reduces_S8x131072_S131072 (.inl rfl) rfl (ix1 q)
      = ∑ c : Fin 8, v (ix2 c q) := by
  refine (Ideal.multiReduction_add_single v 0x00000000#32 reduces_S8x131072_S131072 (.inl rfl) rfl (ix1 q)).trans ?_
  exact Finset.sum_congr rfl fun c _ => congrArg v (lift_row q c)

theorem log_apply {s : Shape} (v : FVec Ideal s .f32) (i : s.Idx) : log v i = Ideal.log (v i) := rfl
theorem exp_apply {s : Shape} (v : FVec Ideal s .f32) (i : s.Idx) : exp v i = Ideal.exp (v i) := rfl

/-- The row "shift plus log of the sum of the shifted exponentials", for any [8, P] block `y` and any row `m` of
    shifts, at pixel `q`. -/
theorem lse_row_apply (y : FVec Ideal S8x131072 .f32) (m : FVec Ideal S131072 .f32) (q : Fin 131072) :
    shapeCast S1x1x131072
      (addf (shapeCast S1x131072 m shapeCasts_S131072_S1x131072)
        (log (shapeCast S1x131072
          (multiReduction (F := Ideal) .add [0] S131072
            (exp (subf y (broadcastTo S8x131072 (shapeCast S1x131072 m shapeCasts_S131072_S1x131072) broadcasts_S1x131072_S8x131072)))
            0x00000000#32 reduces_S8x131072_S131072 (.inl rfl) rfl)
          shapeCasts_S131072_S1x131072)))
      shapeCasts_S1x131072_S1x1x131072 (ix3 0 0 q)
      = m (ix1 q) + Ideal.log (∑ c : Fin 8, Ideal.exp (y (ix2 c q) - m (ix1 q))) := by
  rw [shapeCast_ab_1ab_apply, addf_apply, shapeCast_a_1a_apply, log_apply, shapeCast_a_1a_apply, colsum_apply]
  refine congrArg (fun t => m (ix1 q) + Ideal.log t) (Finset.sum_congr rfl fun c _ => ?_)
  rw [exp_apply, subf_apply, broadcastTo_1b_ab_apply, shapeCast_a_1a_apply]

/-- The row and column iotas' words agree exactly on the diagonal. -/
theorem diag_word (i k : Fin 8) :
    IntOp.cmpi .eq (BitVec.ofNat 32 i.val) (BitVec.ofNat 32 k.val) = if i = k then 1#1 else 0#1 := by
  revert i k; decide

/-- The matrix `M` kept on the diagonal and zero off it, at (i, k). -/
theorem diag_apply (M : FVec Ideal S8x8 .f32) (i k : Fin 8) :
    shapeCast S1x8x8
      (select (cmpi .eq (iota .tc S8x8 32 [0] iota_S8x8_d0_w32) (iota .tc S8x8 32 [1] iota_S8x8_d1_w32)) M
        (broadcast S8x8 (Scalar.ofBits (F := Ideal) .f32 0x00000000#32)))
      shapeCasts_S8x8_S1x8x8 (ix3 0 i k)
      = if i = k then M (ix2 i k) else 0 := by
  rw [shapeCast_ab_1ab_apply, select_apply]
  show Scalar.select (IntOp.cmpi .eq (iota .tc S8x8 32 [0] iota_S8x8_d0_w32 (ix2 i k)) (iota .tc S8x8 32 [1] iota_S8x8_d1_w32 (ix2 i k)))
      (M (ix2 i k)) (Ideal.ofBits .f32 0x00000000#32) = _
  rw [iota_single_apply, iota_single_apply, Ideal.ofBits_zero_f32]
  show Scalar.select (IntOp.cmpi .eq (BitVec.ofNat 32 i.val) (BitVec.ofNat 32 k.val)) (M (ix2 i k)) 0 = _
  rw [diag_word]
  by_cases h : i = k
  · rw [if_pos h, if_pos h, select_one]
  · rw [if_neg h, if_neg h, select_zero]

/-- A sum into the one-element shape, cast to [1, 1, 1] and read at its element, is the sum over every index. -/
theorem total_extract {s : Shape} {axes : List (Fin s.rank)} (src : FVec Ideal s .f32) (h : s.Reduces axes S1) :
    extractAt ![0, 0, 0]
      (shapeCast S1x1x1 (multiReduction (F := Ideal) .add axes S1 src 0x00000000#32 h (.inl rfl) rfl) shapeCasts_S1_S1x1x1)
      inpos_S1x1x1_p0_0_0 = ∑ i : s.Idx, src i := by
  unfold extractAt shapeCast
  exact Ideal.multiReduction_add_total src 0x00000000#32 h (fun b => by match b with | ⟨0, _⟩ => rfl) (.inl rfl) rfl _

/-- The indices of a [1, 1, P] block are the pixels. -/
def pixEquiv : Fin 131072 ≃ S1x1x131072.Idx where
  toFun q := ix3 0 0 q
  invFun i := i 2
  left_inv _ := rfl
  right_inv i := funext fun a => Fin.ext (by
    match a with
    | ⟨0, _⟩ => have h : (i 0).val < 1 := (i 0).isLt; show 0 = (i 0).val; omega
    | ⟨1, _⟩ => have h : (i 1).val < 1 := (i 1).isLt; show 0 = (i 1).val; omega
    | ⟨2, _⟩ => rfl)

theorem sum_pixels (f : S1x1x131072.Idx → EReal) : ∑ i, f i = ∑ q : Fin 131072, f (ix3 0 0 q) :=
  (Equiv.sum_comp pixEquiv f).symm

/-- The indices of a [1, 8, 8] block are the pairs of classes. -/
def pairEquiv : Fin 8 × Fin 8 ≃ S1x8x8.Idx where
  toFun p := ix3 0 p.1 p.2
  invFun i := (i 1, i 2)
  left_inv _ := rfl
  right_inv i := funext fun a => Fin.ext (by
    match a with
    | ⟨0, _⟩ => have h : (i 0).val < 1 := (i 0).isLt; show 0 = (i 0).val; omega
    | ⟨1, _⟩ => rfl
    | ⟨2, _⟩ => rfl)

theorem sum_pairs (f : S1x8x8.Idx → EReal) : ∑ i, f i = ∑ a : Fin 8, ∑ b : Fin 8, f (ix3 0 a b) := by
  rw [← Equiv.sum_comp pairEquiv f, Fintype.sum_prod_type]
  rfl

theorem pay11_eq (x0 : Vec Ideal S1x8x131072 .f32) (x1 : Vec Ideal S1x1x131072 .i32) :
    k0_pay11 (F := Ideal) x0 x1
      = (∑ q : Fin 131072, (mxB x0 q + lseB x0 q))
        - ∑ i : Fin 8, ∑ k : Fin 8, (if i = k then (∑ q : Fin 131072, x0 (ix3 0 i q) * hotB x1 q k) else 0) := by
  unfold k0_pay11
  dsimp only
  refine (Ideal.scalar_subf_def _ _).trans ?_
  refine congrArg₂ (fun a b : EReal => a - b) ?_ ?_
  · refine (total_extract _ _).trans ?_
    rw [sum_pixels]
    refine Finset.sum_congr rfl fun q _ => ?_
    refine (lse_row_apply _ _ q).trans ?_
    rw [rowmax_apply]
    unfold lseB
    simp only [pay7_apply]
  · refine (total_extract _ _).trans ?_
    rw [sum_pairs]
    refine Finset.sum_congr rfl fun i _ => Finset.sum_congr rfl fun k _ => ?_
    refine (diag_apply _ i k).trans ?_
    rw [pay10_apply]

end Cert.KArith

end
-- ==== Proof.KernelAcc.lean ====
/-
  The three accumulators after a batch row's two pixel blocks, read at coordinates: the 8 x 8 products of the logit
  block by the one-hot matrix, the class counts, and the scalar, each started at zero on the row's first pixel block
  and increased by every block's contribution.
-/
import proofs.«408249_j70841190580811_3_alg».proof.Proof.KernelArith

noncomputable section

open scoped BigOperators

namespace Cert.KArith

open Idealize.ShloMosaic Idealize.ShloMosaic.ValueIdx Cert.KernelIdeal Cert.KernelIdeal.Gen

/-! ## The three accumulators after a batch row's two pixel blocks

Each accumulator block starts at zero on the row's first pixel block and adds that block's contribution on every pixel
block: the 8 x 8 products, the class counts, and the scalar. Read here after the second block, at coordinates. -/

/-- The matrix accumulator plus a block's 8 x 8 product, at (i, k). -/
theorem pay1_apply (v13 : FVec Ideal S8x8 .f32) (v38 : FVec Ideal S1x8x8 .f32) (i k : Fin 8) :
    k0_pay1 (F := Ideal) v13 v38 (ix3 0 i k) = v38 (ix3 0 i k) + v13 (ix2 i k) := by
  unfold k0_pay1
  rw [addf_apply, shapeCast_ab_1ab_apply]

/-- The accumulator block as loaded is itself. -/
theorem pay12_eq (v37 : FVec Ideal S1x8x8 .f32) : k0_pay12 (F := Ideal) v37 = v37 := by
  unfold k0_pay12
  exact shapeCast_self v37 _

/-- The zero matrix block. -/
theorem pay4_apply (j : S1x8x8.Idx) : k0_pay4 (F := Ideal) j = 0 := by
  unfold k0_pay4
  exact Ideal.ofBits_zero_f32

/-- A vector of 8 cast to [1, 1, 8] reads its coordinate. -/
theorem shapeCast_8_1x1x8_apply (v : FVec Ideal S8 .f32) (k : Fin 8) :
    shapeCast S1x1x8 v shapeCasts_S8_S1x1x8 (ix3 0 0 k) = v (ix1 k) :=
  shapeCast_apply v _ _ _ (by
    rw [Shape.rowMajor_val_one, Shape.rowMajor_val_three]
    show k.val = (0 * 1 + 0) * 8 + k.val
    omega)

/-- The count accumulator plus a block's class counts, at class k. -/
theorem pay2_apply (v12 : FVec Ideal S8 .f32) (v42 : FVec Ideal S1x1x8 .f32) (k : Fin 8) :
    k0_pay2 (F := Ideal) v12 v42 (ix3 0 0 k) = v42 (ix3 0 0 k) + v12 (ix1 k) := by
  unfold k0_pay2
  rw [addf_apply, shapeCast_self, shapeCast_8_1x1x8_apply]

/-- The zero count block. -/
theorem pay5_apply (j : S1x1x8.Idx) : k0_pay5 (F := Ideal) j = 0 := by
  unfold k0_pay5
  exact Ideal.ofBits_zero_f32

/-- The scalar accumulator plus a block's scalar. -/
theorem pay3_apply (v36 : Ideal .f32) (v47 : FVec Ideal S1x1x1 .f32) (j : S1x1x1.Idx) :
    k0_pay3 (F := Ideal) v36 v47 j = v47 j + v36 := by
  unfold k0_pay3
  rw [addf_apply, shapeCast_self]
  rfl

/-- The zero scalar block. -/
theorem pay6_apply (j : S1x1x1.Idx) : k0_pay6 (F := Ideal) j = 0 := by
  unfold k0_pay6
  exact Ideal.ofBits_zero_f32

theorem acc2_apply (xA xB : Vec Ideal S1x8x131072 .f32) (lA lB : Vec Ideal S1x1x131072 .i32) (i k : Fin 8) :
    k0_pay1 (F := Ideal) (k0_pay10 xB lB) (k0_pay12 (k0_pay1 (k0_pay10 xA lA) (k0_pay12 (k0_pay4 (F := Ideal))))) (ix3 0 i k)
      = (0 + ∑ q : Fin 131072, xA (ix3 0 i q) * hotB lA q k) + ∑ q : Fin 131072, xB (ix3 0 i q) * hotB lB q k := by
  rw [pay1_apply, pay12_eq, pay1_apply, pay12_eq, pay4_apply, pay10_apply, pay10_apply]

theorem acc3_apply (lA lB : Vec Ideal S1x1x131072 .i32) (k : Fin 8) :
    k0_pay2 (F := Ideal) (k0_pay9 lB) (k0_pay2 (k0_pay9 lA) (k0_pay5 (F := Ideal))) (ix3 0 0 k)
      = (0 + ∑ q : Fin 131072, hotB lA q k) + ∑ q : Fin 131072, hotB lB q k := by
  rw [pay2_apply, pay2_apply, pay5_apply, pay9_apply, pay9_apply]

theorem acc4_apply (xA xB : Vec Ideal S1x8x131072 .f32) (lA lB : Vec Ideal S1x1x131072 .i32) :
    k0_pay3 (F := Ideal) (k0_pay11 xB lB) (k0_pay3 (k0_pay11 xA lA) (k0_pay6 (F := Ideal))) (ix3 0 0 0)
      = (0 + ((∑ q : Fin 131072, (mxB xA q + lseB xA q)) - ∑ i : Fin 8, ∑ k : Fin 8, (if i = k then (∑ q : Fin 131072, xA (ix3 0 i q) * hotB lA q k) else 0)))
        + ((∑ q : Fin 131072, (mxB xB q + lseB xB q)) - ∑ i : Fin 8, ∑ k : Fin 8, (if i = k then (∑ q : Fin 131072, xB (ix3 0 i q) * hotB lB q k) else 0)) := by
  rw [pay3_apply, pay3_apply, pay6_apply, pay11_eq, pay11_eq]

end Cert.KArith

end
-- ==== Proof.Spec.lean ====
/-
  The mathematics both programs compute, over plain coordinates, on the extended reals.

  `x b c p` is the logit of class `c` at pixel `p` of batch row `b` (8 rows, 8 classes, 262144 pixels), `lab b p` the
  label word of that pixel. `hot` is the one-hot of a label against a class.

  The reference: the class counts `cnt`, the matrix `Aref b i k = ∑ₚ x b i p · (hot b p k / cnt b k)`, the row
  maximum `mx`, the log-sum-exp `lse` of the shifted logits, the picked log-probability
  `(x b (lab b p) p − mx) − lse`, and the cross entropy `ceRef`: minus the sum of the picked terms over 2²¹.

  The kernel walks each batch row in two halves of 131072 pixels (`pix nb q`): per half it forms the partial matrix
  `aPart`, the partial counts `cPart` and the partial cross entropy `cePart = ∑ (mx + lse) − trace aPart`, adds the
  halves onto a zero (`aRaw`, `nRaw`, `ceRaw`), and then divides: `Aker = aRaw / nRaw`, `ceKer = (∑ᵦ ceRaw b) / 2²¹`.
-/
import Idealize.ShloMosaic.PureOps.Ideal
import Idealize.ShloMosaic.PureOps.Ideal.Laws

noncomputable section

namespace Cert.JSpec

open Idealize.ShloMosaic

variable (x : Fin 8 → Fin 8 → Fin 262144 → EReal) (lab : Fin 8 → Fin 262144 → BitVec 32)

/-- The one-hot of pixel `p`'s label against class `k`. -/
def hot (b : Fin 8) (p : Fin 262144) (k : Fin 8) : EReal := if lab b p = BitVec.ofNat 32 k.val then 1 else 0

/-! ## The reference's side -/

/-- How many pixels of row `b` carry class `k`. -/
def cnt (b k : Fin 8) : EReal := ∑ p : Fin 262144, hot lab b p k

/-- The class-mean matrix: logit `i` averaged over the pixels of class `k`, the division inside the sum. -/
def Aref (b i k : Fin 8) : EReal := ∑ p : Fin 262144, x b i p * Ideal.div (hot lab b p k) (cnt lab b k)

/-- The largest logit at a pixel. -/
def mx (b : Fin 8) (p : Fin 262144) : EReal := (Finset.univ : Finset (Fin 8)).fold max ⊥ (fun c => x b c p)

/-- The logarithm of the sum of the exponentials of the shifted logits at a pixel. -/
def lse (b : Fin 8) (p : Fin 262144) : EReal := Ideal.log (∑ c : Fin 8, Ideal.exp (x b c p - mx x b p))

/-- The class a label word names (a word in [0, 8) names itself). -/
def cls (l : BitVec 32) : Fin 8 := ⟨l.toNat % 8, Nat.mod_lt _ (by decide)⟩

/-- The log-probability of the labelled class at a pixel. -/
def picked (b : Fin 8) (p : Fin 262144) : EReal := (x b (cls (lab b p)) p - mx x b p) - lse x b p

/-- The reference's cross entropy: minus the mean of the picked log-probabilities over the 8 · 262144 pixels. -/
def ceRef : EReal := -(Ideal.div (∑ b : Fin 8, ∑ p : Fin 262144, picked x lab b p) (Ideal.ofBits .f32 0x4A000000#32))

/-! ## The kernel's side -/

/-- Pixel `q` of half `nb` of a row. -/
def pix (nb : Fin 2) (q : Fin 131072) : Fin 262144 := ⟨nb.val * 131072 + q.val, by have := nb.isLt; have := q.isLt; omega⟩

/-- One half's contribution to the logit-by-class matrix. -/
def aPart (b : Fin 8) (nb : Fin 2) (i k : Fin 8) : EReal := ∑ q : Fin 131072, x b i (pix nb q) * hot lab b (pix nb q) k

/-- One half's class counts. -/
def cPart (b : Fin 8) (nb : Fin 2) (k : Fin 8) : EReal := ∑ q : Fin 131072, hot lab b (pix nb q) k

/-- One half's cross-entropy sum: the maxima and log-sum-exps, less the trace of the half's matrix. -/
def cePart (b : Fin 8) (nb : Fin 2) : EReal :=
  (∑ q : Fin 131072, (mx x b (pix nb q) + lse x b (pix nb q))) - ∑ i : Fin 8, ∑ k : Fin 8, (if i = k then aPart x lab b nb i k else 0)

/-- The two halves added onto a zero, first half first. -/
def aRaw (b i k : Fin 8) : EReal := (0 + aPart x lab b 0 i k) + aPart x lab b 1 i k
def nRaw (b k : Fin 8) : EReal := (0 + cPart lab b 0 k) + cPart lab b 1 k
def ceRaw (b : Fin 8) : EReal := (0 + cePart x lab b 0) + cePart x lab b 1

/-- The class-mean matrix as the kernel forms it: one division after the sums. -/
def Aker (b i k : Fin 8) : EReal := Ideal.div (aRaw x lab b i k) (nRaw lab b k)

/-- The kernel's cross entropy. -/
def ceKer : EReal := Ideal.div (∑ b : Fin 8, ceRaw x lab b) (Ideal.ofBits .f32 0x4A000000#32)

end Cert.JSpec

end
-- ==== Proof.KBridge.lean ====
/-
  The kernel's result at the exact instance, in the specification's terms.

  The logit block the body reads at point `t` is row `t / 2`, pixels `(t % 2) · 131072 + q` of the flattened
  logits; the label block likewise. So the three result arrays are, row by row, the specification's `aRaw`, `nRaw`
  and `ceRaw` of the flattened arrays, and the tail divides the first by the second and averages the third.
-/
import proofs.«408249_j70841190580811_3_alg».proof.Proof.KArrays
import proofs.«408249_j70841190580811_3_alg».proof.Proof.KernelAcc
import proofs.«408249_j70841190580811_3_alg».proof.Proof.Spec
import Idealize.ShloMosaic.Lib.IdealHost

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen Cert.KArith Cert.JSpec

variable (m : (ℓ : Loc nD τ sig) → Buf (Elt Ideal) ℓ)

/-- The flattened logits and labels as the region finds them, over plain coordinates. -/
def xK (c : Dev nD) : Fin 8 → Fin 8 → Fin 262144 → EReal := fun b i p => V m c main_v0 (ix3 b i p)
def labK (c : Dev nD) : Fin 8 → Fin 262144 → BitVec 32 := fun b p => V m c main_v1 (ix3 b (0 : Fin 1) p)

/-- The row and the pixel half of a grid point. -/
def rowOf (t : Fin cfg0.N) : Fin 8 := ⟨t.val / 2, by have := lt_of_lt_of_eq t.isLt (show cfg0.N = 16 from N_0); omega⟩
def halfOf (t : Fin cfg0.N) : Fin 2 := ⟨t.val % 2, Nat.mod_lt _ (by decide)⟩

/-- The logit block at point `t`: row `t / 2`, the pixels of half `t % 2`. -/
theorem xblk_apply (c : Dev nD) (t : Fin cfg0.N) (i : Fin 8) (q : Fin 131072) :
    xblk m c t (ix3 (0 : Fin 1) i q) = xK m c (rowOf t) i (pix (halfOf t) q) := by
  obtain ⟨e0, e1, e2⟩ := idx_in0 t
  unfold xblk iblk xK
  rw [View.read_apply]
  show V m c main_v0 _ = V m c main_v0 _
  congr 1
  funext a
  apply Fin.ext
  match a with
  | ⟨0, _⟩ => show win0_0.index t (0 : Fin 3) * 1 + 1 * 0 = t.val / 2; omega
  | ⟨1, _⟩ => show win0_0.index t (1 : Fin 3) * 8 + 1 * i.val = i.val; omega
  | ⟨2, _⟩ => show win0_0.index t (2 : Fin 3) * 131072 + 1 * q.val = t.val % 2 * 131072 + q.val; omega

/-- The label block at point `t`. -/
theorem lblk_apply (c : Dev nD) (t : Fin cfg0.N) (q : Fin 131072) :
    lblk m c t (ix3 (0 : Fin 1) (0 : Fin 1) q) = labK m c (rowOf t) (pix (halfOf t) q) := by
  obtain ⟨e0, e1, e2⟩ := idx_in1 t
  unfold lblk iblk labK
  rw [View.read_apply]
  show V m c main_v1 _ = V m c main_v1 _
  congr 1
  funext a
  apply Fin.ext
  match a with
  | ⟨0, _⟩ => show win0_1.index t (0 : Fin 3) * 1 + 1 * 0 = t.val / 2; omega
  | ⟨1, _⟩ => show win0_1.index t (1 : Fin 3) * 1 + 1 * 0 = 0; omega
  | ⟨2, _⟩ => show win0_1.index t (2 : Fin 3) * 131072 + 1 * q.val = t.val % 2 * 131072 + q.val; omega

/-- The one-hot of a label block is the specification's one-hot of the flattened labels. -/
theorem hotB_lblk (c : Dev nD) (t : Fin cfg0.N) (q : Fin 131072) (k : Fin 8) :
    hotB (lblk m c t) q k = hot (labK m c) (rowOf t) (pix (halfOf t) q) k := by
  unfold hotB hot
  rw [lblk_apply]

theorem rowOf_tB (b : Fin 8) : rowOf (tB b) = b := Fin.ext (by show (2 * b.val + 1) / 2 = b.val; omega)
theorem halfOf_tB (b : Fin 8) : halfOf (tB b) = 1 := Fin.ext (by show (2 * b.val + 1) % 2 = 1; omega)
theorem rowOf_prev_tB (b : Fin 8) : rowOf (prev (tB b)) = b := Fin.ext (by show (2 * b.val + 1 - 1) / 2 = b.val; omega)
theorem halfOf_prev_tB (b : Fin 8) : halfOf (prev (tB b)) = 0 := Fin.ext (by show (2 * b.val + 1 - 1) % 2 = 0; omega)

/-- Row `b` of the first result array is the two halves' partial matrices added onto zero. -/
theorem G2_apply (c : Dev nD) (b i k : Fin 8) : G2 m c (ix3 b i k) = aRaw (xK m c) (labK m c) b i k := by
  show bv2 m c (tB b) (ix3 (0 : Fin 1) i k) = _
  unfold bv2
  rw [acc2_apply]
  unfold aRaw aPart
  simp only [xblk_apply, hotB_lblk, rowOf_tB, halfOf_tB, rowOf_prev_tB, halfOf_prev_tB]

/-- Row `b` of the second result array is the two halves' class counts added onto zero. -/
theorem G3_apply (c : Dev nD) (b k : Fin 8) : G3 m c (ix3 b (0 : Fin 1) k) = nRaw (labK m c) b k := by
  show bv3 m c (tB b) (ix3 (0 : Fin 1) (0 : Fin 1) k) = _
  unfold bv3
  rw [acc3_apply]
  unfold nRaw cPart
  simp only [hotB_lblk, rowOf_tB, halfOf_tB, rowOf_prev_tB, halfOf_prev_tB]

/-- The row maximum and the log-sum-exp of a logit block are the specification's at the flattened logits. -/
theorem mxB_xblk (c : Dev nD) (t : Fin cfg0.N) (q : Fin 131072) :
    mxB (xblk m c t) q = mx (xK m c) (rowOf t) (pix (halfOf t) q) := by
  unfold mxB mx
  simp only [xblk_apply]
theorem lseB_xblk (c : Dev nD) (t : Fin cfg0.N) (q : Fin 131072) :
    lseB (xblk m c t) q = lse (xK m c) (rowOf t) (pix (halfOf t) q) := by
  unfold lseB lse
  simp only [xblk_apply, mxB_xblk]

/-- Row `b` of the third result array is the two halves' cross-entropy sums added onto zero. -/
theorem G4_apply (c : Dev nD) (b : Fin 8) : G4 m c (ix3 b (0 : Fin 1) (0 : Fin 1)) = ceRaw (xK m c) (labK m c) b := by
  show bv4 m c (tB b) (ix3 (0 : Fin 1) (0 : Fin 1) (0 : Fin 1)) = _
  unfold bv4
  rw [acc4_apply]
  unfold ceRaw cePart aPart
  simp only [xblk_apply, hotB_lblk, mxB_xblk, lseB_xblk, rowOf_tB, halfOf_tB, rowOf_prev_tB, halfOf_prev_tB]

end Cert.KernelIdeal.KV

end
-- ==== Proof.KResult.lean ====
/-
  The kernel's host tail at the ideal values: the raw sums divided by the counts at (b, 0, k), through the J term, plus
  the sum of the eight per-row cells divided by the constant.
-/
import proofs.«408249_j70841190580811_3_alg».proof.Proof.KTailDefs
import Idealize.ShloMosaic.Lib.IdealHost
import Idealize.ShloMosaic.Lib.ValueIdx
import Idealize.ShloMosaic.Lib.Pipeline.Value
import Idealize.ShloMosaic.PureOps.Ideal.Laws

noncomputable section

open scoped BigOperators

namespace Cert.KernelIdeal.KV

open Idealize.ShloMosaic Idealize.ShloMosaic.ValueIdx Cert.KernelIdeal Cert.KernelIdeal.Gen

/-! ## The kernel's host tail read at the ideal values

The counts, stored [8, 1, 8], are re-laid [8, 8] and broadcast along the logit axis: the divisor of the raw sums at
(b, i, k) is the count at (b, 0, k). The cross-entropy cell is the sum of the eight per-row cells over the constant. -/

/-- The counts cast [8, 1, 8] → [8, 8] read, at (b, k), the counts at (b, 0, k). -/
theorem cast_counts_apply (N3 : FVec Ideal S8x1x8 .f32) (b k : Fin 8) :
    shapeCast S8x8 N3 shapeCasts_S8x1x8_S8x8 (ix2 b k) = N3 (ix3 b (0 : Fin 1) k) :=
  shapeCast_apply N3 _ _ _ (by
    rw [Shape.rowMajor_val_three, Shape.rowMajor_val_two]
    show (b.val * 1 + 0) * 8 + k.val = b.val * 8 + k.val
    omega)

/-- The divisor at (b, i, k): the count at (b, 0, k). -/
theorem counts_bcast_apply (N3 : FVec Ideal S8x1x8 .f32) (b i k : Fin 8) :
    broadcastInDim S8x8x8 ![0, 1, 2] bcast_S8x1x8_S8x8x8_0_1_2
      (broadcastInDim S8x1x8 ![0, 2] bcast_S8x8_S8x1x8_0_2 (shapeCast S8x8 N3 shapeCasts_S8x1x8_S8x8)) (ix3 b i k)
      = N3 (ix3 b (0 : Fin 1) k) := by
  refine (broadcastInDim_apply _ bcast_S8x1x8_S8x8x8_0_1_2 _ (ix3 b i k) (ix3 b (0 : Fin 1) k) (fun a => match a with
    | ⟨0, _⟩ => by show b.val = if (8 : Nat) = 1 then 0 else b.val; rw [if_neg (by decide)]
    | ⟨1, _⟩ => by show 0 = if (1 : Nat) = 1 then 0 else i.val; rw [if_pos rfl]
    | ⟨2, _⟩ => by show k.val = if (8 : Nat) = 1 then 0 else k.val; rw [if_neg (by decide)])).trans ?_
  refine (broadcastInDim_apply _ bcast_S8x8_S8x1x8_0_2 _ (ix3 b (0 : Fin 1) k) (ix2 b k) (fun a => match a with
    | ⟨0, _⟩ => by show b.val = if (8 : Nat) = 1 then 0 else b.val; rw [if_neg (by decide)]
    | ⟨1, _⟩ => by show k.val = if (8 : Nat) = 1 then 0 else k.val; rw [if_neg (by decide)])).trans ?_
  exact cast_counts_apply N3 b k

/-- The indices of an [8, 1, 1] array are the batch rows. -/
def rowEquiv : Fin 8 ≃ S8x1x1.Idx where
  toFun b := ix3 b (0 : Fin 1) (0 : Fin 1)
  invFun i := i 0
  left_inv _ := rfl
  right_inv i := funext fun a => Fin.ext (by
    match a with
    | ⟨0, _⟩ => rfl
    | ⟨1, _⟩ => have h : (i 1).val < 1 := (i 1).isLt; show 0 = (i 1).val; omega
    | ⟨2, _⟩ => have h : (i 2).val < 1 := (i 2).isLt; show 0 = (i 2).val; omega)

theorem sum_rows (f : S8x1x1.Idx → EReal) : ∑ i, f i = ∑ b : Fin 8, f (ix3 b (0 : Fin 1) (0 : Fin 1)) :=
  (Equiv.sum_comp rowEquiv f).symm

/-- The sum of the per-row cells over every axis, from the zero initial value. -/
theorem cells_sum_apply (C4 : FVec Ideal S8x1x1 .f32) (j : S_.Idx) :
    Host.reduceAdd C4 (constant (F := Ideal) S_ .f32 0x00000000#32) reducesTo_S8x1x1_S_d0_1_2 h_S_ j
      = ∑ b : Fin 8, C4 (ix3 b (0 : Fin 1) (0 : Fin 1)) := by
  rw [hostReduceAdd_apply, Ideal.hostReduceAdd_total _ (fun b => b.elim0), constant_apply, Ideal.ofBits_zero_f32, zero_add,
    sum_rows]

theorem kres_read (A2 : FVec Ideal S8x8x8 .f32) (N3 : FVec Ideal S8x1x8 .f32) (C4 : FVec Ideal S8x1x1 .f32) (W : FVec Ideal S8x8 .f32) :
    kres (F := Ideal) A2 N3 C4 W
      = addf (jtail (F := Ideal) (fun idx => Ideal.div (A2 idx) (N3 (ix3 (idx 0) (0 : Fin 1) (idx 2)))) W)
          (fun _ => Ideal.div (∑ b : Fin 8, C4 (ix3 b (0 : Fin 1) (0 : Fin 1))) (Ideal.ofBits .f32 0x4A000000#32)) := by
  unfold kres
  dsimp only
  refine congrArg₂ (fun (A : FVec Ideal S8x8x8 .f32) (c : FVec Ideal S8 .f32) => addf (jtail (F := Ideal) A W) c) ?_ ?_
  · funext idx
    obtain ⟨b, i, k, rfl⟩ : ∃ (b i k : Fin 8), idx = ix3 b i k := ⟨idx 0, idx 1, idx 2, eq_ix3 idx⟩
    rw [hostDivf_apply, counts_bcast_apply]
  · funext j
    rw [broadcastInDim_scalar_apply, hostDivf_apply, cells_sum_apply, constant_apply]

end Cert.KernelIdeal.KV

end
-- ==== Proof.RefMatrix.lean ====
/-
  The reference's class-mean matrix, read at an index.

  The reference forms the one-hot of each pixel's label against each class, sums it over the pixels of a batch row
  into the class counts, divides the one-hot by the counts, and contracts the logits against that quotient over the
  pixels. Read at (b, i, k), the result is `Aref b i k = ∑ₚ x b i p · (hot b p k / cnt b k)` of the shared
  specification, with the logits and labels taken at plain coordinates (`xOf`, `labOf`). One lemma per stage, each
  at explicit coordinates; the sums are matched term by term and never expanded.
-/
import proofs.«408249_j70841190580811_3_alg».proof.Proof.RefReadP
import proofs.«408249_j70841190580811_3_alg».proof.Proof.Spec
import Idealize.ShloMosaic.Lib.StableHlo.Predicate
import Idealize.ShloMosaic.Lib.ValueIdx
import Idealize.ShloMosaic.PureOps.Ideal.Laws

noncomputable section

namespace Cert.RefRead

open Cert.ReferenceIdeal Cert.ReferenceIdeal.Gen Idealize.ShloMosaic Idealize.ShloMosaic.TcCoe Idealize.SL.Sem Idealize.ShloMosaic.StableHlo
open Cert.ReferenceIdeal.ReadP Idealize.ShloMosaic.ValueIdx

/-- The logits by plain coordinates: batch row, class, pixel. -/
def xOf (x0 : (⟨S8x8x512x512, .f32⟩ : BufTy).Contents (Elt Ideal)) : Fin 8 → Fin 8 → Fin 262144 → EReal :=
  fun b c p => val_main_v0 (F := Ideal) x0 (ix3 b c p)
/-- The label words by plain coordinates: batch row, pixel. -/
def labOf (x1 : (⟨S8x512x512, .i32⟩ : BufTy).Contents (Elt Ideal)) : Fin 8 → Fin 262144 → BitVec 32 :=
  fun b p => val_main_v1 (F := Ideal) x1 (ix2 b p)

/-! ## Words -/

/-- A one-bit word that is not one is zero. -/
theorem bit_eq_zero_of_ne_one : ∀ v : BitVec 1, v ≠ 1#1 → v = 0#1 := by decide

/-- The equality test of two words, read as an unsigned number, is the indicator of their equality. -/
theorem uitofp_cmpi_eq (a c : BitVec 32) :
    FloatOps.uitofp (F := Ideal) .f32 (IntOp.cmpi .eq a c) = if a = c then (1 : EReal) else 0 := by
  by_cases h : a = c
  · rw [if_pos h, Predicate.cmpi_eq_iff.mpr h]
    show (((1#1 : BitVec 1).toNat : ℝ) : EReal) = 1
    norm_num
  · rw [if_neg h, bit_eq_zero_of_ne_one _ (fun e => h (Predicate.cmpi_eq_iff.mp e))]
    show (((0#1 : BitVec 1).toNat : ℝ) : EReal) = 0
    norm_num

/-! ## The one-hot chain at a pixel and a class -/

/-- The label broadcast along the class axis reads the pixel's label word. -/
theorem lab_read (x1 : (⟨S8x512x512, .i32⟩ : BufTy).Contents (Elt Ideal)) (b : Fin 8) (p : Fin 262144) (k : Fin 8) :
    val_main_call0_v2 (F := Ideal) x1 (ix3 b p k) = labOf x1 b p := by
  rw [val_main_call0_v2_apply, val_main_call0_v0_apply]
  exact congrArg (val_main_v1 (F := Ideal) x1)
    (funext fun a => by match a with | ⟨0, _⟩ => rfl | ⟨1, _⟩ => rfl)

/-- The class numbers broadcast over rows and pixels read the class's own number. -/
theorem iota_read (b : Fin 8) (p : Fin 262144) (k : Fin 8) :
    val_main_call0_v3 (F := Ideal) (ix3 b p k) = BitVec.ofNat 32 k.val := by
  rw [val_main_call0_v3_apply, val_main_call0_v1_apply]

/-- The one-hot array is the indicator that the pixel's label names the class. -/
theorem hot_read (x1 : (⟨S8x512x512, .i32⟩ : BufTy).Contents (Elt Ideal)) (b : Fin 8) (p : Fin 262144) (k : Fin 8) :
    val_main_v2 (F := Ideal) x1 (ix3 b p k) = Cert.JSpec.hot (labOf x1) b p k := by
  rw [val_main_v2_apply, val_main_call0_v4_apply, lab_read, iota_read, uitofp_cmpi_eq]
  rfl

/-! ## The class counts and the quotient -/

/-- The reduction over the pixel axis is the class count. -/
theorem cnt_read (x1 : (⟨S8x512x512, .i32⟩ : BufTy).Contents (Elt Ideal)) (b k : Fin 8) :
    val_main_v3 (F := Ideal) x1 (ix2 b k) = Cert.JSpec.cnt (labOf x1) b k := by
  rw [val_main_v3_apply, val_main_cst_apply, Ideal.ofBits_def, Ideal.ofBits_zero_f32, zero_add]
  unfold Cert.JSpec.cnt
  refine Finset.sum_congr rfl fun p _ => ?_
  have e : idx_main_v3 (ix2 b k) p = ix3 b p k :=
    funext fun a => by match a with | ⟨0, _⟩ => rfl | ⟨1, _⟩ => rfl | ⟨2, _⟩ => rfl
  rw [e, hot_read]

/-- The counts broadcast back over the pixels read the class count. -/
theorem cntB_read (x1 : (⟨S8x512x512, .i32⟩ : BufTy).Contents (Elt Ideal)) (b : Fin 8) (p : Fin 262144) (k : Fin 8) :
    val_main_v5 (F := Ideal) x1 (ix3 b p k) = Cert.JSpec.cnt (labOf x1) b k := by
  rw [val_main_v5_apply, val_main_v4_apply]
  have e : idx_main_v4 (idx_main_v5 (ix3 b p k)) = ix2 b k :=
    funext fun a => by match a with | ⟨0, _⟩ => rfl | ⟨1, _⟩ => rfl
  rw [e, cnt_read]

/-- The quotient array: the indicator over the class count. -/
theorem phi_read (x1 : (⟨S8x512x512, .i32⟩ : BufTy).Contents (Elt Ideal)) (b : Fin 8) (p : Fin 262144) (k : Fin 8) :
    val_main_v6 (F := Ideal) x1 (ix3 b p k)
      = Ideal.div (Cert.JSpec.hot (labOf x1) b p k) (Cert.JSpec.cnt (labOf x1) b k) := by
  rw [val_main_v6_apply, Ideal.hostDivf_def, hot_read, cntB_read]

/-! ## The class-mean matrix -/

/-- The contraction over the pixels is the specification's class-mean matrix. -/
theorem ref_A (x0 : (⟨S8x8x512x512, .f32⟩ : BufTy).Contents (Elt Ideal)) (x1 : (⟨S8x512x512, .i32⟩ : BufTy).Contents (Elt Ideal)) (b i k : Fin 8) :
    val_main_v7 (F := Ideal) x0 x1 (ix3 b i k) = Cert.JSpec.Aref (xOf x0) (labOf x1) b i k := by
  rw [val_main_v7_apply]
  unfold Cert.JSpec.Aref
  refine Finset.sum_congr rfl fun p _ => ?_
  have el : lidx_main_v7 (ix3 b i k) p = ix3 b i p :=
    funext fun a => by match a with | ⟨0, _⟩ => rfl | ⟨1, _⟩ => rfl | ⟨2, _⟩ => rfl
  have er : ridx_main_v7 (ix3 b i k) p = ix3 b p k :=
    funext fun a => by match a with | ⟨0, _⟩ => rfl | ⟨1, _⟩ => rfl | ⟨2, _⟩ => rfl
  rw [el, er, phi_read]
  rfl

end Cert.RefRead

end
-- ==== Proof.RefCE.lean ====
/-
  The reference's cross-entropy scalar, read back.

  The reference takes the log-softmax of the logits over the class axis, picks at every pixel the entry of the pixel's
  label (a gather along the class axis, guarded by an in-bounds mask), sums the picked entries over the 8 rows and the
  262144 pixels, divides by 2²¹ and negates. With `x b c p` the logit of class `c` at pixel `p` of row `b` and `lab b p`
  the pixel's label word, and under the hypothesis that every label lies in [0, 8), this module proves that scalar
  equal to `Cert.JSpec.ceRef x lab`:

    log-softmax at (b, c, p) = (x b c p − M) − log (∑_c exp (x b c p − M)),   M = max_c x b c p,

  the maximum being a fold of `max` from −∞ over the eight classes (any order: `max` commutes and associates; the
  further `max` with −∞ changes nothing), and the sum starting from 0. A label `l` in [0, 8) is not negative, so the
  fix-up `l < 0 ? l + 8 : l` is `l`; it passes `0 ≤ l ≤ 7`, so the mask is 1 and the select returns the gathered value;
  and read signed and clamped into [0, 7] it is `l` itself, the class `cls l`. The gather has rows and pixels as batching
  axes and the class axis collapsed, so at (b, 0, p) it reads the operand at (b, cls l, p). The total sum over the
  `8 × 1 × 262144` array is re-indexed as the double sum over rows and pixels.
-/
import proofs.«408249_j70841190580811_3_alg».proof.Proof.RefReadP
import proofs.«408249_j70841190580811_3_alg».proof.Proof.Spec
import Idealize.ShloMosaic.Lib.ValueIdx
import Idealize.ShloMosaic.Lib.Affine
import Idealize.ShloMosaic.PureOps.Reduce
import Idealize.ShloMosaic.PureOps.Ideal.Laws

noncomputable section

namespace Cert.RefCE

open Cert.ReferenceIdeal Cert.ReferenceIdeal.Gen Idealize.ShloMosaic Idealize.ShloMosaic.TcCoe Idealize.SL.Sem Idealize.ShloMosaic.StableHlo
open Cert.ReferenceIdeal.ReadP Idealize.ShloMosaic.ValueIdx

/-- The logits by coordinates: row, class, pixel. -/
def xOf (x0 : (⟨S8x8x512x512, .f32⟩ : BufTy).Contents (Elt Ideal)) : Fin 8 → Fin 8 → Fin 262144 → EReal :=
  fun b c p => val_main_v0 (F := Ideal) x0 (ix3 b c p)
/-- The label words by coordinates: row, pixel. -/
def labOf (x1 : (⟨S8x512x512, .i32⟩ : BufTy).Contents (Elt Ideal)) : Fin 8 → Fin 262144 → BitVec 32 :=
  fun b p => val_main_v1 (F := Ideal) x1 (ix2 b p)

/-! ## Words -/

/-- The word `0xFF800000` is minus infinity, the bottom of the extended reals. -/
theorem ofBits_neg_inf : Ideal.ofBits .f32 0xFF800000#32 = (⊥ : EReal) := by simp [Ideal.ofBits, Ideal.ieee]

/-- A word below 8 read signed is itself. -/
theorem toInt_of_lt8 (l : BitVec 32) (h : l.toNat < 8) : l.toInt = (l.toNat : Int) := by
  rw [BitVec.toInt_eq_toNat_cond]; split <;> omega

/-- Such a word is not negative … -/
theorem slt_zero (l : BitVec 32) (h : l.toNat < 8) : IntOp.cmpi .slt l 0#32 = 0#1 := by
  apply eq_zero_of_ne_one
  intro h1
  have h2 := IntOp.cmpi_slt.mp h1
  have h0 : (0#32 : BitVec 32).toInt = 0 := by decide
  rw [toInt_of_lt8 l h, h0] at h2
  omega

/-- … it is at least 0 … -/
theorem sge_zero (l : BitVec 32) (h : l.toNat < 8) : IntOp.cmpi .sge l 0#32 = 1#1 := by
  refine IntOp.cmpi_sge.mpr ?_
  have h0 : (0#32 : BitVec 32).toInt = 0 := by decide
  rw [toInt_of_lt8 l h, h0]
  omega

/-- … and at most 7. -/
theorem sle_seven (l : BitVec 32) (h : l.toNat < 8) : IntOp.cmpi .sle l 7#32 = 1#1 := by
  refine IntOp.cmpi_sle.mpr ?_
  have h0 : (7#32 : BitVec 32).toInt = 7 := by decide
  rw [toInt_of_lt8 l h, h0]
  omega

/-- Read signed and clamped into [0, 7] it is the class it names. -/
theorem clamp_eq (l : BitVec 32) (h : l.toNat < 8) : min l.toInt.toNat 7 = l.toNat % 8 := by
  rw [toInt_of_lt8 l h]; omega

/-- A fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_one f l fun n hn => h n (List.mem_cons_of_mem _ hn)

/-! ## The maximum over the class axis -/

/-- The maximum-reduce over the class axis from minus infinity, at row `b` and pixel `p`: the fold of `max` from `⊥`
    over the eight classes (`max` commutes and associates, so the order of the fold is immaterial). -/
theorem reduce_max_eq (y : S8x8x262144.Idx → EReal) (b : Fin 8) (p : Fin 262144) :
    Host.reduce (FloatOps.maximumf (F := Ideal) (φ := .f32)) y (constant (F := Ideal) S_ .f32 0xFF800000#32)
        reducesTo_S8x8x262144_S8x262144_d1 h_S_ (ix2 b p)
      = (Finset.univ : Finset (Fin 8)).fold max ⊥ (fun c => y (ix3 b c p)) := by
  have hR : S8x8x262144.Reduces [1] S8x262144 := by decide
  rw [Host.reduce_eq_fold_single (FloatOps.maximumf (F := Ideal) (φ := .f32)) y _ reducesTo_S8x8x262144_S8x262144_d1 hR h_S_ (ix2 b p)]
  have hl : ∀ c : Fin 8, hR.lift (ix2 b p) c = ix3 b c p := fun c => funext fun a => Fin.ext (by
    match a with
    | ⟨0, _⟩ => rfl
    | ⟨1, _⟩ => rfl
    | ⟨2, _⟩ => rfl)
  show Finset.fold max (Ideal.ofBits .f32 0xFF800000#32) (fun c : Fin 8 => y (hR.lift (ix2 b p) c)) Finset.univ = _
  rw [ofBits_neg_inf]
  simp only [hl]

/-! ## The gather along the class axis

Operand `8 × 8 × 262144`, start indices `8 × 1 × 262144 × 1`, result `8 × 1 × 262144`: rows and pixels are batching axes,
the class axis is collapsed and is the one axis the start index names. -/

/-- The batching coordinate on the row axis is the result's row … -/
theorem gather_batch0 (j : S8x1x262144.Idx) :
    gather_S8x8x262144_S8x1x262144x1_S8x1x262144_n_1_02_02_1_3_111.batchCoord j 0 = (j 0).val := by
  unfold GatherDims.batchCoord
  rw [dif_pos (by decide)]
  unfold GatherDims.siCoord
  show (j _).val = (j 0).val
  congr 2

/-- … and on the pixel axis the result's pixel. -/
theorem gather_batch2 (j : S8x1x262144.Idx) :
    gather_S8x8x262144_S8x1x262144x1_S8x1x262144_n_1_02_02_1_3_111.batchCoord j 2 = (j 2).val := by
  unfold GatherDims.batchCoord
  rw [dif_pos (by decide)]
  unfold GatherDims.siCoord
  show (j _).val = (j 2).val
  congr 2

/-- On the row axis the operand index is the result's row. -/
theorem gather_axis0 {w : Nat} (idx : IVec S8x1x262144x1 w) (b : Fin 8) (p : Fin 262144) :
    gather_S8x8x262144_S8x1x262144x1_S8x1x262144_n_1_02_02_1_3_111.start (ix3 b 0 p) idx 0
      + gather_S8x8x262144_S8x1x262144x1_S8x1x262144_n_1_02_02_1_3_111.batchCoord (ix3 b 0 p) 0
      + gather_S8x8x262144_S8x1x262144x1_S8x1x262144_n_1_02_02_1_3_111.offCoord (ix3 b 0 p) 0 = b.val := by
  rw [GatherDims.start_batching _ _ _ _ (by decide),
    GatherDims.offCoord_eq_zero _ _ _ (fun h => ((GatherDims.mem_sKept _ _).mp h).2 (by decide)), gather_batch0]
  show 0 + b.val + 0 = b.val
  omega

/-- On the pixel axis it is the result's pixel. -/
theorem gather_axis2 {w : Nat} (idx : IVec S8x1x262144x1 w) (b : Fin 8) (p : Fin 262144) :
    gather_S8x8x262144_S8x1x262144x1_S8x1x262144_n_1_02_02_1_3_111.start (ix3 b 0 p) idx 2
      + gather_S8x8x262144_S8x1x262144x1_S8x1x262144_n_1_02_02_1_3_111.batchCoord (ix3 b 0 p) 2
      + gather_S8x8x262144_S8x1x262144x1_S8x1x262144_n_1_02_02_1_3_111.offCoord (ix3 b 0 p) 2 = p.val := by
  rw [GatherDims.start_batching _ _ _ _ (by decide),
    GatherDims.offCoord_eq_zero _ _ _ (fun h => ((GatherDims.mem_sKept _ _).mp h).2 (by decide)), gather_batch2]
  show 0 + p.val + 0 = p.val
  omega

/-- On the collapsed class axis it is the start index, read signed and clamped into [0, 7]. -/
theorem gather_axis1 {w : Nat} (idx : IVec S8x1x262144x1 w) (b : Fin 8) (p : Fin 262144) :
    gather_S8x8x262144_S8x1x262144x1_S8x1x262144_n_1_02_02_1_3_111.start (ix3 b 0 p) idx 1
      + gather_S8x8x262144_S8x1x262144x1_S8x1x262144_n_1_02_02_1_3_111.batchCoord (ix3 b 0 p) 1
      + gather_S8x8x262144_S8x1x262144x1_S8x1x262144_n_1_02_02_1_3_111.offCoord (ix3 b 0 p) 1
      = min (idx (ix4 b 0 p 0)).toInt.toNat 7 := by
  rw [GatherDims.batchCoord_eq_zero _ _ _ (by decide),
    GatherDims.offCoord_eq_zero _ _ _ (fun h => ((GatherDims.mem_sKept _ _).mp h).1 (by decide))]
  simp only [Nat.add_zero]
  unfold GatherDims.start
  rw [dif_pos (show (1 : Fin S8x8x262144.rank) ∈ gather_S8x8x262144_S8x1x262144x1_S8x1x262144_n_1_02_02_1_3_111.startIndexMap from by decide)]
  have hsi : gather_S8x8x262144_S8x1x262144x1_S8x1x262144_n_1_02_02_1_3_111.siIdx (ix3 b 0 p)
      ⟨List.idxOf (1 : Fin S8x8x262144.rank) gather_S8x8x262144_S8x1x262144x1_S8x1x262144_n_1_02_02_1_3_111.startIndexMap,
        List.idxOf_lt_length_iff.2 (by decide)⟩ = ix4 b 0 p 0 := by
    funext a; refine Fin.ext ?_
    match a with
    | ⟨0, _⟩ => rfl
    | ⟨1, _⟩ => rfl
    | ⟨2, _⟩ => rfl
    | ⟨3, _⟩ => rfl
  rw [hsi]
  rfl

/-- The gather read at `(b, 0, p)`: the operand at row `b`, pixel `p` and the class the start index names. -/
theorem gather_at {w : Nat} (y : S8x8x262144.Idx → EReal) (idx : IVec S8x1x262144x1 w) (b : Fin 8) (p : Fin 262144) :
    Host.gather gather_S8x8x262144_S8x1x262144x1_S8x1x262144_n_1_02_02_1_3_111 y idx (ix3 b 0 p)
      = y (ix3 b ⟨min (idx (ix4 b 0 p 0)).toInt.toNat 7, by omega⟩ p) := by
  unfold Host.gather
  congr 1
  funext a
  refine Fin.ext ?_
  match a with
  | ⟨0, _⟩ => exact gather_axis0 idx b p
  | ⟨1, _⟩ => exact gather_axis1 idx b p
  | ⟨2, _⟩ => exact gather_axis2 idx b p

/-! ## The total sum, by coordinates -/

/-- An index of the `8 × 1 × 262144` array is its row and its pixel. -/
def idxEquiv : S8x1x262144.Idx ≃ Fin 8 × Fin 262144 where
  toFun i := (i 0, i 2)
  invFun q := ix3 q.1 0 q.2
  left_inv i := by
    funext a
    match a with
    | ⟨0, _⟩ => rfl
    | ⟨1, _⟩ => exact Fin.ext (by have h : (i 1).val < 1 := (i 1).isLt; show 0 = (i 1).val; omega)
    | ⟨2, _⟩ => rfl
  right_inv _ := rfl

/-- So a sum over that array is the double sum over rows and pixels. -/
theorem sum_idx (f : S8x1x262144.Idx → EReal) :
    ∑ j : S8x1x262144.Idx, f j = ∑ b : Fin 8, ∑ p : Fin 262144, f (ix3 b 0 p) := by
  rw [← Equiv.sum_comp idxEquiv.symm f, Fintype.sum_prod_type]
  rfl

/-! ## The log-softmax, stage by stage at `(b, c, p)` -/

section Stages

variable (x0 : (⟨S8x8x512x512, .f32⟩ : BufTy).Contents (Elt Ideal)) (x1 : (⟨S8x512x512, .i32⟩ : BufTy).Contents (Elt Ideal))

/-- The maximum-reduce is the largest logit of the pixel. -/
theorem max_reduce_at (b : Fin 8) (p : Fin 262144) :
    val_main_call2_v0 (F := Ideal) x0 (ix2 b p) = Cert.JSpec.mx (xOf x0) b p := by
  unfold val_main_call2_v0
  exact reduce_max_eq (val_main_v0 (F := Ideal) x0) b p

/-- Its maximum with minus infinity is the same. -/
theorem max_at (b : Fin 8) (p : Fin 262144) :
    val_main_call2_v2 (F := Ideal) x0 (ix2 b p) = Cert.JSpec.mx (xOf x0) b p := by
  rw [val_main_call2_v2_apply, val_main_call2_v1_apply, val_main_call2_cst_0_apply, max_reduce_at]
  show max (Ideal.ofBits .f32 0xFF800000#32) _ = _
  rw [ofBits_neg_inf]
  exact max_bot_left _

/-- Broadcast back over the classes. -/
theorem max_bcast_at (b c : Fin 8) (p : Fin 262144) :
    val_main_call2_v4 (F := Ideal) x0 (ix3 b c p) = Cert.JSpec.mx (xOf x0) b p := by
  rw [val_main_call2_v4_apply, val_main_call2_v3_apply]
  have e : idx_main_call2_v3 (idx_main_call2_v4 (ix3 b c p)) = ix2 b p := by
    funext a
    match a with
    | ⟨0, _⟩ => rfl
    | ⟨1, _⟩ => rfl
  rw [e]
  exact max_at x0 b p

/-- The shifted logit. -/
theorem shifted_at (b c : Fin 8) (p : Fin 262144) :
    val_main_call2_v5 (F := Ideal) x0 (ix3 b c p) = xOf x0 b c p - Cert.JSpec.mx (xOf x0) b p := by
  rw [val_main_call2_v5_apply, max_bcast_at]
  rfl

/-- The sum of the exponentials of the shifted logits over the classes. -/
theorem sumexp_at (b : Fin 8) (p : Fin 262144) :
    val_main_call2_v7 (F := Ideal) x0 (ix2 b p) = ∑ c : Fin 8, Ideal.exp (xOf x0 b c p - Cert.JSpec.mx (xOf x0) b p) := by
  rw [val_main_call2_v7_apply, val_main_call2_cst_1_apply]
  show Ideal.ofBits .f32 0x00000000#32 + _ = _
  rw [Ideal.ofBits_zero_f32, zero_add]
  refine Finset.sum_congr rfl fun c _ => ?_
  have e : idx_main_call2_v7 (ix2 b p) c = ix3 b c p := by
    funext a
    match a with
    | ⟨0, _⟩ => rfl
    | ⟨1, _⟩ => rfl
    | ⟨2, _⟩ => rfl
  rw [e, val_main_call2_v6_apply, shifted_at]
  rfl

/-- The log-softmax at `(b, c, p)`: the shifted logit less the logarithm of that sum. -/
theorem log_softmax_at (b c : Fin 8) (p : Fin 262144) :
    val_main_v33 (F := Ideal) x0 (ix3 b c p)
      = (xOf x0 b c p - Cert.JSpec.mx (xOf x0) b p) - Cert.JSpec.lse (xOf x0) b p := by
  rw [val_main_v33_apply, shifted_at, val_main_call2_v10_apply, val_main_call2_v9_apply, val_main_call2_v8_apply]
  have e : idx_main_call2_v8 (idx_main_call2_v10 (ix3 b c p)) = ix2 b p := by
    funext a
    match a with
    | ⟨0, _⟩ => rfl
    | ⟨1, _⟩ => rfl
  rw [e, sumexp_at]
  rfl

/-! ## The labels, the in-bounds mask and the picked term -/

/-- The labels broadcast to `8 × 1 × 262144`. -/
theorem label_at (j : S8x1x262144.Idx) : val_main_v34 (F := Ideal) x1 j = labOf x1 (j 0) (j 2) := by
  rw [val_main_v34_apply]
  show val_main_v1 (F := Ideal) x1 _ = val_main_v1 (F := Ideal) x1 _
  congr 1
  funext a
  match a with
  | ⟨0, _⟩ => rfl
  | ⟨1, _⟩ => rfl

variable (hrange : ∀ b p, (labOf x1 b p).toNat < 8)
include hrange

/-- A label in [0, 8) is not negative, so the fix-up of negative indices leaves it. -/
theorem fixed_label_at (j : S8x1x262144.Idx) : val_main_call3_v4 (F := Ideal) x1 j = labOf x1 (j 0) (j 2) := by
  rw [val_main_call3_v4_apply, val_main_call3_v1_apply, val_main_call3_v0_apply, val_main_call3_c_apply, label_at,
    slt_zero (labOf x1 (j 0) (j 2)) (hrange (j 0) (j 2))]
  exact select_zero _ _

/-- Every start index is in [0, 8). -/
theorem start_lt (i : S8x1x262144x1.Idx) : (val_main_call3_v5 (F := Ideal) x1 i).toNat < 8 := by
  rw [val_main_call3_v5_apply, fixed_label_at x1 hrange]
  exact hrange _ _

/-- The start index at `(b, 0, p, 0)` is the label of pixel `p` of row `b`. -/
theorem start_at (b : Fin 8) (p : Fin 262144) : val_main_call3_v5 (F := Ideal) x1 (ix4 b 0 p 0) = labOf x1 b p := by
  rw [val_main_call3_v5_apply, fixed_label_at x1 hrange]
  have hb := b.isLt
  have hp := p.isLt
  congr 1
  · exact Fin.ext (by show (((b.val * 1 + 0) * 262144 + p.val) * 1 + 0) / 262144 = b.val; omega)
  · exact Fin.ext (by show (((b.val * 1 + 0) * 262144 + p.val) * 1 + 0) % 262144 = p.val; omega)

/-- So the in-bounds test holds everywhere … -/
theorem inbounds_at (i : S8x1x262144x1.Idx) : val_main_call3_v11 (F := Ideal) x1 i = 1#1 := by
  rw [val_main_call3_v11_apply, val_main_call3_v7_apply, val_main_call3_v10_apply, val_main_call3_v6_apply,
    val_main_call3_c_2_apply, val_main_call3_v9_apply, val_main_call3_v8_apply, val_main_call3_c_1_apply,
    sge_zero _ (start_lt x1 hrange i), sle_seven _ (start_lt x1 hrange i)]
  rfl

/-- … and so does its reduce by `and` over the last axis. -/
theorem mask_at (j : S8x1x262144.Idx) : val_main_call3_v12 (F := Ideal) x1 j = 1#1 := by
  unfold val_main_call3_v12
  rw [Host.reduce_eq_foldl]
  exact foldl_andi_one _ _ fun i _ => inbounds_at x1 hrange i

/-- The gathered value at `(b, 0, p)`: the log-softmax of the labelled class. -/
theorem gathered_at (b : Fin 8) (p : Fin 262144) :
    val_main_call3_v13 (F := Ideal) x0 x1 (ix3 b 0 p)
      = val_main_v33 (F := Ideal) x0 (ix3 b (Cert.JSpec.cls (labOf x1 b p)) p) := by
  unfold val_main_call3_v13
  rw [gather_at]
  congr 2
  refine Fin.ext ?_
  show min (val_main_call3_v5 (F := Ideal) x1 (ix4 b 0 p 0)).toInt.toNat 7 = (labOf x1 b p).toNat % 8
  rw [start_at x1 hrange b p]
  exact clamp_eq _ (hrange b p)

/-- The picked term: the log-probability of the labelled class. -/
theorem picked_at (b : Fin 8) (p : Fin 262144) :
    val_main_v35 (F := Ideal) x0 x1 (ix3 b 0 p) = Cert.JSpec.picked (xOf x0) (labOf x1) b p := by
  rw [val_main_v35_apply, mask_at x1 hrange, select_one, gathered_at x0 x1 hrange, log_softmax_at]
  rfl

end Stages

/-- THE REFERENCE'S CROSS ENTROPY: minus the sum of the picked terms, over rows and pixels, divided by `2²¹`. -/
theorem ref_ce (x0 : (⟨S8x8x512x512, .f32⟩ : BufTy).Contents (Elt Ideal)) (x1 : (⟨S8x512x512, .i32⟩ : BufTy).Contents (Elt Ideal))
    (hrange : ∀ b p, (labOf x1 b p).toNat < 8) :
    val_main_v38 (F := Ideal) x0 x1 ValueIdx.ix0 = Cert.JSpec.ceRef (xOf x0) (labOf x1) := by
  rw [val_main_v38_apply, val_main_v37_apply, val_main_v36_apply, val_main_cst_4_apply, val_main_cst_5_apply, sum_idx]
  simp only [picked_at x0 x1 hrange]
  show -(Ideal.div (Ideal.ofBits .f32 0x00000000#32 + _) _) = _
  rw [Ideal.ofBits_zero_f32, zero_add]
  rfl

end Cert.RefCE

end
-- ==== Proof.PreDecode.lean ====
/-
  The precondition read back. The claim's precondition is a printed predicate: four conjunctions of "every element of a
  compared array is true". From the statement that it is true we recover the facts the value proofs use: every logit is a
  real number, every label word is below 8, and every class occurs among the 262144 labels of every batch row.
-/
import proofs.«408249_j70841190580811_3_alg».proof.Pre_finite_inputs
import Idealize.ShloMosaic.Lib.ReduceAll
import Idealize.ShloMosaic.Lib.ValueIdx
import Idealize.ShloMosaic.Lib.Pipeline.Value
import Idealize.ShloMosaic.Lib.IdealHost
import Idealize.ShloMosaic.PureOps.Ideal.Laws
import Idealize.ShloMosaic.Lib.StableHlo.Predicate
import Idealize.ShloMosaic.Lib.Affine

noncomputable section

namespace Cert.PreDecode

open Idealize.ShloMosaic Idealize.ShloMosaic.ValueIdx Cert.Pre_finite_inputs

/-- The scalar shape has one index. -/
instance : Subsingleton S_.Idx := ⟨fun a b => funext fun d => d.elim0⟩

/-! ## One element of each compared array -/

/-- The ordered "less than" of two extended reals is true exactly when the first is below the second. -/
theorem cmp_olt {a b : EReal} : Ideal.cmp .olt a b = 1#1 ↔ a < b := by
  show BitVec.ofBool (decide (a < b)) = 1#1 ↔ a < b
  by_cases h : a < b <;> simp [h]

/-- The ordered "greater than" likewise. -/
theorem cmp_ogt {a b : EReal} : Ideal.cmp .ogt a b = 1#1 ↔ b < a := by
  show BitVec.ofBool (decide (b < a)) = 1#1 ↔ b < a
  by_cases h : b < a <;> simp [h]

/-- The f32 pattern of plus infinity is the top of the extended reals. -/
theorem ofBits_inf_f32 : Ideal.ofBits .f32 0x7F800000#32 = ⊤ := by simp [Ideal.ofBits, Ideal.ieee]

/-- An extended real whose absolute value, max x (−x), is below the top is a real number. -/
theorem real_of_abs_lt_top {x : EReal} (h : Ideal.cmp .olt (max x (-x)) ⊤ = 1#1) : ∃ r : ℝ, x = (r : EReal) := by
  have h1 : max x (-x) < ⊤ := cmp_olt.1 h
  induction x using EReal.rec with
  | bot => simp at h1
  | coe r => exact ⟨r, rfl⟩
  | top => simp at h1

/-- A word that is at least 0 and below 8, both read signed, is below 8 read unsigned. -/
theorem toNat_lt_eight {t : BitVec 32} (h0 : IntOp.cmpi .sge t 0#32 = 1#1) (h8 : IntOp.cmpi .slt t 8#32 = 1#1) :
    t.toNat < 8 := by
  rw [IntOp.cmpi_sge] at h0
  rw [IntOp.cmpi_slt] at h8
  rw [show (0#32 : BitVec 32).toInt = 0 from by decide] at h0
  rw [show (8#32 : BitVec 32).toInt = 8 from by decide] at h8
  rw [BitVec.toInt_eq_toNat_cond] at h0 h8
  have := t.isLt
  split at h0 <;> omega

/-- A one-bit word widened to a float is zero unless the bit is set. -/
theorem uitofp_bit_eq_zero {c : BitVec 1} (h : c ≠ 1#1) : (FloatOps.uitofp (F := Ideal) .f32 c : EReal) = 0 := by
  have hc : c = 0#1 := by revert h; revert c; decide
  subst hc
  show (((0#1 : BitVec 1).toNat : ℝ) : EReal) = 0
  simp

/-! ## The class counts -/

/-- The sum over the pixel axis of an [8, 262144, 8] array, from zero, that is above zero at (b, k) has a term that is
not zero: a sum of zeros is zero. -/
theorem exists_ne_zero_of_count_pos [Facts] (v : FVec Ideal S8x262144x8 .f32) (b k : Fin 8)
    (h : cmpf .ogt (Host.reduceAdd v (constant S_ .f32 0x00000000#32) Facts.reducesTo_S8x262144x8_S8x8_d1 Facts.h_S_)
          (broadcastInDim S8x8 ![] Facts.bcast_S_S8x8 (constant S_ .f32 0x00000000#32)) (ix2 b k) = 1#1) :
    ∃ p : Fin 262144, v (ix3 b p k) ≠ 0 := by
  have hR : S8x262144x8.Reduces [1] S8x8 :=
    ⟨Facts.reducesTo_S8x262144x8_S8x8_d1.1, Nat.zero_lt_two, Facts.reducesTo_S8x262144x8_S8x8_d1.2⟩
  rw [cmpf_apply, hostReduceAdd_apply, broadcastInDim_scalar_apply, constant_apply, constant_apply, Ideal.cmpf_def,
    Ideal.hostReduceAdd_single _ hR, Ideal.ofBits_zero_f32, zero_add] at h
  have h2 := cmp_ogt.1 h
  by_contra hne
  have hz : ∀ p : Fin 262144, v (ix3 b p k) = 0 := fun p => not_not.1 fun hp => hne ⟨p, hp⟩
  refine absurd h2 (not_lt.2 (le_of_eq (Finset.sum_eq_zero fun p _ => ?_)))
  have e : hR.lift (ix2 b k) p = ix3 b (p : Fin 262144) k := by
    funext c
    match c with
    | ⟨0, _⟩ => exact Fin.ext rfl
    | ⟨1, _⟩ => exact Fin.ext rfl
    | ⟨2, _⟩ => exact Fin.ext rfl
  rw [e]
  exact hz p

/-! ## The two compared arrays of the count, read at (b, p, k) -/

/-- The labels, given a unit axis and broadcast along the class axis, read the label of pixel p of row b. -/
theorem lab_bcast_apply [Facts] (l : IVec S8x262144 32) (b : Fin 8) (p : Fin 262144) (k : Fin 8) :
    broadcastInDim S8x262144x8 ![0, 1, 2] Facts.bcast_S8x262144x1_S8x262144x8_0_1_2
      (broadcastInDim S8x262144x1 ![0, 1] Facts.bcast_S8x262144_S8x262144x1_0_1 l) (ix3 b p k) = l (ix2 b p) := by
  refine (broadcastInDim_apply _ _ _ (ix3 b p k) (ix3 b p (0 : Fin 1)) (fun a => ?_)).trans
    (broadcastInDim_apply _ _ _ (ix3 b p (0 : Fin 1)) (ix2 b p) (fun a => ?_))
  · match a with
    | ⟨0, _⟩ => rfl
    | ⟨1, _⟩ => rfl
    | ⟨2, _⟩ => rfl
  · match a with
    | ⟨0, _⟩ => rfl
    | ⟨1, _⟩ => rfl

/-- The class numbers 0 … 7, laid along the last axis and broadcast over rows and pixels, read the class k. -/
theorem cls_bcast_apply [Facts] (b : Fin 8) (p : Fin 262144) (k : Fin 8) :
    broadcastInDim S8x262144x8 ![0, 1, 2] Facts.bcast_S1x1x8_S8x262144x8_0_1_2
      (broadcastInDim S1x1x8 ![2] Facts.bcast_S8_S1x1x8_2 (iotaInDim S8 32 0)) (ix3 b p k) = BitVec.ofNat 32 k.val := by
  refine (broadcastInDim_apply _ _ _ (ix3 b p k) (ix3 (0 : Fin 1) (0 : Fin 1) k) (fun a => ?_)).trans
    ((broadcastInDim_apply _ _ _ (ix3 (0 : Fin 1) (0 : Fin 1) k) (ix1 k) (fun a => ?_)).trans rfl)
  · match a with
    | ⟨0, _⟩ => rfl
    | ⟨1, _⟩ => rfl
    | ⟨2, _⟩ => rfl
  · match a with
    | ⟨0, _⟩ => rfl

/-! ## The precondition, decoded -/

theorem decode [Cert.Pre_finite_inputs.Facts] (X : FVec Ideal S8x8x512x512 .f32) (T : IVec S8x512x512 32) (W : FVec Ideal S8x8 .f32)
    (h : Cert.Pre_finite_inputs.fn (F := Ideal) X T W = fun _ => 1#1) :
    (∀ i, ∃ r : ℝ, X i = (r : EReal))
    ∧ (∀ i, (T i).toNat < 8)
    ∧ (∀ b k : Fin 8, ∃ p : Fin 262144,
        shapeCast S8x262144 T Cert.Pre_finite_inputs.Facts.shapeCasts_S8x512x512_S8x262144 (ix2 b p) = BitVec.ofNat 32 k.val) := by
  have h0 := congrFun h ix0
  dsimp only [fn, fn_part1] at h0
  obtain ⟨h0, h28⟩ := IntOp.andi_eq_one.1 h0
  obtain ⟨h0, h23⟩ := IntOp.andi_eq_one.1 h0
  obtain ⟨h0, h19⟩ := IntOp.andi_eq_one.1 h0
  obtain ⟨h11, h15⟩ := IntOp.andi_eq_one.1 h0
  refine ⟨fun i => ?_, fun i => ?_, fun b k => ?_⟩
  · have e := Host.reduce_andi_all _ _ _ _ _ h11 i
    have e' : Ideal.cmp .olt (max (X i) (-(X i))) (Ideal.ofBits .f32 0x7F800000#32) = 1#1 := e
    rw [ofBits_inf_f32] at e'
    exact real_of_abs_lt_top e'
  · exact toNat_lt_eight (Host.reduce_andi_all _ _ _ _ _ h19 i) (Host.reduce_andi_all _ _ _ _ _ h23 i)
  · have e := Host.reduce_andi_all _ _ _ _ _ h28 (ix2 b k)
    obtain ⟨p, hp⟩ := exists_ne_zero_of_count_pos _ b k e
    refine ⟨p, ?_⟩
    by_contra hne
    refine hp (uitofp_bit_eq_zero fun hc => hne ?_)
    have hc' := StableHlo.Predicate.cmpi_eq_iff.1 hc
    exact (lab_bcast_apply _ b p k).symm.trans (hc'.trans (cls_bcast_apply b p k))

end Cert.PreDecode

end
-- ==== Proof.Algebra.lean ====
/-
  The two programs' mathematics agree: the class-mean matrix with the division inside the sum is the one with a
  single division after the sums, and the cross entropy assembled from two half-row partial sums (maxima plus
  log-sum-exps, less the trace of the half's logit-by-class matrix) is minus the mean of the picked log-probabilities.

  All logits are real, so every quantity is a finite sum of reals; each is first shown to be the coercion of a real,
  and the algebra is then done in the reals.
-/
import proofs.«408249_j70841190580811_3_alg».proof.Proof.Spec
import Mathlib.Data.EReal.Basic
import Mathlib.Data.EReal.Operations
import Mathlib.Data.EReal.Inv
import Mathlib.Algebra.BigOperators.Fin
import Mathlib.Data.Finset.Fold
import Mathlib.Analysis.SpecialFunctions.Log.Basic

noncomputable section

namespace Cert.JSpec

open Idealize.ShloMosaic

/-! ## General facts -/

/-- The coercion of the reals into the extended reals goes through a finite sum. -/
theorem coe_sum' {ι : Type*} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- A sum over a row's 262144 pixels is the sum over its first half plus the sum over its second half. -/
theorem sum_pix {M : Type*} [AddCommMonoid M] (f : Fin 262144 → M) :
    ∑ p : Fin 262144, f p = ∑ q : Fin 131072, f (pix 0 q) + ∑ q : Fin 131072, f (pix 1 q) := by
  have h := Fin.sum_univ_add (a := 131072) (b := 131072) (f := f)
  have h0 : ∀ q : Fin 131072, (Fin.castAdd 131072 q : Fin (131072 + 131072)) = pix 0 q := fun q => Fin.ext (by simp [pix])
  have h1 : ∀ q : Fin 131072, (Fin.natAdd 131072 q : Fin (131072 + 131072)) = pix 1 q := fun q => Fin.ext (by simp [pix]; omega)
  simp only [h0, h1] at h
  exact h

/-- The f32 word 0x4A000000 (exponent field 148, significand field 0) denotes 2²³ · 2⁻² = 2²¹. -/
theorem ofBits_two21 : Ideal.ofBits .f32 0x4A000000#32 = ((2097152 : ℝ) : EReal) := by
  simp [Ideal.ofBits, Ideal.ieee]
  rw [← EReal.coe_mul]
  congr 1
  norm_num

variable (x : Fin 8 → Fin 8 → Fin 262144 → EReal) (lab : Fin 8 → Fin 262144 → BitVec 32)

/-! ## The one-hot and the class counts as reals -/

/-- The one-hot as a real. -/
def hotR (b : Fin 8) (p : Fin 262144) (k : Fin 8) : ℝ := if lab b p = BitVec.ofNat 32 k.val then 1 else 0

theorem hot_eq (b : Fin 8) (p : Fin 262144) (k : Fin 8) : hot lab b p k = ((hotR lab b p k : ℝ) : EReal) := by
  unfold hot hotR; split_ifs <;> simp

theorem hotR_nonneg (b : Fin 8) (p : Fin 262144) (k : Fin 8) : 0 ≤ hotR lab b p k := by
  unfold hotR; split_ifs <;> norm_num

/-- The class count as a real. -/
def cntR (b k : Fin 8) : ℝ := ∑ p : Fin 262144, hotR lab b p k

theorem cnt_eq (b k : Fin 8) : cnt lab b k = ((cntR lab b k : ℝ) : EReal) := by
  unfold cnt cntR; rw [← coe_sum']; exact Finset.sum_congr rfl fun p _ => hot_eq lab b p k

/-- A class that occurs in the row has a positive count. -/
theorem cntR_pos (hpres : ∀ b k : Fin 8, ∃ p : Fin 262144, lab b p = BitVec.ofNat 32 k.val) (b k : Fin 8) :
    0 < cntR lab b k := by
  obtain ⟨p, hp⟩ := hpres b k
  have h1 : hotR lab b p k = 1 := by unfold hotR; rw [if_pos hp]
  have h2 := Finset.single_le_sum (f := fun p => hotR lab b p k) (fun i _ => hotR_nonneg lab b i k) (Finset.mem_univ p)
  have h3 : hotR lab b p k ≤ cntR lab b k := h2
  linarith

/-! ## The two halves put together -/

theorem aRaw_eq (b i k : Fin 8) : aRaw x lab b i k = ∑ p : Fin 262144, x b i p * hot lab b p k := by
  unfold aRaw aPart; rw [zero_add, ← sum_pix (fun p => x b i p * hot lab b p k)]

theorem nRaw_eq (b k : Fin 8) : nRaw lab b k = cnt lab b k := by
  unfold nRaw cPart cnt; rw [zero_add, ← sum_pix (fun p => hot lab b p k)]

/-! ## The class-mean matrix -/

/-- One division after the sums is the division inside the sum: both are the real
    (∑ₚ x b i p · hot b p k) · (1 / cnt b k), the count being a nonzero real. -/
theorem Aker_eq_Aref (x : Fin 8 → Fin 8 → Fin 262144 → EReal) (lab : Fin 8 → Fin 262144 → BitVec 32)
    (hfin : ∀ b c p, ∃ r : ℝ, x b c p = (r : EReal))
    (hpres : ∀ b k : Fin 8, ∃ p : Fin 262144, lab b p = BitVec.ofNat 32 k.val)
    (b i k : Fin 8) : Aker x lab b i k = Aref x lab b i k := by
  choose xr hxr using hfin
  have hn : cntR lab b k ≠ 0 := (cntR_pos lab hpres b k).ne'
  unfold Aker Aref
  rw [aRaw_eq, nRaw_eq, cnt_eq, Ideal.div_coe hn]
  have hL : (∑ p : Fin 262144, x b i p * hot lab b p k)
      = ((∑ p : Fin 262144, xr b i p * hotR lab b p k : ℝ) : EReal) := by
    rw [← coe_sum']; exact Finset.sum_congr rfl fun p _ => by rw [hxr, hot_eq, EReal.coe_mul]
  have hR : (∑ p : Fin 262144, x b i p * Ideal.div (hot lab b p k) ((cntR lab b k : ℝ) : EReal))
      = ((∑ p : Fin 262144, xr b i p * (hotR lab b p k * (1 / cntR lab b k)) : ℝ) : EReal) := by
    rw [← coe_sum']
    exact Finset.sum_congr rfl fun p _ => by rw [Ideal.div_coe hn, hxr, hot_eq, ← EReal.coe_mul, ← EReal.coe_mul]
  rw [hL, hR, ← EReal.coe_mul, Finset.sum_mul]
  exact congrArg _ (Finset.sum_congr rfl fun p _ => mul_assoc _ _ _)

/-! ## The row maximum and the log-sum-exp are reals -/

/-- The maximum of eight reals is a real: it is above the first of them and below the top. -/
theorem mx_real (xr : Fin 8 → Fin 8 → Fin 262144 → ℝ) (hxr : ∀ b c p, x b c p = ((xr b c p : ℝ) : EReal))
    (b : Fin 8) (p : Fin 262144) : ∃ m : ℝ, mx x b p = (m : EReal) := by
  have hbot : mx x b p ≠ ⊥ := by
    have h : x b 0 p ≤ mx x b p := by
      unfold mx; exact (Finset.le_fold_max _).mpr (Or.inr ⟨0, Finset.mem_univ _, le_rfl⟩)
    intro h'
    rw [h', hxr, le_bot_iff] at h
    exact EReal.coe_ne_bot _ h
  have htop : mx x b p ≠ ⊤ := by
    have h : mx x b p < ⊤ := by
      unfold mx
      exact (Finset.fold_max_lt _).mpr ⟨bot_lt_top, fun c _ => by rw [hxr]; exact EReal.coe_lt_top _⟩
    exact h.ne
  exact ⟨(mx x b p).toReal, (EReal.coe_toReal htop hbot).symm⟩

/-- The sum of the exponentials of eight reals is a positive real, so its logarithm is a real. -/
theorem lse_real (xr : Fin 8 → Fin 8 → Fin 262144 → ℝ) (hxr : ∀ b c p, x b c p = ((xr b c p : ℝ) : EReal))
    (mr : Fin 8 → Fin 262144 → ℝ) (hmr : ∀ b p, mx x b p = ((mr b p : ℝ) : EReal))
    (b : Fin 8) (p : Fin 262144) : ∃ l : ℝ, lse x b p = (l : EReal) := by
  have hs : (∑ c : Fin 8, Ideal.exp (x b c p - mx x b p))
      = ((∑ c : Fin 8, Real.exp (xr b c p - mr b p) : ℝ) : EReal) := by
    rw [← coe_sum']
    exact Finset.sum_congr rfl fun c _ => by rw [hxr, hmr, ← EReal.coe_sub, Ideal.exp_coe]
  have hpos : 0 < ∑ c : Fin 8, Real.exp (xr b c p - mr b p) :=
    Finset.sum_pos (fun c _ => Real.exp_pos _) Finset.univ_nonempty
  refine ⟨Real.log (∑ c : Fin 8, Real.exp (xr b c p - mr b p)), ?_⟩
  unfold lse; rw [hs, Ideal.log_coe, if_neg (not_le.mpr hpos)]

/-! ## A label word in range names exactly one class -/

theorem lab_eq_iff (hrange : ∀ b p, (lab b p).toNat < 8) (b : Fin 8) (p : Fin 262144) (k : Fin 8) :
    lab b p = BitVec.ofNat 32 k.val ↔ cls (lab b p) = k := by
  have hk := k.isLt
  constructor
  · intro h
    rw [h]
    apply Fin.ext
    simp only [cls, BitVec.toNat_ofNat]
    omega
  · intro h
    have h' : (lab b p).toNat % 8 = k.val := congrArg Fin.val h
    apply BitVec.eq_of_toNat_eq
    rw [BitVec.toNat_ofNat]
    have := hrange b p
    omega

theorem hot_eq_cls (hrange : ∀ b p, (lab b p).toNat < 8) (b : Fin 8) (p : Fin 262144) (k : Fin 8) :
    hot lab b p k = if cls (lab b p) = k then 1 else 0 := by
  unfold hot; exact if_congr (lab_eq_iff lab hrange b p k) rfl rfl

/-- The trace of a half's logit-by-class matrix is the sum of the labelled classes' logits over the half. -/
theorem trace_eq (hrange : ∀ b p, (lab b p).toNat < 8) (b : Fin 8) (nb : Fin 2) :
    ∑ i : Fin 8, ∑ k : Fin 8, (if i = k then aPart x lab b nb i k else 0)
      = ∑ q : Fin 131072, x b (cls (lab b (pix nb q))) (pix nb q) := by
  have h1 : ∀ i : Fin 8, ∑ k : Fin 8, (if i = k then aPart x lab b nb i k else 0) = aPart x lab b nb i i :=
    fun i => by rw [Finset.sum_ite_eq, if_pos (Finset.mem_univ _)]
  simp only [h1]
  unfold aPart
  rw [Finset.sum_comm]
  refine Finset.sum_congr rfl fun q _ => ?_
  simp only [hot_eq_cls lab hrange, mul_ite, mul_one, mul_zero]
  rw [Finset.sum_ite_eq, if_pos (Finset.mem_univ _)]

/-! ## The cross entropy -/

/-- A row's raw cross-entropy sum as one real sum over the row. -/
theorem ceRaw_eq (hrange : ∀ b p, (lab b p).toNat < 8)
    (xr : Fin 8 → Fin 8 → Fin 262144 → ℝ) (hxr : ∀ b c p, x b c p = ((xr b c p : ℝ) : EReal))
    (mr : Fin 8 → Fin 262144 → ℝ) (hmr : ∀ b p, mx x b p = ((mr b p : ℝ) : EReal))
    (lr : Fin 8 → Fin 262144 → ℝ) (hlr : ∀ b p, lse x b p = ((lr b p : ℝ) : EReal)) (b : Fin 8) :
    ceRaw x lab b = ((∑ p : Fin 262144, (mr b p + lr b p - xr b (cls (lab b p)) p) : ℝ) : EReal) := by
  have hpart : ∀ nb : Fin 2, cePart x lab b nb
      = ((∑ q : Fin 131072, (mr b (pix nb q) + lr b (pix nb q) - xr b (cls (lab b (pix nb q))) (pix nb q)) : ℝ) : EReal) :=
    fun nb => by
      have e1 : (∑ q : Fin 131072, (mx x b (pix nb q) + lse x b (pix nb q)))
          = ∑ q : Fin 131072, ((mr b (pix nb q) + lr b (pix nb q) : ℝ) : EReal) :=
        Finset.sum_congr rfl fun q _ => by rw [hmr, hlr, EReal.coe_add]
      have e2 : (∑ q : Fin 131072, x b (cls (lab b (pix nb q))) (pix nb q))
          = ∑ q : Fin 131072, ((xr b (cls (lab b (pix nb q))) (pix nb q) : ℝ) : EReal) :=
        Finset.sum_congr rfl fun q _ => hxr _ _ _
      unfold cePart
      rw [trace_eq x lab hrange b nb, e1, e2, coe_sum', coe_sum', ← EReal.coe_sub, ← Finset.sum_sub_distrib]
  unfold ceRaw
  rw [zero_add, hpart 0, hpart 1, ← EReal.coe_add,
    ← sum_pix (fun p => mr b p + lr b p - xr b (cls (lab b p)) p)]

/-- The kernel's cross entropy is the reference's: both are the real
    (∑ᵦ ∑ₚ (mx + lse − x_cls)) · (1 / 2²¹). -/
theorem ceKer_eq_ceRef (x : Fin 8 → Fin 8 → Fin 262144 → EReal) (lab : Fin 8 → Fin 262144 → BitVec 32)
    (hfin : ∀ b c p, ∃ r : ℝ, x b c p = (r : EReal))
    (hrange : ∀ b p, (lab b p).toNat < 8) : ceKer x lab = ceRef x lab := by
  choose xr hxr using hfin
  choose mr hmr using mx_real x xr hxr
  choose lr hlr using lse_real x xr hxr mr hmr
  have h2 : (2097152 : ℝ) ≠ 0 := by norm_num
  unfold ceKer ceRef
  rw [ofBits_two21, Ideal.div_coe h2, Ideal.div_coe h2]
  have hK : (∑ b : Fin 8, ceRaw x lab b)
      = ((∑ b : Fin 8, ∑ p : Fin 262144, (mr b p + lr b p - xr b (cls (lab b p)) p) : ℝ) : EReal) := by
    rw [← coe_sum']
    exact Finset.sum_congr rfl fun b _ => ceRaw_eq x lab hrange xr hxr mr hmr lr hlr b
  have hR : (∑ b : Fin 8, ∑ p : Fin 262144, picked x lab b p)
      = ((∑ b : Fin 8, ∑ p : Fin 262144, (xr b (cls (lab b p)) p - mr b p - lr b p) : ℝ) : EReal) := by
    rw [← coe_sum']; refine Finset.sum_congr rfl fun b _ => ?_
    rw [← coe_sum']; refine Finset.sum_congr rfl fun p _ => ?_
    unfold picked; rw [hxr, hmr, hlr, ← EReal.coe_sub, ← EReal.coe_sub]
  rw [hK, hR, ← EReal.coe_mul, ← EReal.coe_mul, ← EReal.coe_neg]
  refine congrArg _ ?_
  rw [← neg_mul, ← Finset.sum_neg_distrib]
  refine congrArg (· * _) (Finset.sum_congr rfl fun b _ => ?_)
  rw [← Finset.sum_neg_distrib]
  exact Finset.sum_congr rfl fun p _ => by ring

end Cert.JSpec

end
-- ==== Proof.Reshape.lean ====
/-
  Two facts about reshapes. A reshape reads its source at the index with the same row-major position, so (1) the label
  array [8, 512, 512] flattened to [8, 1, 262144] and flattened to [8, 262144] carry the same word at row b, pixel p — both
  read the source at position b · 262144 + p, the pixel (p / 512, p % 512) of row b — and (2) whatever holds of every
  element of an array holds of every element of any reshape of it.
-/
import Idealize.ShloMosaic.Lib.ValueIdx
import Idealize.ShloMosaic.Lib.Pipeline.Value

namespace Cert.Reshape

open Idealize.ShloMosaic Idealize.ShloMosaic.ValueIdx

/-- Pixel p of row b as an index of the [8, 512, 512] array: image row p / 512, image column p % 512. -/
def src (b : Fin 8) (p : Fin 262144) : (⟨3, ![8, 512, 512]⟩ : Shape).Idx :=
  ix3 b (⟨p.val / 512, by have := p.isLt; omega⟩ : Fin 512) (⟨p.val % 512, Nat.mod_lt _ (by decide)⟩ : Fin 512)

/-- The [8, 1, 262144] flattening at (b, 0, p) reads the source at pixel p of row b. -/
theorem flat3_apply {α : Type} (T : (⟨3, ![8, 512, 512]⟩ : Shape).Idx → α)
    (h1 : (⟨3, ![8, 512, 512]⟩ : Shape).ShapeCasts ⟨3, ![8, 1, 262144]⟩) (b : Fin 8) (p : Fin 262144) :
    shapeCast (⟨3, ![8, 1, 262144]⟩ : Shape) T h1 (ix3 b (0 : Fin 1) p) = T (src b p) := by
  have hp := p.isLt
  refine shapeCast_apply T h1 (ix3 b (0 : Fin 1) p) (src b p) ?_
  rw [Shape.rowMajor_val_three, Shape.rowMajor_val_three]
  show (b.val * 512 + p.val / 512) * 512 + p.val % 512 = (b.val * 1 + 0) * 262144 + p.val
  omega

/-- The [8, 262144] flattening at (b, p) reads the source at pixel p of row b. -/
theorem flat2_apply {α : Type} (T : (⟨3, ![8, 512, 512]⟩ : Shape).Idx → α)
    (h2 : (⟨3, ![8, 512, 512]⟩ : Shape).ShapeCasts ⟨2, ![8, 262144]⟩) (b : Fin 8) (p : Fin 262144) :
    shapeCast (⟨2, ![8, 262144]⟩ : Shape) T h2 (ix2 b p) = T (src b p) := by
  have hp := p.isLt
  refine shapeCast_apply T h2 (ix2 b p) (src b p) ?_
  rw [Shape.rowMajor_val_three, Shape.rowMajor_val_two]
  show (b.val * 512 + p.val / 512) * 512 + p.val % 512 = b.val * 262144 + p.val
  omega

/-- the two flattenings of the label array agree: row b, pixel p -/
theorem lab_reshape {α : Type} (T : (⟨3, ![8, 512, 512]⟩ : Shape).Idx → α)
    (h1 : (⟨3, ![8, 512, 512]⟩ : Shape).ShapeCasts ⟨3, ![8, 1, 262144]⟩) (h2 : (⟨3, ![8, 512, 512]⟩ : Shape).ShapeCasts ⟨2, ![8, 262144]⟩)
    (b : Fin 8) (p : Fin 262144) :
    shapeCast (⟨3, ![8, 1, 262144]⟩ : Shape) T h1 (ix3 b (0 : Fin 1) p) = shapeCast (⟨2, ![8, 262144]⟩ : Shape) T h2 (ix2 b p) :=
  (flat3_apply T h1 b p).trans (flat2_apply T h2 b p).symm

/-- a property of every element of an array holds of every element of any reshape of it -/
theorem shapeCast_forall {α : Type} {s t : Shape} (X : s.Idx → α) (h : s.ShapeCasts t) (P : α → Prop) (hP : ∀ i, P (X i)) (j : t.Idx) :
    P (shapeCast t X h j) :=
  hP (Shape.reshapeEquiv h j)

end Cert.Reshape
-- ==== Proof.Final.lean ====
/-
  The two programs' results are one function of the arguments, under the precondition.

  The reference's result is `jtail` of its class-mean matrix and the weights, plus its cross entropy; the kernel's is
  `jtail` of ITS class-mean matrix and the weights, plus its cross entropy. Both flatten the logits the same way, and
  the two flattenings of the labels ([8,262144] and [8,1,262144]) agree pixel by pixel. The precondition makes every
  logit a real number, every label a class in [0, 8), and every class present in every batch row; then the matrices
  agree entry by entry (a sum divided by a nonzero count is the sum of the quotients) and so do the cross entropies
  (the trace of the one-hot product picks the labelled logit).
-/
import proofs.«408249_j70841190580811_3_alg».proof.Defs
import proofs.«408249_j70841190580811_3_alg».proof.Proof.KTail
import proofs.«408249_j70841190580811_3_alg».proof.Proof.KBridge
import proofs.«408249_j70841190580811_3_alg».proof.Proof.KResult
import proofs.«408249_j70841190580811_3_alg».proof.Proof.RefMatrix
import proofs.«408249_j70841190580811_3_alg».proof.Proof.RefCE
import proofs.«408249_j70841190580811_3_alg».proof.Proof.PreDecode
import proofs.«408249_j70841190580811_3_alg».proof.Proof.Gen.Pre_finite_inputs
import proofs.«408249_j70841190580811_3_alg».proof.Proof.Algebra
import proofs.«408249_j70841190580811_3_alg».proof.Proof.Reshape

noncomputable section

namespace Cert.Final

open Idealize.ShloMosaic Idealize.ShloMosaic.TcCoe Idealize.SL.Sem Idealize.ShloMosaic.ValueIdx Idealize.ShloMosaic.StableHlo

/-- The reference's last stage is the shared tail of its class-mean matrix, plus its broadcast cross entropy. -/
theorem ref_split {F : FTy → Type} [FloatOps F]
    (x0 : (⟨Cert.ReferenceIdeal.S8x8x512x512, .f32⟩ : BufTy).Contents (Elt F)) (x1 : (⟨Cert.ReferenceIdeal.S8x512x512, .i32⟩ : BufTy).Contents (Elt F))
    (x2 : (⟨Cert.ReferenceIdeal.S8x8, .f32⟩ : BufTy).Contents (Elt F)) :
    Cert.ReferenceIdeal.ReadP.val_main_v40 (F := F) x0 x1 x2
      = addf (Cert.KernelIdeal.KV.jtail (F := F) (Cert.ReferenceIdeal.ReadP.val_main_v7 (F := F) x0 x1) x2) (Cert.ReferenceIdeal.ReadP.val_main_v39 (F := F) x0 x1) := rfl

/-- Two sums are equal when their summands are. -/
theorem addf_congr {s : Shape} {φ : FTy} {a a' b b' : FVec Ideal s φ} (h1 : a = a') (h2 : b = b') : addf a b = addf a' b' := by
  rw [h1, h2]

section Kernel

open Cert.KernelIdeal Cert.KernelIdeal.Gen Cert.KernelIdeal.KV

variable (m : (ℓ : Loc nD τ sig) → Buf (Elt Ideal) ℓ)

/-- The region finds the logits flattened to [8, 8, 262144] … -/
theorem V_v0 (c : Dev nD) :
    V m c main_v0 = shapeCast S8x8x262144 (m ((c : Thread nD τ).loc main_arg0)) shapeCasts_S8x8x512x512_S8x8x262144 := by
  show StableHlo.after hostOps0 (fun b => m (c, b)) (Proc.devRef .tc main_v0) = _
  after_results; rfl

/-- … and the labels flattened to [8, 1, 262144]. -/
theorem V_v1 (c : Dev nD) :
    V m c main_v1 = shapeCast S8x1x262144 (m ((c : Thread nD τ).loc main_arg1)) shapeCasts_S8x512x512_S8x1x262144 := by
  show StableHlo.after hostOps0 (fun b => m (c, b)) (Proc.devRef .tc main_v1) = _
  after_results; rfl

/-- THE RESULTS AGREE: under the precondition the reference's last stage of the arguments is the kernel's result. -/
theorem result_eq (c : Dev nD)
    (hp : Cert.Pre_finite_inputs.fn (F := Ideal) (m ((c.tc : Thread nD τ).loc main_arg0)) (m ((c.tc : Thread nD τ).loc main_arg1)) (m ((c.tc : Thread nD τ).loc main_arg2)) = fun _ => 1#1) :
    Cert.ReferenceIdeal.ReadP.val_main_v40 (F := Ideal) (m ((c.tc : Thread nD τ).loc main_arg0)) (m ((c.tc : Thread nD τ).loc main_arg1)) (m ((c.tc : Thread nD τ).loc main_arg2))
      = kres (G2 m c) (G3 m c) (G4 m c) (m ((c.tc : Thread nD τ).loc main_arg2)) := by
  obtain ⟨hX, hT, hP⟩ := Cert.PreDecode.decode _ _ _ hp
  have hx : xK m c = Cert.RefRead.xOf (m ((c.tc : Thread nD τ).loc main_arg0)) := by
    funext b i p
    show V m c main_v0 (ix3 b i p) = _
    rw [V_v0]; rfl
  have hl : labK m c = Cert.RefRead.labOf (m ((c.tc : Thread nD τ).loc main_arg1)) := by
    funext b p
    show V m c main_v1 (ix3 b (0 : Fin 1) p) = _
    rw [V_v1]
    exact Cert.Reshape.lab_reshape _ _ _ b p
  have hfin : ∀ b i p, ∃ r : ℝ, Cert.RefRead.xOf (m ((c.tc : Thread nD τ).loc main_arg0)) b i p = (r : EReal) :=
    fun b i p => Cert.Reshape.shapeCast_forall (m ((c.tc : Thread nD τ).loc main_arg0)) _ (fun v => ∃ r : ℝ, v = (r : EReal)) hX _
  have hrange : ∀ b p, (Cert.RefRead.labOf (m ((c.tc : Thread nD τ).loc main_arg1)) b p).toNat < 8 :=
    fun b p => Cert.Reshape.shapeCast_forall (m ((c.tc : Thread nD τ).loc main_arg1)) _ (fun v => v.toNat < 8) hT _
  have hpres : ∀ b k : Fin 8, ∃ p : Fin 262144, Cert.RefRead.labOf (m ((c.tc : Thread nD τ).loc main_arg1)) b p = BitVec.ofNat 32 k.val := by
    intro b k
    obtain ⟨p, hp⟩ := hP b k
    refine ⟨p, ?_⟩
    rw [Cert.Reshape.flat2_apply] at hp
    unfold Cert.RefRead.labOf Cert.ReferenceIdeal.ReadP.val_main_v1
    rw [Cert.Reshape.flat2_apply]
    exact hp
  rw [ref_split, kres_read]
  refine addf_congr ?_ ?_
  · refine congrArg (fun A => jtail (F := Ideal) A (m ((c.tc : Thread nD τ).loc main_arg2))) (funext fun idx => ?_)
    obtain ⟨b, i, k, rfl⟩ : ∃ (b i k : Fin 8), idx = ix3 b i k := ⟨idx 0, idx 1, idx 2, eq_ix3 idx⟩
    rw [Cert.RefRead.ref_A]
    show _ = Ideal.div (G2 m c (ix3 b i k)) (G3 m c (ix3 b (0 : Fin 1) k))
    rw [G2_apply, G3_apply, hx, hl]
    exact (Cert.JSpec.Aker_eq_Aref _ _ hfin hpres b i k).symm
  · funext j
    rw [Cert.ReferenceIdeal.ReadP.val_main_v39_apply]
    have hj : Cert.ReferenceIdeal.ReadP.idx_main_v39 j = ix0 := funext fun a => a.elim0
    rw [hj]
    have hce := Cert.RefCE.ref_ce (m ((c.tc : Thread nD τ).loc main_arg0)) (m ((c.tc : Thread nD τ).loc main_arg1)) hrange
    rw [hce]
    simp only [G4_apply]
    rw [hx, hl]
    exact (Cert.JSpec.ceKer_eq_ceRef _ _ hfin hrange).symm

end Kernel

end Cert.Final

end
-- ==== Proof.RefRunH.lean ====
/-
  The reference's run, read back stretch by stretch.

  @main is a list of 108 host operations. Cut into five stretches — the class-mean matrix; its diagonal and the J term;
  the log-softmax; the labelled class's log-probability; the mean and the final sum — each stretch's result is read over
  ANY contents of the buffers it starts from, and the stretches chain: every weakly fair execution ends with the result
  buffer at the last stage `val_main_v40` of the three arguments, the arguments unchanged.
-/
import proofs.«408249_j70841190580811_3_alg».proof.Proof.RefRun
import proofs.«408249_j70841190580811_3_alg».proof.Proof.RefReadP
import Idealize.ShloMosaic.Lib.StableHlo.Run
import Idealize.ShloMosaic.Lib.Pipeline.Frame

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The first stretch: the two flattenings, the one-hot of the labels, the class counts, the one-hot divided by them, and the product with the logits: the class-mean matrix `main_v7`. -/
abbrev c1 : List (HloOp τ sig (Elt F)) :=
  [reshape main_arg0 main_v0 rfl shapeCasts_S8x8x512x512_S8x8x262144,
    reshape main_arg1 main_v1 rfl shapeCasts_S8x512x512_S8x262144,
    TRef.unary (TRef.of (T := ⟨S8x262144, .i32⟩) main_v1) (TRef.of (T := ⟨S8x262144x1, .i32⟩) main_call0_v0) (broadcastInDim S8x262144x1 ![0, 1] bcast_S8x262144_S8x262144x1_0_1),
    TRef.nullary (TRef.of (T := ⟨S1x1x8, .i32⟩) main_call0_v1) (iotaInDim S1x1x8 32 2),
    TRef.unary (TRef.of (T := ⟨S8x262144x1, .i32⟩) main_call0_v0) (TRef.of (T := ⟨S8x262144x8, .i32⟩) main_call0_v2) (broadcastInDim S8x262144x8 ![0, 1, 2] bcast_S8x262144x1_S8x262144x8_0_1_2),
    TRef.unary (TRef.of (T := ⟨S1x1x8, .i32⟩) main_call0_v1) (TRef.of (T := ⟨S8x262144x8, .i32⟩) main_call0_v3) (broadcastInDim S8x262144x8 ![0, 1, 2] bcast_S1x1x8_S8x262144x8_0_1_2),
    TRef.binary (TRef.of (T := ⟨S8x262144x8, .i32⟩) main_call0_v2) (TRef.of (T := ⟨S8x262144x8, .i32⟩) main_call0_v3) (TRef.of (T := ⟨S8x262144x8, .i1⟩) main_call0_v4) (cmpi .eq),
    TRef.unary (TRef.of (T := ⟨S8x262144x8, .i1⟩) main_call0_v4) (TRef.of (T := ⟨S8x262144x8, .f32⟩) main_v2) (uitofp .f32),
    nullary main_cst (constant S_ .f32 0x00000000#32),
    binary main_v2 main_cst main_v3 ((fun x v => Host.reduceAdd x v reducesTo_S8x262144x8_S8x8_d1 h_S_) : (⟨S8x262144x8, .f32⟩ : BufTy).Contents (Elt F) → (⟨S_, .f32⟩ : BufTy).Contents (Elt F) → (⟨S8x8, .f32⟩ : BufTy).Contents (Elt F)),
    unary main_v3 main_v4 (broadcastInDim S8x1x8 ![0, 2] bcast_S8x8_S8x1x8_0_2 : (⟨S8x8, .f32⟩ : BufTy).Contents (Elt F) → (⟨S8x1x8, .f32⟩ : BufTy).Contents (Elt F)),
    unary main_v4 main_v5 (broadcastInDim S8x262144x8 ![0, 1, 2] bcast_S8x1x8_S8x262144x8_0_1_2 : (⟨S8x1x8, .f32⟩ : BufTy).Contents (Elt F) → (⟨S8x262144x8, .f32⟩ : BufTy).Contents (Elt F)),
    binary main_v2 main_v5 main_v6 (Host.divf : (⟨S8x262144x8, .f32⟩ : BufTy).Contents (Elt F) → (⟨S8x262144x8, .f32⟩ : BufTy).Contents (Elt F) → (⟨S8x262144x8, .f32⟩ : BufTy).Contents (Elt F)),
    binary main_v0 main_v6 main_v7 ((fun l r => Host.dotGeneral dot_S8x8x262144_S8x262144x8_S8x8x8_2_1_1_2_0_0 none l r) : (⟨S8x8x262144, .f32⟩ : BufTy).Contents (Elt F) → (⟨S8x262144x8, .f32⟩ : BufTy).Contents (Elt F) → (⟨S8x8x8, .f32⟩ : BufTy).Contents (Elt F)) ]

/-- The second stretch: the diagonal of the matrix and the J term `main_v32`. -/
abbrev c2 : List (HloOp τ sig (Elt F)) :=
  [TRef.nullary (TRef.of (T := ⟨S8, .i32⟩) main_call1_v0) (iotaInDim S8 32 0),
    TRef.nullary (TRef.of (T := ⟨S8, .i32⟩) main_call1_v1) (iotaInDim S8 32 0),
    TRef.nullary (TRef.of (T := ⟨S_, .i32⟩) main_call1_c) (constantI S_ 32 0#32),
    TRef.unary (TRef.of (T := ⟨S_, .i32⟩) main_call1_c) (TRef.of (T := ⟨S8, .i32⟩) main_call1_v2) (broadcastInDim S8 ![] bcast_S_S8),
    TRef.binary (TRef.of (T := ⟨S8, .i32⟩) main_call1_v0) (TRef.of (T := ⟨S8, .i32⟩) main_call1_v2) (TRef.of (T := ⟨S8, .i1⟩) main_call1_v3) (cmpi .slt),
    TRef.nullary (TRef.of (T := ⟨S_, .i32⟩) main_call1_c_0) (constantI S_ 32 8#32),
    TRef.unary (TRef.of (T := ⟨S_, .i32⟩) main_call1_c_0) (TRef.of (T := ⟨S8, .i32⟩) main_call1_v4) (broadcastInDim S8 ![] bcast_S_S8),
    TRef.binary (TRef.of (T := ⟨S8, .i32⟩) main_call1_v0) (TRef.of (T := ⟨S8, .i32⟩) main_call1_v4) (TRef.of (T := ⟨S8, .i32⟩) main_call1_v5) addi,
    TRef.ternary (TRef.of (T := ⟨S8, .i1⟩) main_call1_v3) (TRef.of (T := ⟨S8, .i32⟩) main_call1_v5) (TRef.of (T := ⟨S8, .i32⟩) main_call1_v0) (TRef.of (T := ⟨S8, .i32⟩) main_call1_v6) select,
    TRef.nullary (TRef.of (T := ⟨S_, .i32⟩) main_call1_c_1) (constantI S_ 32 0#32),
    TRef.unary (TRef.of (T := ⟨S_, .i32⟩) main_call1_c_1) (TRef.of (T := ⟨S8, .i32⟩) main_call1_v7) (broadcastInDim S8 ![] bcast_S_S8),
    TRef.binary (TRef.of (T := ⟨S8, .i32⟩) main_call1_v1) (TRef.of (T := ⟨S8, .i32⟩) main_call1_v7) (TRef.of (T := ⟨S8, .i1⟩) main_call1_v8) (cmpi .slt),
    TRef.nullary (TRef.of (T := ⟨S_, .i32⟩) main_call1_c_2) (constantI S_ 32 8#32),
    TRef.unary (TRef.of (T := ⟨S_, .i32⟩) main_call1_c_2) (TRef.of (T := ⟨S8, .i32⟩) main_call1_v9) (broadcastInDim S8 ![] bcast_S_S8),
    TRef.binary (TRef.of (T := ⟨S8, .i32⟩) main_call1_v1) (TRef.of (T := ⟨S8, .i32⟩) main_call1_v9) (TRef.of (T := ⟨S8, .i32⟩) main_call1_v10) addi,
    TRef.ternary (TRef.of (T := ⟨S8, .i1⟩) main_call1_v8) (TRef.of (T := ⟨S8, .i32⟩) main_call1_v10) (TRef.of (T := ⟨S8, .i32⟩) main_call1_v1) (TRef.of (T := ⟨S8, .i32⟩) main_call1_v11) select,
    TRef.unary (TRef.of (T := ⟨S8, .i32⟩) main_call1_v6) (TRef.of (T := ⟨S8x1, .i32⟩) main_call1_v12) (broadcastInDim S8x1 ![0] bcast_S8_S8x1_0),
    TRef.unary (TRef.of (T := ⟨S8, .i32⟩) main_call1_v11) (TRef.of (T := ⟨S8x1, .i32⟩) main_call1_v13) (broadcastInDim S8x1 ![0] bcast_S8_S8x1_0),
    TRef.binary (TRef.of (T := ⟨S8x1, .i32⟩) main_call1_v12) (TRef.of (T := ⟨S8x1, .i32⟩) main_call1_v13) (TRef.of (T := ⟨S8x2, .i32⟩) main_call1_v14) (fun a b => concatenate S8x2 1 [⟨S8x1, a⟩, ⟨S8x1, b⟩] concatenates_S8x1_S8x1_S8x2_d1),
    TRef.binary (TRef.of (T := ⟨S8x8x8, .f32⟩) main_v7) (TRef.of (T := ⟨S8x2, .i32⟩) main_call1_v14) (TRef.of (T := ⟨S8x8, .f32⟩) main_v8) (fun x i => Host.gather gather_S8x8x8_S8x2_S8x8_0_12_n_n_12_1_811 x i),
    unary main_v8 main_v9 (broadcastInDim S8x8x1 ![0, 1] bcast_S8x8_S8x8x1_0_1 : (⟨S8x8, .f32⟩ : BufTy).Contents (Elt F) → (⟨S8x8x1, .f32⟩ : BufTy).Contents (Elt F)),
    unary main_v9 main_v10 (broadcastInDim S8x8x8 ![0, 1, 2] bcast_S8x8x1_S8x8x8_0_1_2 : (⟨S8x8x1, .f32⟩ : BufTy).Contents (Elt F) → (⟨S8x8x8, .f32⟩ : BufTy).Contents (Elt F)),
    binary main_v10 main_v7 main_v11 (subf : (⟨S8x8x8, .f32⟩ : BufTy).Contents (Elt F) → (⟨S8x8x8, .f32⟩ : BufTy).Contents (Elt F) → (⟨S8x8x8, .f32⟩ : BufTy).Contents (Elt F)),
    nullary main_cst_0 (constant S_ .f32 0x3F000000#32),
    unary main_cst_0 main_v12 (broadcastInDim S8x8x8 ![] bcast_S_S8x8x8 : (⟨S_, .f32⟩ : BufTy).Contents (Elt F) → (⟨S8x8x8, .f32⟩ : BufTy).Contents (Elt F)),
    binary main_v11 main_v12 main_v13 (mulf : (⟨S8x8x8, .f32⟩ : BufTy).Contents (Elt F) → (⟨S8x8x8, .f32⟩ : BufTy).Contents (Elt F) → (⟨S8x8x8, .f32⟩ : BufTy).Contents (Elt F)),
    nullary main_v14 (iotaInDim S8x8 32 0),
    nullary main_v15 (iotaInDim S8x8 32 1),
    nullary main_c (constantI S_ 32 0#32),
    unary main_c main_v16 (broadcastInDim S8x8 ![] bcast_S_S8x8 : (⟨S_, .i32⟩ : BufTy).Contents (Elt F) → (⟨S8x8, .i32⟩ : BufTy).Contents (Elt F)),
    binary main_v14 main_v16 main_v17 (addi : (⟨S8x8, .i32⟩ : BufTy).Contents (Elt F) → (⟨S8x8, .i32⟩ : BufTy).Contents (Elt F) → (⟨S8x8, .i32⟩ : BufTy).Contents (Elt F)),
    binary main_v17 main_v15 main_v18 (cmpi .eq : (⟨S8x8, .i32⟩ : BufTy).Contents (Elt F) → (⟨S8x8, .i32⟩ : BufTy).Contents (Elt F) → (⟨S8x8, .i1⟩ : BufTy).Contents (Elt F)),
    unary main_v18 main_v19 (uitofp .f32 : (⟨S8x8, .i1⟩ : BufTy).Contents (Elt F) → (⟨S8x8, .f32⟩ : BufTy).Contents (Elt F)),
    nullary main_cst_1 (constant S_ .f32 0x3F800000#32),
    unary main_cst_1 main_v20 (broadcastInDim S8x8 ![] bcast_S_S8x8 : (⟨S_, .f32⟩ : BufTy).Contents (Elt F) → (⟨S8x8, .f32⟩ : BufTy).Contents (Elt F)),
    binary main_v20 main_v19 main_v21 (subf : (⟨S8x8, .f32⟩ : BufTy).Contents (Elt F) → (⟨S8x8, .f32⟩ : BufTy).Contents (Elt F) → (⟨S8x8, .f32⟩ : BufTy).Contents (Elt F)),
    unary main_arg2 main_v22 (broadcastInDim S1x8x8 ![1, 2] bcast_S8x8_S1x8x8_1_2 : (⟨S8x8, .f32⟩ : BufTy).Contents (Elt F) → (⟨S1x8x8, .f32⟩ : BufTy).Contents (Elt F)),
    nullary main_cst_2 (constant S_ .f32 0x3F000000#32),
    unary main_cst_2 main_v23 (broadcastInDim S8x8x8 ![] bcast_S_S8x8x8 : (⟨S_, .f32⟩ : BufTy).Contents (Elt F) → (⟨S8x8x8, .f32⟩ : BufTy).Contents (Elt F)),
    binary main_v23 main_v13 main_v24 (addf : (⟨S8x8x8, .f32⟩ : BufTy).Contents (Elt F) → (⟨S8x8x8, .f32⟩ : BufTy).Contents (Elt F) → (⟨S8x8x8, .f32⟩ : BufTy).Contents (Elt F)),
    unary main_v24 main_v25 (Host.log : (⟨S8x8x8, .f32⟩ : BufTy).Contents (Elt F) → (⟨S8x8x8, .f32⟩ : BufTy).Contents (Elt F)),
    unary main_v22 main_v26 (broadcastInDim S8x8x8 ![0, 1, 2] bcast_S1x8x8_S8x8x8_0_1_2 : (⟨S1x8x8, .f32⟩ : BufTy).Contents (Elt F) → (⟨S8x8x8, .f32⟩ : BufTy).Contents (Elt F)),
    binary main_v26 main_v25 main_v27 (mulf : (⟨S8x8x8, .f32⟩ : BufTy).Contents (Elt F) → (⟨S8x8x8, .f32⟩ : BufTy).Contents (Elt F) → (⟨S8x8x8, .f32⟩ : BufTy).Contents (Elt F)),
    unary main_v21 main_v28 (broadcastInDim S1x8x8 ![1, 2] bcast_S8x8_S1x8x8_1_2 : (⟨S8x8, .f32⟩ : BufTy).Contents (Elt F) → (⟨S1x8x8, .f32⟩ : BufTy).Contents (Elt F)),
    unary main_v28 main_v29 (broadcastInDim S8x8x8 ![0, 1, 2] bcast_S1x8x8_S8x8x8_0_1_2 : (⟨S1x8x8, .f32⟩ : BufTy).Contents (Elt F) → (⟨S8x8x8, .f32⟩ : BufTy).Contents (Elt F)),
    binary main_v27 main_v29 main_v30 (mulf : (⟨S8x8x8, .f32⟩ : BufTy).Contents (Elt F) → (⟨S8x8x8, .f32⟩ : BufTy).Contents (Elt F) → (⟨S8x8x8, .f32⟩ : BufTy).Contents (Elt F)),
    nullary main_cst_3 (constant S_ .f32 0x00000000#32),
    binary main_v30 main_cst_3 main_v31 ((fun x v => Host.reduceAdd x v reducesTo_S8x8x8_S8_d1_2 h_S_) : (⟨S8x8x8, .f32⟩ : BufTy).Contents (Elt F) → (⟨S_, .f32⟩ : BufTy).Contents (Elt F) → (⟨S8, .f32⟩ : BufTy).Contents (Elt F)),
    unary main_v31 main_v32 (Host.negf : (⟨S8, .f32⟩ : BufTy).Contents (Elt F) → (⟨S8, .f32⟩ : BufTy).Contents (Elt F)) ]

/-- The third stretch: the log-softmax of the flattened logits, `main_v33`. -/
abbrev c3 : List (HloOp τ sig (Elt F)) :=
  [TRef.nullary (TRef.of (T := ⟨S_, .f32⟩) main_call2_cst) (constant S_ .f32 0xFF800000#32),
    TRef.binary (TRef.of (T := ⟨S8x8x262144, .f32⟩) main_v0) (TRef.of (T := ⟨S_, .f32⟩) main_call2_cst) (TRef.of (T := ⟨S8x262144, .f32⟩) main_call2_v0) (fun x v => Host.reduce FloatOps.maximumf x v reducesTo_S8x8x262144_S8x262144_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8x262144, .f32⟩) main_call2_v1) (broadcastInDim S8x262144 ![] bcast_S_S8x262144),
    TRef.binary (TRef.of (T := ⟨S8x262144, .f32⟩) main_call2_v1) (TRef.of (T := ⟨S8x262144, .f32⟩) main_call2_v0) (TRef.of (T := ⟨S8x262144, .f32⟩) main_call2_v2) maximumf,
    TRef.unary (TRef.of (T := ⟨S8x262144, .f32⟩) main_call2_v2) (TRef.of (T := ⟨S8x1x262144, .f32⟩) main_call2_v3) (broadcastInDim S8x1x262144 ![0, 2] bcast_S8x262144_S8x1x262144_0_2),
    TRef.unary (TRef.of (T := ⟨S8x1x262144, .f32⟩) main_call2_v3) (TRef.of (T := ⟨S8x8x262144, .f32⟩) main_call2_v4) (broadcastInDim S8x8x262144 ![0, 1, 2] bcast_S8x1x262144_S8x8x262144_0_1_2),
    TRef.binary (TRef.of (T := ⟨S8x8x262144, .f32⟩) main_v0) (TRef.of (T := ⟨S8x8x262144, .f32⟩) main_call2_v4) (TRef.of (T := ⟨S8x8x262144, .f32⟩) main_call2_v5) subf,
    TRef.unary (TRef.of (T := ⟨S8x8x262144, .f32⟩) main_call2_v5) (TRef.of (T := ⟨S8x8x262144, .f32⟩) main_call2_v6) Host.exp,
    TRef.nullary (TRef.of (T := ⟨S_, .f32⟩) main_call2_cst_1) (constant S_ .f32 0x00000000#32),
    TRef.binary (TRef.of (T := ⟨S8x8x262144, .f32⟩) main_call2_v6) (TRef.of (T := ⟨S_, .f32⟩) main_call2_cst_1) (TRef.of (T := ⟨S8x262144, .f32⟩) main_call2_v7) (fun x v => Host.reduceAdd x v reducesTo_S8x8x262144_S8x262144_d1 h_S_),
    TRef.unary (TRef.of (T := ⟨S8x262144, .f32⟩) main_call2_v7) (TRef.of (T := ⟨S8x1x262144, .f32⟩) main_call2_v8) (broadcastInDim S8x1x262144 ![0, 2] bcast_S8x262144_S8x1x262144_0_2),
    TRef.unary (TRef.of (T := ⟨S8x1x262144, .f32⟩) main_call2_v8) (TRef.of (T := ⟨S8x1x262144, .f32⟩) main_call2_v9) Host.log,
    TRef.unary (TRef.of (T := ⟨S8x1x262144, .f32⟩) main_call2_v9) (TRef.of (T := ⟨S8x8x262144, .f32⟩) main_call2_v10) (broadcastInDim S8x8x262144 ![0, 1, 2] bcast_S8x1x262144_S8x8x262144_0_1_2),
    TRef.binary (TRef.of (T := ⟨S8x8x262144, .f32⟩) main_call2_v5) (TRef.of (T := ⟨S8x8x262144, .f32⟩) main_call2_v10) (TRef.of (T := ⟨S8x8x262144, .f32⟩) main_v33) subf ]

/-- The fourth stretch: the labelled class's log-probability at every pixel, `main_v35`. -/
abbrev c4 : List (HloOp τ sig (Elt F)) :=
  [unary main_v1 main_v34 (broadcastInDim S8x1x262144 ![0, 2] bcast_S8x262144_S8x1x262144_0_2 : (⟨S8x262144, .i32⟩ : BufTy).Contents (Elt F) → (⟨S8x1x262144, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S8x1x262144, .i32⟩) main_call3_v0) (broadcastInDim S8x1x262144 ![] bcast_S_S8x1x262144),
    TRef.binary (TRef.of (T := ⟨S8x1x262144, .i32⟩) main_v34) (TRef.of (T := ⟨S8x1x262144, .i32⟩) main_call3_v0) (TRef.of (T := ⟨S8x1x262144, .i1⟩) main_call3_v1) (cmpi .slt),
    TRef.nullary (TRef.of (T := ⟨S_, .i32⟩) main_call3_c_0) (constantI S_ 32 8#32),
    TRef.unary (TRef.of (T := ⟨S_, .i32⟩) main_call3_c_0) (TRef.of (T := ⟨S8x1x262144, .i32⟩) main_call3_v2) (broadcastInDim S8x1x262144 ![] bcast_S_S8x1x262144),
    TRef.binary (TRef.of (T := ⟨S8x1x262144, .i32⟩) main_v34) (TRef.of (T := ⟨S8x1x262144, .i32⟩) main_call3_v2) (TRef.of (T := ⟨S8x1x262144, .i32⟩) main_call3_v3) addi,
    TRef.ternary (TRef.of (T := ⟨S8x1x262144, .i1⟩) main_call3_v1) (TRef.of (T := ⟨S8x1x262144, .i32⟩) main_call3_v3) (TRef.of (T := ⟨S8x1x262144, .i32⟩) main_v34) (TRef.of (T := ⟨S8x1x262144, .i32⟩) main_call3_v4) select,
    TRef.reshape (TRef.of (T := ⟨S8x1x262144, .i32⟩) main_call3_v4) (TRef.of (T := ⟨S8x1x262144x1, .i32⟩) main_call3_v5) rfl shapeCasts_S8x1x262144_S8x1x262144x1,
    TRef.nullary (TRef.of (T := ⟨S1, .i32⟩) main_call3_c_1) (constantI S1 32 7#32),
    TRef.nullary (TRef.of (T := ⟨S_, .i32⟩) main_call3_c_2) (constantI S_ 32 0#32),
    TRef.unary (TRef.of (T := ⟨S_, .i32⟩) main_call3_c_2) (TRef.of (T := ⟨S8x1x262144x1, .i32⟩) main_call3_v6) (broadcastInDim S8x1x262144x1 ![] bcast_S_S8x1x262144x1),
    TRef.binary (TRef.of (T := ⟨S8x1x262144x1, .i32⟩) main_call3_v5) (TRef.of (T := ⟨S8x1x262144x1, .i32⟩) main_call3_v6) (TRef.of (T := ⟨S8x1x262144x1, .i1⟩) main_call3_v7) (cmpi .sge),
    TRef.unary (TRef.of (T := ⟨S1, .i32⟩) main_call3_c_1) (TRef.of (T := ⟨S1x1x1x1, .i32⟩) main_call3_v8) (broadcastInDim S1x1x1x1 ![3] bcast_S1_S1x1x1x1_3),
    TRef.unary (TRef.of (T := ⟨S1x1x1x1, .i32⟩) main_call3_v8) (TRef.of (T := ⟨S8x1x262144x1, .i32⟩) main_call3_v9) (broadcastInDim S8x1x262144x1 ![0, 1, 2, 3] bcast_S1x1x1x1_S8x1x262144x1_0_1_2_3),
    TRef.binary (TRef.of (T := ⟨S8x1x262144x1, .i32⟩) main_call3_v5) (TRef.of (T := ⟨S8x1x262144x1, .i32⟩) main_call3_v9) (TRef.of (T := ⟨S8x1x262144x1, .i1⟩) main_call3_v10) (cmpi .sle),
    TRef.binary (TRef.of (T := ⟨S8x1x262144x1, .i1⟩) main_call3_v7) (TRef.of (T := ⟨S8x1x262144x1, .i1⟩) main_call3_v10) (TRef.of (T := ⟨S8x1x262144x1, .i1⟩) main_call3_v11) andi,
    TRef.nullary (TRef.of (T := ⟨S_, .i1⟩) main_call3_c_3) (constantI S_ 1 1#1),
    TRef.binary (TRef.of (T := ⟨S8x1x262144x1, .i1⟩) main_call3_v11) (TRef.of (T := ⟨S_, .i1⟩) main_call3_c_3) (TRef.of (T := ⟨S8x1x262144, .i1⟩) main_call3_v12) (fun x v => Host.reduce IntOp.andi x v reducesTo_S8x1x262144x1_S8x1x262144_d3 h_S_),
    TRef.binary (TRef.of (T := ⟨S8x8x262144, .f32⟩) main_v33) (TRef.of (T := ⟨S8x1x262144x1, .i32⟩) main_call3_v5) (TRef.of (T := ⟨S8x1x262144, .f32⟩) main_call3_v13) (fun x i => Host.gather gather_S8x8x262144_S8x1x262144x1_S8x1x262144_n_1_02_02_1_3_111 x i),
    TRef.nullary (TRef.of (T := ⟨S_, .f32⟩) main_call3_cst) (constant S_ .f32 0x7FC00000#32),
    TRef.unary (TRef.of (T := ⟨S_, .f32⟩) main_call3_cst) (TRef.of (T := ⟨S8x1x262144, .f32⟩) main_call3_v14) (broadcastInDim S8x1x262144 ![] bcast_S_S8x1x262144),
    TRef.ternary (TRef.of (T := ⟨S8x1x262144, .i1⟩) main_call3_v12) (TRef.of (T := ⟨S8x1x262144, .f32⟩) main_call3_v13) (TRef.of (T := ⟨S8x1x262144, .f32⟩) main_call3_v14) (TRef.of (T := ⟨S8x1x262144, .f32⟩) main_v35) select ]

/-- The last stretch: the mean, its negation, and the sum with the J term: the result `main_v40`. -/
abbrev c5 : List (HloOp τ sig (Elt F)) :=
  [nullary main_cst_4 (constant S_ .f32 0x00000000#32),
    binary main_v35 main_cst_4 main_v36 ((fun x v => Host.reduceAdd x v reducesTo_S8x1x262144_S_d0_1_2 h_S_) : (⟨S8x1x262144, .f32⟩ : BufTy).Contents (Elt F) → (⟨S_, .f32⟩ : BufTy).Contents (Elt F) → (⟨S_, .f32⟩ : BufTy).Contents (Elt F)),
    nullary main_cst_5 (constant S_ .f32 0x4A000000#32),
    binary main_v36 main_cst_5 main_v37 (Host.divf : (⟨S_, .f32⟩ : BufTy).Contents (Elt F) → (⟨S_, .f32⟩ : BufTy).Contents (Elt F) → (⟨S_, .f32⟩ : BufTy).Contents (Elt F)),
    unary main_v37 main_v38 (Host.negf : (⟨S_, .f32⟩ : BufTy).Contents (Elt F) → (⟨S_, .f32⟩ : BufTy).Contents (Elt F)),
    unary main_v38 main_v39 (broadcastInDim S8 ![] bcast_S_S8 : (⟨S_, .f32⟩ : BufTy).Contents (Elt F) → (⟨S8, .f32⟩ : BufTy).Contents (Elt F)),
    binary main_v32 main_v39 main_v40 (addf : (⟨S8, .f32⟩ : BufTy).Contents (Elt F) → (⟨S8, .f32⟩ : BufTy).Contents (Elt F) → (⟨S8, .f32⟩ : BufTy).Contents (Elt F)) ]

/-- The five stretches are the whole list. -/
theorem ops_split : (ops : List (HloOp τ sig (Elt F))) = c1 ++ (c2 ++ (c3 ++ (c4 ++ c5))) := rfl

/-- A value carried to its buffer's type and back is the value. -/
theorem ofBuf_toBuf {Val : EltTy → Type} {T : BufTy} (x : TRef sig T) (v : T.Contents Val) : x.ofBuf (x.toBuf v) = v := by
  obtain ⟨r, rfl, _, _⟩ := x; rfl
theorem toBuf_ofBuf {Val : EltTy → Type} {T : BufTy} (x : TRef sig T) (v : x.ref.ty.Contents Val) : x.toBuf (x.ofBuf v) = v := by
  obtain ⟨r, rfl, _, _⟩ := x; rfl

/-- Read a stretch back: each operation's result at its own buffer is its function's value, every other buffer is as
    before; inside a concatenate's operand list the rewriting goes on one operation at a time; a value carried to a buffer's type
    and straight back is the value. -/
local macro "read_back" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             try simp only [ofBuf_toBuf, toBuf_ofBuf]))

variable (Vv : Valuation τ sig (Elt F))

-- a fold over an array's indices, and a gather, are compared through their operands, never opened
attribute [local irreducible] Host.reduce Host.gather

/-! ## The first stretch -/

set_option maxHeartbeats 4000000 in
set_option maxRecDepth 65536 in
theorem c1_v7 : after c1 Vv (Proc.devRef .tc main_v7) = val_main_v7 (F := F) (Vv (Proc.devRef .tc main_arg0)) (Vv (Proc.devRef .tc main_arg1)) := by
  unfold c1; read_back; rfl
set_option maxHeartbeats 4000000 in
theorem c1_v0 : after c1 Vv (Proc.devRef .tc main_v0) = val_main_v0 (F := F) (Vv (Proc.devRef .tc main_arg0)) := by
  unfold c1; read_back; rfl
set_option maxHeartbeats 4000000 in
theorem c1_v1 : after c1 Vv (Proc.devRef .tc main_v1) = val_main_v1 (F := F) (Vv (Proc.devRef .tc main_arg1)) := by
  unfold c1; read_back; rfl
set_option maxHeartbeats 4000000 in
theorem c1_arg2 : after c1 Vv (Proc.devRef .tc main_arg2) = (Vv (Proc.devRef .tc main_arg2)) := by
  unfold c1; read_back

/-! ## The second stretch -/

set_option maxHeartbeats 4000000 in
set_option maxRecDepth 65536 in
theorem c2_v32 (x0 : (⟨S8x8x512x512, .f32⟩ : BufTy).Contents (Elt F)) (x1 : (⟨S8x512x512, .i32⟩ : BufTy).Contents (Elt F)) (x2 : (⟨S8x8, .f32⟩ : BufTy).Contents (Elt F))
    (h7 : (Vv (Proc.devRef .tc main_v7)) = val_main_v7 (F := F) x0 x1) (h2 : (Vv (Proc.devRef .tc main_arg2)) = x2) :
    after c2 Vv (Proc.devRef .tc main_v32) = val_main_v32 (F := F) x0 x1 x2 := by
  unfold c2; read_back; rw [h7, h2]; rfl
set_option maxHeartbeats 4000000 in
theorem c2_v0 : after c2 Vv (Proc.devRef .tc main_v0) = (Vv (Proc.devRef .tc main_v0)) := by
  unfold c2; read_back
set_option maxHeartbeats 4000000 in
theorem c2_v1 : after c2 Vv (Proc.devRef .tc main_v1) = (Vv (Proc.devRef .tc main_v1)) := by
  unfold c2; read_back

/-! ## The third stretch -/

set_option maxHeartbeats 4000000 in
set_option maxRecDepth 65536 in
theorem c3_v33 (x0 : (⟨S8x8x512x512, .f32⟩ : BufTy).Contents (Elt F)) (h0 : (Vv (Proc.devRef .tc main_v0)) = val_main_v0 (F := F) x0) :
    after c3 Vv (Proc.devRef .tc main_v33) = val_main_v33 (F := F) x0 := by
  unfold c3; read_back; rw [h0]; rfl
set_option maxHeartbeats 4000000 in
theorem c3_v32 : after c3 Vv (Proc.devRef .tc main_v32) = (Vv (Proc.devRef .tc main_v32)) := by
  unfold c3; read_back
set_option maxHeartbeats 4000000 in
theorem c3_v1 : after c3 Vv (Proc.devRef .tc main_v1) = (Vv (Proc.devRef .tc main_v1)) := by
  unfold c3; read_back

/-! ## The fourth stretch -/

set_option maxHeartbeats 4000000 in
set_option maxRecDepth 65536 in
theorem c4_v35 (x0 : (⟨S8x8x512x512, .f32⟩ : BufTy).Contents (Elt F)) (x1 : (⟨S8x512x512, .i32⟩ : BufTy).Contents (Elt F))
    (h33 : (Vv (Proc.devRef .tc main_v33)) = val_main_v33 (F := F) x0) (h1 : (Vv (Proc.devRef .tc main_v1)) = val_main_v1 (F := F) x1) :
    after c4 Vv (Proc.devRef .tc main_v35) = val_main_v35 (F := F) x0 x1 := by
  unfold c4; read_back; rw [h33, h1]; rfl
set_option maxHeartbeats 4000000 in
theorem c4_v32 : after c4 Vv (Proc.devRef .tc main_v32) = (Vv (Proc.devRef .tc main_v32)) := by
  unfold c4; read_back

/-! ## The last stretch -/

set_option maxHeartbeats 4000000 in
theorem c5_v40 (x0 : (⟨S8x8x512x512, .f32⟩ : BufTy).Contents (Elt F)) (x1 : (⟨S8x512x512, .i32⟩ : BufTy).Contents (Elt F)) (x2 : (⟨S8x8, .f32⟩ : BufTy).Contents (Elt F))
    (h32 : (Vv (Proc.devRef .tc main_v32)) = val_main_v32 (F := F) x0 x1 x2) (h35 : (Vv (Proc.devRef .tc main_v35)) = val_main_v35 (F := F) x0 x1) :
    after c5 Vv (Proc.devRef .tc main_v40) = val_main_v40 (F := F) x0 x1 x2 := by
  unfold c5; read_back; rw [h32, h35]; rfl

/-! ## The whole list -/

/-- After all 108 operations the result buffer holds the last stage of the three argument buffers' contents. -/
theorem after_ops : after (ops : List (HloOp τ sig (Elt F))) Vv (Proc.devRef .tc main_v40)
    = val_main_v40 (F := F) (Vv (Proc.devRef .tc main_arg0)) (Vv (Proc.devRef .tc main_arg1)) (Vv (Proc.devRef .tc main_arg2)) := by
  rw [ops_split, StableHlo.after_append, StableHlo.after_append, StableHlo.after_append, StableHlo.after_append]
  exact c5_v40 _ _ _ _
    ((c4_v32 _).trans ((c3_v32 _).trans (c2_v32 _ _ _ _ (c1_v7 Vv) (c1_arg2 Vv))))
    (c4_v35 _ _ _ (c3_v33 _ _ ((c2_v0 _).trans (c1_v0 Vv))) ((c3_v1 _).trans ((c2_v1 _).trans (c1_v1 Vv))))

set_option maxHeartbeats 8000000 in
set_option maxRecDepth 65536 in
/-- No operation writes an argument buffer. -/
theorem after_ops_args : after (ops : List (HloOp τ sig (Elt F))) Vv (Proc.devRef .tc main_arg0) = (Vv (Proc.devRef .tc main_arg0))
    ∧ after (ops : List (HloOp τ sig (Elt F))) Vv (Proc.devRef .tc main_arg1) = (Vv (Proc.devRef .tc main_arg1))
    ∧ after (ops : List (HloOp τ sig (Elt F))) Vv (Proc.devRef .tc main_arg2) = (Vv (Proc.devRef .tc main_arg2)) := by
  refine ⟨?_, ?_, ?_⟩ <;> (unfold ops; read_back)

/-- On every device, for any float values, from any memory with zero counters: every weakly fair execution of @main
    terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40) = val_main_v40 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v40).trans (after_ops _),
      (h c main_arg0).trans (after_ops_args _).1,
      (h c main_arg1).trans (after_ops_args _).2.1,
      (h c main_arg2).trans (after_ops_args _).2.2⟩)
    (run_seq scopedRefs_eq scopedSems_eq defs main (fun _ => ops) main_eq (fun _ => ops_sub) m ρ)

end Cert.ReferenceIdeal.RunH

end
-- ==== Proof.lean ====
/-
  The certificate's claim. The kernel computes, per batch row, the J-statistic regularizer of the class-mean matrix
  (logits averaged over the pixels of each class) plus the mean cross entropy of the logits against the labels; the
  reference computes the same from a one-hot normalised by the class counts and a log-softmax gather.

  The three frames are the generated frame runs (the reference's is its run, read stretch by stretch, with the result
  dropped). The idealization rewrote nothing. Over the extended reals, from memories agreeing on the arguments and
  under the precondition — finite logits and weights, labels in [0, 8), every class present in every batch row — both
  programs end with the same result: the kernel's run leaves `kres` of its three accumulated result arrays, the
  reference's leaves its last stage, and `Cert.Final.result_eq` identifies the two.
-/
import proofs.«408249_j70841190580811_3_alg».proof.Defs
import proofs.«408249_j70841190580811_3_alg».proof.Proof.Gen.Kernel
import proofs.«408249_j70841190580811_3_alg».proof.Proof.Gen.Kernel.Skeleton
import proofs.«408249_j70841190580811_3_alg».proof.Proof.Gen.Kernel.Launch
import proofs.«408249_j70841190580811_3_alg».proof.Proof.Gen.Kernel.Points
import proofs.«408249_j70841190580811_3_alg».proof.Proof.Gen.Kernel.Frame
import proofs.«408249_j70841190580811_3_alg».proof.Proof.Gen.KernelIdeal
import proofs.«408249_j70841190580811_3_alg».proof.Proof.Gen.KernelIdeal.Skeleton
import proofs.«408249_j70841190580811_3_alg».proof.Proof.Gen.KernelIdeal.Launch
import proofs.«408249_j70841190580811_3_alg».proof.Proof.Gen.KernelIdeal.Points
import proofs.«408249_j70841190580811_3_alg».proof.Proof.Gen.KernelIdeal.Frame
import proofs.«408249_j70841190580811_3_alg».proof.Proof.Gen.ReferenceIdeal
import proofs.«408249_j70841190580811_3_alg».proof.Proof.Gen.Pre_finite_inputs
import proofs.«408249_j70841190580811_3_alg».proof.Proof.Final
import proofs.«408249_j70841190580811_3_alg».proof.Proof.RefRunH
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunH.run (F := Ideal) m ρ)

theorem preserves : Cert.preserves_Kernel_KernelIdeal := trivial

/-- At the exact instance the kernel's result buffer ends at `kres` of its result arrays and the reference's at its
    last stage of arguments that agree; under the precondition these are equal. -/
theorem algebraic : Cert.algebraic_KernelIdeal_ReferenceIdeal := by
  intro m ρ m' ρ' hpre hagree
  refine ⟨fun c => Cert.KernelIdeal.KV.kres (Cert.KernelIdeal.KV.G2 m c) (Cert.KernelIdeal.KV.G3 m c) (Cert.KernelIdeal.KV.G4 m c)
      (m ((c.tc : Thread Cert.KernelIdeal.nD Cert.KernelIdeal.τ).loc Cert.KernelIdeal.main_arg2)),
    Cert.KernelIdeal.KV.run (F := Ideal) m ρ, ?_⟩
  refine (θ_run Cert.ReferenceIdeal.defs _ _).mono (fun _ h c => ⟨(h c).1.trans ?_, (h c).2⟩)
    (Cert.ReferenceIdeal.RunH.run (F := Ideal) m' ρ')
  rw [(hagree c).1, (hagree c).2.1, (hagree c).2.2]
  exact Cert.Final.result_eq m c (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
